-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : FVec F S1024x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  main_v3
-- ==== Pre_finite_inputs_ReferenceIdeal.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S1024x2048 : Shape := ⟨2, ![1024, 2048]⟩
abbrev S4096x512 : Shape := ⟨2, ![4096, 512]⟩
abbrev S_ : Shape := ⟨0, ![]⟩
abbrev S3 : Shape := ⟨1, ![3]⟩
abbrev S1 : Shape := ⟨1, ![1]⟩
abbrev S1024x512 : Shape := ⟨2, ![1024, 512]⟩

abbrev nBuf : Space → Nat
  | .hbm => 2
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4096x512, .f32⟩
  | _, _ => ⟨S1024x2048, .f32⟩

abbrev bufScoped : (cs : CoreSpace) → Fin (nBuf (.core cs)) → Bool
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v19 : BitVec 32 := Scalar.muli v2 c1024_i32
  let c0_i32_19 : BitVec 32 := 0#32
  ![v19.toNat, 0]
def k0_off2 (d0 : Dev nD) (c1_i32_13 : BitVec 32) : Fin 2 → Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c512_i32 : BitVec 32 := 512#32
  let v18 : BitVec 32 := Scalar.muli v17 c512_i32
  ![0, v18.toNat]
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_17 : BitVec 32 := 1#32
  let v20 : BitVec 32 := Scalar.muli v17 c1_i32_17
  let v21 : BitVec 32 := Scalar.addi c0_i32_18 v20
  v21.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_21 : BitVec 32 := 2#32
  let v28 : BitVec 32 := Scalar.addi v2 c2_i32_21
  let c4_i32_22 : BitVec 32 := 4#32
  let v29 : BitVec 32 := Scalar.remsi v28 c4_i32_22
  let c1_i32_27 : BitVec 32 := 1#32
  let v32 : BitVec 32 := Scalar.muli v29 c1_i32_27
  let v33 : BitVec 32 := Scalar.addi c0_i32_28 v32
  v33.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_31 : BitVec 32 := 3#32
  let v40 : BitVec 32 := Scalar.addi v2 c3_i32_31
  let c4_i32_32 : BitVec 32 := 4#32
  let v41 : BitVec 32 := Scalar.remsi v40 c4_i32_32
  let c1_i32_37 : BitVec 32 := 1#32
  let v44 : BitVec 32 := Scalar.muli v41 c1_i32_37
  let v45 : BitVec 32 := Scalar.addi c0_i32_38 v44
  v45.toNat
def k0_off3 (d0 : Dev nD) : Fin 2 → Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_41 : BitVec 32 := 512#32
  let v52 : BitVec 32 := Scalar.muli v2 c512_i32_41
  ![0, v52.toNat]
def k0_off4 (d0 : Dev nD) (c1_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.subi v2 c1_i32_62
  let c4_i32_63 : BitVec 32 := 4#32
  let v71 : BitVec 32 := Scalar.addi v70 c4_i32_63
  let c4_i32_64 : BitVec 32 := 4#32
  let v72 : BitVec 32 := Scalar.remsi v71 c4_i32_64
  let c1024_i32_66 : BitVec 32 := 1024#32
  let v74 : BitVec 32 := Scalar.muli v72 c1024_i32_66
  let c0_i32_71 : BitVec 32 := 0#32
  ![v74.toNat, 0]
def k0_off5 (d0 : Dev nD) (c1_i32_62 : BitVec 32) : Fin 2 → Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.subi v2 c1_i32_62
  let c4_i32_63 : BitVec 32 := 4#32
  let v71 : BitVec 32 := Scalar.addi v70 c4_i32_63
  let c4_i32_64 : BitVec 32 := 4#32
  let v72 : BitVec 32 := Scalar.remsi v71 c4_i32_64
  let c512_i32_65 : BitVec 32 := 512#32
  let v73 : BitVec 32 := Scalar.muli v72 c512_i32_65
  ![0, v73.toNat]

class Facts₀ : Prop where
  hamt_1 : (1#32 : BitVec 32).msb = false
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  hcc0_scratch0 : 0 + S_.numel ≤ 7
  hcc0_scratch1 : 1 + S3.numel ≤ 7
  hcc0_scratch2 : 4 + S3.numel ≤ 7
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1024x512.size a ≤ S4096x512.size a
  k0_off2_inb : ∀ d0 : Dev nD, ∀ (r : Fin 3), ∀ a, (k0_off2 d0 (BitVec.ofNat 32 (1 + r.val))) a + S1024x512.size a ≤ S1024x2048.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off3_inb : ∀ d0 : Dev nD, ∀ a, (k0_off3 d0) a + S1024x512.size a ≤ S1024x2048.size a
  k0_off4_inb : ∀ d0 : Dev nD, ∀ (r : Fin 3), ∀ a, (k0_off4 d0 (BitVec.ofNat 32 (1 + r.val))) a + S1024x512.size a ≤ S4096x512.size a
  k0_off5_inb : ∀ d0 : Dev nD, ∀ (r : Fin 3), ∀ a, (k0_off5 d0 (BitVec.ofNat 32 (1 + r.val))) a + S1024x512.size a ≤ S1024x2048.size a

variable [Facts₀]

abbrev cc0_scratch0 : DmaSems sig S_ := SemArray.consecutive 0 S_ hcc0_scratch0
abbrev cc0_scratch1 : DmaSems sig S3 := SemArray.consecutive 1 S3 hcc0_scratch1
abbrev cc0_scratch2 : DmaSems sig S3 := SemArray.consecutive 4 S3 hcc0_scratch2

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4096x2048 : Shape := ⟨2, ![4096, 2048]⟩

abbrev nBuf : Space → Nat
  | .hbm => 1
  | .vmem => 0
  | .smem => 0
  | _ => 0

abbrev bufTy : (tb : Table) → Fin (tcTables nBuf tb) → BufTy
  | .hbm, ⟨0, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelSpec.lean ====
/-
  What the all-to-all leaves in each device's result array, as ONE function of the four devices' argument arrays.

  Device `c` holds an argument block of 1024 rows and 2048 columns and a result array of 4096 rows and 512 columns.
  Row block `s` of device `c`'s result (rows `1024 s` to `1024 s + 1023`) is column block `c` of device `s`'s argument
  (columns `512 c` to `512 c + 511`): entry `(1024 s + r, l)` of the result is entry `(r, 512 c + l)` of device `s`'s
  argument. Nothing is computed: every entry of the result is one entry of one argument array.
-/
import proofs.«900001_g7700000000000002_dist_a2a_v7x_i4_i_m1024_n512_f32_1_alg».proof.Kernel
import Idealize.ShloMosaic.Lib.ValueIdx

noncomputable section

namespace Cert.Kernel.A2A

open Cert.Kernel
open Idealize.ShloMosaic Idealize.ShloMosaic.TcCoe Idealize.SL.Sem
open Idealize.ShloMosaic.ValueIdx

variable {F : FTy → Type} [FloatOps F]

/-- The device whose argument a result row comes from: the row's block of 1024. -/
def rowDev (i : S4096x512.Idx) : Dev nD := ⟨(i 0).val / 1024, by have h : (i 0).val < 4096 := (i 0).isLt; show (i 0).val / 1024 < 4; omega⟩

/-- Where in that device's argument array entry `i` of device `c`'s result comes from. -/
def srcIdx (c : Dev nD) (i : S4096x512.Idx) : S1024x2048.Idx :=
  ix2 ⟨(i 0).val % 1024, Nat.mod_lt _ (by decide)⟩
    ⟨512 * c.val + (i 1).val, by have h : (i 1).val < 512 := (i 1).isLt; have hc : c.val < 4 := c.isLt; show 512 * c.val + (i 1).val < 2048; omega⟩

variable (m : (ℓ : Loc nD τ sig) → Buf (Elt F) ℓ)

/-- Device `c`'s argument array as the run finds it. -/
abbrev argAt (c : Dev nD) : Buf (Elt F) ((c : Thread nD τ).loc main_arg0) := m ((c : Thread nD τ).loc main_arg0)

/-- Device `c`'s result array after the run: row block `s` is column block `c` of device `s`'s argument. -/
def outFinal (c : Dev nD) : Buf (Elt F) ((c : Thread nD τ).loc main_v1) :=
  fun i => argAt m (rowDev i) (srcIdx c i)

theorem outFinal_apply (c : Dev nD) (i : S4096x512.Idx) : outFinal m c i = argAt m (rowDev i) (srcIdx c i) := rfl

end Cert.Kernel.A2A

end
-- ==== Proof.KernelProto.lean ====
/-
  The all-to-all's protocol on the four devices, under the rounds discipline.

  Device `c` signals the barrier semaphore of its three peers `peer c 0, peer c 1, peer c 2` (the devices one, two and
  three places after it on the ring of four), waits for three units on its own, sends column block `peer c j` of its
  argument into row block `c` of `peer c j`'s result (copy `j`: its own send semaphore `j`, the target's receive semaphore
  `j`), copies its own column block `c` into row block `c` of its own result, waits for that copy, for its three sends and
  for its three receives. The copy landing on receive semaphore `j` of device `c` comes from `src c j`, the device
  `j + 1` places before it.

  Every semaphore is one cell with one round. A barrier cell has three duties of one unit: duty `j` of device `e`'s
  cell is paid by `peer e j` and hands `e` row block `e` of `peer e j`'s result array together with the fact that
  `peer e j` stands at round 0 of its receive cell `j`: what `e`'s copy `j` needs. The send, receive and local-copy
  cells have one duty each, of one block's credit: a send cell gives the column block back, a receive cell hands its
  owner the row block holding what was sent, the local cell both blocks of the local copy.
-/
import proofs.«900001_g7700000000000002_dist_a2a_v7x_i4_i_m1024_n512_f32_1_alg».proof.Proof.KernelSpec
import proofs.«900001_g7700000000000002_dist_a2a_v7x_i4_i_m1024_n512_f32_1_alg».proof.Proof.Gen.Kernel.Skeleton
import proofs.«900001_g7700000000000002_dist_a2a_v7x_i4_i_m1024_n512_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring of four -/

/-- The device `j + 1` places after `c`: the target of `c`'s signal `j` and of its copy `j`. -/
def peer (c : Dev nD) (j : Fin 3) : Dev nD := ⟨(c.val + 1 + j.val) % 4, Nat.mod_lt _ (by decide)⟩
/-- The device `j + 1` places before `c`: where the copy landing on `c`'s receive semaphore `j` comes from. -/
def src (c : Dev nD) (j : Fin 3) : Dev nD := ⟨(c.val + 3 - j.val) % 4, Nat.mod_lt _ (by decide)⟩
/-- Signal `j` of a device pays duty `rev j` of its target's barrier cell. -/
def rev (j : Fin 3) : Fin 3 := ⟨2 - j.val, by omega⟩

theorem src_peer (c : Dev nD) (j : Fin 3) : src (peer c j) j = c := by revert c j; decide
theorem peer_src (c : Dev nD) (j : Fin 3) : peer (src c j) j = c := by revert c j; decide
theorem peer_peer_rev (c : Dev nD) (j : Fin 3) : peer (peer c j) (rev j) = c := by revert c j; decide
theorem rev_rev (j : Fin 3) : rev (rev j) = j := by revert j; decide
theorem peer_ne (c : Dev nD) (j : Fin 3) : peer c j ≠ c := by revert c j; decide
theorem src_ne (c : Dev nD) (j : Fin 3) : src c j ≠ c := by revert c j; decide
theorem peer_inj (c : Dev nD) (i j : Fin 3) (h : peer c i = peer c j) : i = j := by revert c i j; decide
theorem src_inj (c : Dev nD) (i j : Fin 3) (h : src c i = src c j) : i = j := by revert c i j; decide

/-- The kernel's `device_id` chains: signal and copy `j` name `peer c j`. -/
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 0 := Fin.ext (k0_dev4_eq c)
theorem dev5_eq (c : Dev nD) : (⟨k0_dev5 c, k0_dev5_lt c⟩ : Dev nD) = peer c 1 := Fin.ext (k0_dev5_eq c)
theorem dev6_eq (c : Dev nD) : (⟨k0_dev6 c, k0_dev6_lt c⟩ : Dev nD) = peer c 2 := Fin.ext (k0_dev6_eq c)

/-! ## The memrefs, as the body spells them -/

abbrev xM : Memref sig .tc .hbm S1024x2048 .f32 := Memref.whole main_arg0
abbrev oM : Memref sig .tc .hbm S4096x512 .f32 := Memref.whole main_v1

/-- Column block `peer c j` of `c`'s argument: the source of copy `j`. -/
abbrev srcSl (c : Dev nD) (j : Fin 3) : Memref sig .tc .hbm S1024x512 .f32 :=
  xM.slice (Rect.unit (s := S1024x2048) (k0_off2 c (BitVec.ofNat 32 (1 + j.val))) S1024x512.size (k0_off2_inb c j)) (fun _ => rfl)
/-- Column block `c` of `c`'s argument: the source of the local copy. -/
abbrev locSl (c : Dev nD) : Memref sig .tc .hbm S1024x512 .f32 :=
  xM.slice (Rect.unit (s := S1024x2048) (k0_off3 c) S1024x512.size (k0_off3_inb c)) (fun _ => rfl)
/-- Row block `c` of a result array: where everything `c` sends or copies lands, on whichever device. -/
abbrev dstSl (c : Dev nD) : Memref sig .tc .hbm S1024x512 .f32 :=
  oM.slice (Rect.unit (s := S4096x512) (k0_off1 c) S1024x512.size (k0_off1_inb c)) (fun _ => rfl)

/-- The runtime's barrier semaphore (unscoped); the local copy's, the send and the receive DMA semaphores (scoped scratch). -/
abbrev barS : Sem sig := (SemArray.scalar (sig.barrier 0 rfl) : Sems sig S_).sem
abbrev locS : DmaSem sig := cc0_scratch0.sem
abbrev sendS0 : DmaSem sig := ((cc0_scratch1.slice (Rect.unit (s := S3) ![0] S1.size inb_S3_S1_0)).squeeze S_ squeezes_S1_S_).sem
abbrev sendS1 : DmaSem sig := ((cc0_scratch1.slice (Rect.unit (s := S3) ![1] S1.size inb_S3_S1_1)).squeeze S_ squeezes_S1_S_).sem
abbrev sendS2 : DmaSem sig := ((cc0_scratch1.slice (Rect.unit (s := S3) ![2] S1.size inb_S3_S1_2)).squeeze S_ squeezes_S1_S_).sem
abbrev recvS0 : DmaSem sig := ((cc0_scratch2.slice (Rect.unit (s := S3) ![0] S1.size inb_S3_S1_0)).squeeze S_ squeezes_S1_S_).sem
abbrev recvS1 : DmaSem sig := ((cc0_scratch2.slice (Rect.unit (s := S3) ![1] S1.size inb_S3_S1_1)).squeeze S_ squeezes_S1_S_).sem
abbrev recvS2 : DmaSem sig := ((cc0_scratch2.slice (Rect.unit (s := S3) ![2] S1.size inb_S3_S1_2)).squeeze S_ squeezes_S1_S_).sem
abbrev sendS : Fin 3 → DmaSem sig := fun | 0 => sendS0 | 1 => sendS1 | 2 => sendS2
abbrev recvS : Fin 3 → DmaSem sig := fun | 0 => recvS0 | 1 => recvS1 | 2 => recvS2

abbrev barCell (c : Dev nD) : GSem nD τ sig := ((c : Thread nD τ), .reg barS)
abbrev locCell (c : Dev nD) : GSem nD τ sig := ((c : Thread nD τ), .dma locS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The eight semaphores of a device as this proof indexes them: barrier; local; send 0–2; receive 0–2. -/
abbrev csem : Fin 8 → SemLoc sig := fun
  | 0 => .reg barS | 1 => .dma locS | 2 => .dma sendS0 | 3 => .dma sendS1 | 4 => .dma sendS2
  | 5 => .dma recvS0 | 6 => .dma recvS1 | 7 => .dma recvS2
abbrev kcell (ck : Dev nD × Fin 8) : GSem nD τ sig := ((ck.1 : Thread nD τ), csem ck.2)
/-- The kernel's OWN (scoped) semaphores, as the launch theorem indexes them. -/
abbrev osem : Fin 7 → SemLoc sig := fun
  | 0 => .dma locS | 1 => .dma sendS0 | 2 => .dma sendS1 | 3 => .dma sendS2 | 4 => .dma recvS0 | 5 => .dma recvS1 | 6 => .dma recvS2

/-- One block's credit. -/
def N : ℕ := (dstSl (0 : Dev nD)).view.dmaCredit
theorem N_pos : 0 < N := View.dmaCredit_pos _ (by decide)

/-! ## Contents -/

/-- Device `c`'s result array as the run finds it. -/
abbrev outAt (c : Dev nD) : Buf (Elt F) ((c : Thread nD τ).loc main_v1) := m ((c : Thread nD τ).loc main_v1)

/-- What `s`'s copy `j` leaves in `peer s j`'s result array (read on its row block `s`). -/
def landed (s : Dev nD) (j : Fin 3) : Buf (Elt F) (((peer s j : Dev nD) : Thread nD τ).loc main_v1) :=
  (dstSl s).view.write (Elt F) (outAt m (peer s j)) ((srcSl s j).view.read (Elt F) (argAt m s)) Finset.univ
/-- What `c`'s local copy leaves in its own result array (read on its row block `c`). -/
def locLanded (c : Dev nD) : Buf (Elt F) ((c : Thread nD τ).loc main_v1) :=
  (dstSl c).view.write (Elt F) (outAt m c) ((locSl c).view.read (Elt F) (argAt m c)) Finset.univ

/-- Row block `s` of device `d`'s result array, at contents `f`. -/
def rowPts (d s : Dev nD) (f : Buf (Elt F) ((d : Thread nD τ).loc main_v1)) : sProp 𝕄 :=
  (dstSl s).view.loc (d : Thread nD τ) ↦[(dstSl s).view.set]{fullShare} f
/-- The column block of `c`'s argument that copy `j` reads, and the one the local copy reads. -/
def colPts (c : Dev nD) (j : Fin 3) : sProp 𝕄 :=
  (srcSl c j).view.loc (c : Thread nD τ) ↦[(srcSl c j).view.set]{fullShare} argAt m c
def colLoc (c : Dev nD) : sProp 𝕄 :=
  (locSl c).view.loc (c : Thread nD τ) ↦[(locSl c).view.set]{fullShare} argAt m c

omit [FloatOps F] in
instance rowPts_storable (d s : Dev nD) (f) : BI.Storable (upEmb : UEmb _ 𝕄) (rowPts (F := F) d s f) := by unfold rowPts; infer_instance
omit [FloatOps F] in
instance colPts_storable (c : Dev nD) (j : Fin 3) : BI.Storable (upEmb : UEmb _ 𝕄) (colPts (F := F) m c j) := by unfold colPts; infer_instance
omit [FloatOps F] in
instance colLoc_storable (c : Dev nD) : BI.Storable (upEmb : UEmb _ 𝕄) (colLoc (F := F) m c) := by unfold colLoc; infer_instance

/-! ## The schedule -/

/-- What `peer e j`'s signal (duty `j` of `e`'s barrier cell) hands `e`: row block `e` of `peer e j`'s result array as the
    run found it, and that `peer e j` stands at round 0 of its receive cell `j`. -/
def barPay (e : Dev nD) (j : Fin 3) : sProp 𝕄 :=
  iprop(rowPts (peer e j) e (outAt m (peer e j)) ∗ reached ER (recvCell (peer e j) j) 0)
/-- What lands on `c`'s receive cell `j`: row block `src c j` of its result array holding what `src c j` sent. -/
def recvPay (c : Dev nD) (j : Fin 3) : sProp 𝕄 := rowPts (peer (src c j) j) (src c j) (landed m (src c j) j)
def sendPay (c : Dev nD) (j : Fin 3) : sProp 𝕄 := colPts m c j
def locPay (c : Dev nD) : sProp 𝕄 := iprop(rowPts c c (locLanded m c) ∗ colLoc m c)

/-- Which copy a send or receive semaphore belongs to. -/
def jOf (q : DmaSem sig) : Fin 3 := ⟨(q.val + 2) % 3, Nat.mod_lt _ (by decide)⟩

/-- One round, round 0: a barrier cell has three duties of one unit; every DMA cell the duty `0` of one block's credit. -/
def a2aRd : Rounds.Schedule (GSem nD τ sig) (Fin 3) 𝕄 where
  duties g r := if r = 0 ∧ g.1.2 = .tc then (match g.2 with | .reg _ => {0, 1, 2} | .dma _ => {0}) else ∅
  unitless _ := False
  amount g _ _ := match g.2 with | .reg _ => 1 | .dma _ => N
  payload g _ d := match g.2 with
    | .reg _ => barPay m g.1.1 d
    | .dma q => if q.val = 0 then locPay m g.1.1 else if q.val ≤ 3 then sendPay m g.1.1 (jOf q) else recvPay m g.1.1 (jOf q)
  amount_pos g _ _ _ := by
    rcases g with ⟨t, _ | _⟩
    · exact Nat.one_pos
    · exact N_pos

instance a2aRd_payload_storable (g : GSem nD τ sig) (r : ℕ) (d : Fin 3) :
    BI.Storable (upEmb : UEmb _ 𝕄) ((a2aRd (F := F) m).payload g r d) := by
  rcases g with ⟨t, s | q⟩
  · show BI.Storable upEmb (barPay m t.1 d)
    unfold barPay; infer_instance
  · show BI.Storable upEmb (if q.val = 0 then locPay m t.1 else if q.val ≤ 3 then sendPay m t.1 (jOf q) else recvPay m t.1 (jOf q))
    unfold locPay sendPay recvPay
    (repeat' split) <;> infer_instance

section Sched
variable (c : Dev nD) (j : Fin 3)

omit [FloatOps F] in
theorem duties_bar : (a2aRd (F := F) m).duties (barCell c) 0 = {0, 1, 2} := by dsimp only [a2aRd]; exact if_pos ⟨rfl, rfl⟩
omit [FloatOps F] in
theorem duties_loc : (a2aRd (F := F) m).duties (locCell c) 0 = {0} := by dsimp only [a2aRd]; exact if_pos ⟨rfl, rfl⟩
omit [FloatOps F] in
theorem duties_send : (a2aRd (F := F) m).duties (sendCell c j) 0 = {0} := by dsimp only [a2aRd]; exact if_pos ⟨rfl, rfl⟩
omit [FloatOps F] in
theorem duties_recv : (a2aRd (F := F) m).duties (recvCell c j) 0 = {0} := by dsimp only [a2aRd]; exact if_pos ⟨rfl, rfl⟩
omit [FloatOps F] in
theorem duties_later (g : GSem nD τ sig) : ∀ r, 1 ≤ r → (a2aRd (F := F) m).duties g r = ∅ :=
  fun r hr => by dsimp only [a2aRd]; rw [if_neg fun h => by omega]

omit [FloatOps F] in
theorem amount_bar (d : Fin 3) : (a2aRd (F := F) m).amount (barCell c) 0 d = 1 := rfl
omit [FloatOps F] in
theorem amount_loc (d : Fin 3) : (a2aRd (F := F) m).amount (locCell c) 0 d = N := rfl
omit [FloatOps F] in
theorem amount_send (d : Fin 3) : (a2aRd (F := F) m).amount (sendCell c j) 0 d = N := rfl
omit [FloatOps F] in
theorem amount_recv (d : Fin 3) : (a2aRd (F := F) m).amount (recvCell c j) 0 d = N := rfl

omit [FloatOps F] in
theorem expect_bar : (a2aRd (F := F) m).expect (barCell c) 0 = 3 := by
  exact (congrArg (fun S : Finset (Fin 3) => ∑ d ∈ S, (a2aRd (F := F) m).amount (barCell c) 0 d) (duties_bar m c)).trans
    ((Finset.sum_congr rfl fun d _ => amount_bar m c d).trans (by decide))
omit [FloatOps F] in
theorem expect_loc : (a2aRd (F := F) m).expect (locCell c) 0 = N := by
  rw [Schedule.expect.eq_1, duties_loc]
  exact (Finset.sum_singleton (fun d => (a2aRd (F := F) m).amount (locCell c) 0 d) 0).trans (amount_loc m c 0)
omit [FloatOps F] in
theorem expect_send : (a2aRd (F := F) m).expect (sendCell c j) 0 = N := by
  rw [Schedule.expect.eq_1, duties_send]
  exact (Finset.sum_singleton (fun d => (a2aRd (F := F) m).amount (sendCell c j) 0 d) 0).trans (amount_send m c j 0)
omit [FloatOps F] in
theorem expect_recv : (a2aRd (F := F) m).expect (recvCell c j) 0 = N := by
  rw [Schedule.expect.eq_1, duties_recv]
  exact (Finset.sum_singleton (fun d => (a2aRd (F := F) m).amount (recvCell c j) 0 d) 0).trans (amount_recv m c j 0)

omit [FloatOps F] in
theorem payload_bar (d : Fin 3) : (a2aRd (F := F) m).payload (barCell c) 0 d = barPay m c d := rfl
omit [FloatOps F] in
theorem payload_loc (d : Fin 3) : (a2aRd (F := F) m).payload (locCell c) 0 d = locPay m c := rfl
omit [FloatOps F] in
theorem payload_send (d : Fin 3) : (a2aRd (F := F) m).payload (sendCell c j) 0 d = sendPay m c j := by
  revert j; intro j; fin_cases j <;> rfl
omit [FloatOps F] in
theorem payload_recv (d : Fin 3) : (a2aRd (F := F) m).payload (recvCell c j) 0 d = recvPay m c j := by
  revert j; intro j; fin_cases j <;> rfl

omit [FloatOps F] in
/-- The rest of the barrier cell's round, no duty taken: the three peers' payloads. -/
theorem rest_bar : bigSep ((a2aRd (F := F) m).duties (barCell c) 0 \ ∅) (fun d => (a2aRd (F := F) m).payload (barCell c) 0 d)
    = iprop(barPay m c 0 ∗ barPay m c 1 ∗ barPay m c 2) := by
  rw [Finset.sdiff_empty, duties_bar, bigSep_eq_bigSepL_of_eq [0, 1, 2] (by decide) (by decide), bigSepL_cons_cons, bigSepL_cons_cons, bigSepL_singleton]
  rfl
omit [FloatOps F] in
theorem rest_loc : bigSep ((a2aRd (F := F) m).duties (locCell c) 0 \ ∅) (fun d => (a2aRd (F := F) m).payload (locCell c) 0 d) = locPay m c := by
  rw [Finset.sdiff_empty, duties_loc, bigSep_singleton, payload_loc]
omit [FloatOps F] in
theorem rest_send : bigSep ((a2aRd (F := F) m).duties (sendCell c j) 0 \ ∅) (fun d => (a2aRd (F := F) m).payload (sendCell c j) 0 d) = sendPay m c j := by
  rw [Finset.sdiff_empty, duties_send, bigSep_singleton, payload_send]
omit [FloatOps F] in
theorem rest_recv : bigSep ((a2aRd (F := F) m).duties (recvCell c j) 0 \ ∅) (fun d => (a2aRd (F := F) m).payload (recvCell c j) 0 d) = recvPay m c j := by
  rw [Finset.sdiff_empty, duties_recv, bigSep_singleton, payload_recv]

omit [FloatOps F] in
/-- Duty `rev i` of `peer c i`'s barrier cell, as its payer `c` holds it: row block `peer c i` of `c`'s own result array,
    and `c` at round 0 of its receive cell `rev i`. -/
theorem payload_bar_peer (i : Fin 3) : (a2aRd (F := F) m).payload (barCell (peer c i)) 0 (rev i)
    = iprop(((dstSl (peer c i)).view.loc (c : Thread nD τ) ↦[(dstSl (peer c i)).view.set]{fullShare} outAt m c) ∗ reached ER (recvCell c (rev i)) 0) := by
  rw [payload_bar]; unfold barPay rowPts; rw [peer_peer_rev]
omit [FloatOps F] in
/-- Duty `j` of `c`'s own barrier cell, as `c` receives it. -/
theorem payload_bar_own (d : Fin 3) : (a2aRd (F := F) m).payload (barCell c) 0 d
    = iprop(((dstSl c).view.loc ((peer c d : Dev nD) : Thread nD τ) ↦[(dstSl c).view.set]{fullShare} outAt m (peer c d)) ∗ reached ER (recvCell (peer c d) d) 0) := rfl
omit [FloatOps F] in
/-- The duty of `peer c j`'s receive cell `j`, as its payer `c` states it: what `c`'s copy `j` writes. -/
theorem payload_recv_peer (d : Fin 3) : (a2aRd (F := F) m).payload (recvCell (peer c j) j) 0 d
    = ((dstSl c).view.loc ((peer c j : Dev nD) : Thread nD τ) ↦[(dstSl c).view.set]{fullShare}
        ((dstSl c).view.write (Elt F) (outAt m (peer c j)) ((srcSl c j).view.read (Elt F) (argAt m c)) Finset.univ)) := by
  rw [payload_recv]; unfold recvPay rowPts landed; rw [src_peer]
omit [FloatOps F] in
theorem payload_send_pts (d : Fin 3) : (a2aRd (F := F) m).payload (sendCell c j) 0 d
    = ((srcSl c j).view.loc (c : Thread nD τ) ↦[(srcSl c j).view.set]{fullShare} argAt m c) := by
  rw [payload_send]; rfl

end Sched

end Cert.Kernel.A2A

end
-- ==== Proof.KernelBody.lean ====
/-
  One device's body, stepped once at a symbolic device `c`.

  The device starts with its argument array cut into its four column blocks and its result array cut into its four row
  blocks. It hands the three row blocks that are not its own to the three peers with its barrier signals, receives the
  peers' row blocks `c` with its barrier wait, sends into them, copies its own block, and gets every block back with
  the waits: the column blocks unchanged, each row block holding what its sender wrote.
-/
import proofs.«900001_g7700000000000002_dist_a2a_v7x_i4_i_m1024_n512_f32_1_alg».proof.Proof.KernelProto

noncomputable section

namespace Cert.Kernel.A2A

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

/-- Device `c` owes each peer's receive cell one block's credit and each peer's barrier cell one unit — summed so
    that signal 0 peels the last summand, then signal 1, signal 2, copy 0, copy 1, copy 2. -/
def O₃ (c : Dev nD) : CellTallies nD τ sig Unit :=
  tallyAt (recvCell (peer c 2) 2) () N + tallyAt (recvCell (peer c 1) 1) () N + tallyAt (recvCell (peer c 0) 0) () N
def O₀ (c : Dev nD) : CellTallies nD τ sig Unit :=
  O₃ c + tallyAt (barCell (peer c 2)) () 1 + tallyAt (barCell (peer c 1)) () 1 + tallyAt (barCell (peer c 0)) () 1

def L (g : GSem nD τ sig) : Finset Unit := if g.1.2 = .tc then {()} else ∅
/-- barrier cells at 1, receive cells at 2, everything else (send, local) at 0. -/
def lv (g : GSem nD τ sig) (_ : Unit) : ℕ :=
  match g.2 with | .reg _ => 1 | .dma q => if 4 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₃_pos {c : Dev nD} {g : GSem nD τ sig} {u : Unit} (h : 0 < O₃ c g u) : ∃ j, g = recvCell (peer c j) j := by
  unfold O₃ at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

omit [FloatOps F] in
/-- At its barrier wait a device owes its peers' receive credit only: receive cells, above its barrier cell. -/
theorem mayWait_bar (c : Dev nD) : (levAts L lv : sProp 𝕄) ⊢ MayWait (c : Thread nD τ) (.reg barS) () (O₃ c) :=
  Pipeline.mayWait_of_levAts (by rw [L_tc]; exact Finset.mem_singleton_self _) fun g i hg => by
    obtain ⟨j, rfl⟩ := O₃_pos hg
    refine ⟨by rw [L_tc]; exact Finset.mem_singleton_self _, ?_⟩
    fin_cases j <;> exact Nat.lt_succ_self 1

/-! The schedule's payloads at each of the three copies, as the run meets them. -/
omit [FloatOps F] in
theorem pay_send0 (c : Dev nD) (d : Fin 3) : (a2aRd (F := F) m).payload (sendCell c 0) 0 d
    = ((srcSl c 0).view.loc (c : Thread nD τ) ↦[(srcSl c 0).view.set]{fullShare} argAt m c) := payload_send_pts m c 0 d
omit [FloatOps F] in
theorem pay_send1 (c : Dev nD) (d : Fin 3) : (a2aRd (F := F) m).payload (sendCell c 1) 0 d
    = ((srcSl c 1).view.loc (c : Thread nD τ) ↦[(srcSl c 1).view.set]{fullShare} argAt m c) := payload_send_pts m c 1 d
omit [FloatOps F] in
theorem pay_send2 (c : Dev nD) (d : Fin 3) : (a2aRd (F := F) m).payload (sendCell c 2) 0 d
    = ((srcSl c 2).view.loc (c : Thread nD τ) ↦[(srcSl c 2).view.set]{fullShare} argAt m c) := payload_send_pts m c 2 d
omit [FloatOps F] in
theorem pay_land0 (c : Dev nD) (d : Fin 3) : (a2aRd (F := F) m).payload (recvCell (peer c 0) 0) 0 d
    = ((dstSl c).view.loc ((peer c 0 : Dev nD) : Thread nD τ) ↦[(dstSl c).view.set]{fullShare}
        ((dstSl c).view.write (Elt F) (outAt m (peer c 0)) ((srcSl c 0).view.read (Elt F) (argAt m c)) Finset.univ)) := payload_recv_peer m c 0 d
omit [FloatOps F] in
theorem pay_land1 (c : Dev nD) (d : Fin 3) : (a2aRd (F := F) m).payload (recvCell (peer c 1) 1) 0 d
    = ((dstSl c).view.loc ((peer c 1 : Dev nD) : Thread nD τ) ↦[(dstSl c).view.set]{fullShare}
        ((dstSl c).view.write (Elt F) (outAt m (peer c 1)) ((srcSl c 1).view.read (Elt F) (argAt m c)) Finset.univ)) := payload_recv_peer m c 1 d
omit [FloatOps F] in
theorem pay_land2 (c : Dev nD) (d : Fin 3) : (a2aRd (F := F) m).payload (recvCell (peer c 2) 2) 0 d
    = ((dstSl c).view.loc ((peer c 2 : Dev nD) : Thread nD τ) ↦[(dstSl c).view.set]{fullShare}
        ((dstSl c).view.write (Elt F) (outAt m (peer c 2)) ((srcSl c 2).view.read (Elt F) (argAt m c)) Finset.univ)) := payload_recv_peer m c 2 d
omit [FloatOps F] in
theorem pay_recv0 (c : Dev nD) (d : Fin 3) : (a2aRd (F := F) m).payload (recvCell c 0) 0 d = recvPay m c 0 := payload_recv m c 0 d
omit [FloatOps F] in
theorem pay_recv1 (c : Dev nD) (d : Fin 3) : (a2aRd (F := F) m).payload (recvCell c 1) 0 d = recvPay m c 1 := payload_recv m c 1 d
omit [FloatOps F] in
theorem pay_recv2 (c : Dev nD) (d : Fin 3) : (a2aRd (F := F) m).payload (recvCell c 2) 0 d = recvPay m c 2 := payload_recv m c 2 d

/-! The schedule's tables at each send and receive cell, the cell spelt by its semaphore. -/
omit [FloatOps F] in
theorem duties_send0 (c : Dev nD) : (a2aRd (F := F) m).duties ((c : Thread nD τ), SemLoc.dma sendS0) 0 = {0} := duties_send m c 0
omit [FloatOps F] in
theorem amount_send0 (c : Dev nD) (d : Fin 3) : (a2aRd (F := F) m).amount ((c : Thread nD τ), SemLoc.dma sendS0) 0 d = N := rfl
omit [FloatOps F] in
theorem expect_send0 (c : Dev nD) : (a2aRd (F := F) m).expect ((c : Thread nD τ), SemLoc.dma sendS0) 0 = N := expect_send m c 0
omit [FloatOps F] in
theorem paid_send0 (c : Dev nD) (d : Fin 3) : (a2aRd (F := F) m).payload ((c : Thread nD τ), SemLoc.dma sendS0) 0 d
    = ((srcSl c 0).view.loc (c : Thread nD τ) ↦[(srcSl c 0).view.set]{fullShare} argAt m c) := pay_send0 m c d
omit [FloatOps F] in
theorem duties_recv0 (c : Dev nD) : (a2aRd (F := F) m).duties ((c : Thread nD τ), SemLoc.dma recvS0) 0 = {0} := duties_recv m c 0
omit [FloatOps F] in
theorem amount_recv0 (c : Dev nD) (d : Fin 3) : (a2aRd (F := F) m).amount ((c : Thread nD τ), SemLoc.dma recvS0) 0 d = N := rfl
omit [FloatOps F] in
theorem expect_recv0 (c : Dev nD) : (a2aRd (F := F) m).expect ((c : Thread nD τ), SemLoc.dma recvS0) 0 = N := expect_recv m c 0
omit [FloatOps F] in
theorem paid_recv0 (c : Dev nD) (d : Fin 3) : (a2aRd (F := F) m).payload ((c : Thread nD τ), SemLoc.dma recvS0) 0 d = recvPay m c 0 := pay_recv0 m c d
omit [FloatOps F] in
theorem duties_send1 (c : Dev nD) : (a2aRd (F := F) m).duties ((c : Thread nD τ), SemLoc.dma sendS1) 0 = {0} := duties_send m c 1
omit [FloatOps F] in
theorem amount_send1 (c : Dev nD) (d : Fin 3) : (a2aRd (F := F) m).amount ((c : Thread nD τ), SemLoc.dma sendS1) 0 d = N := rfl
omit [FloatOps F] in
theorem expect_send1 (c : Dev nD) : (a2aRd (F := F) m).expect ((c : Thread nD τ), SemLoc.dma sendS1) 0 = N := expect_send m c 1
omit [FloatOps F] in
theorem paid_send1 (c : Dev nD) (d : Fin 3) : (a2aRd (F := F) m).payload ((c : Thread nD τ), SemLoc.dma sendS1) 0 d
    = ((srcSl c 1).view.loc (c : Thread nD τ) ↦[(srcSl c 1).view.set]{fullShare} argAt m c) := pay_send1 m c d
omit [FloatOps F] in
theorem duties_recv1 (c : Dev nD) : (a2aRd (F := F) m).duties ((c : Thread nD τ), SemLoc.dma recvS1) 0 = {0} := duties_recv m c 1
omit [FloatOps F] in
theorem amount_recv1 (c : Dev nD) (d : Fin 3) : (a2aRd (F := F) m).amount ((c : Thread nD τ), SemLoc.dma recvS1) 0 d = N := rfl
omit [FloatOps F] in
theorem expect_recv1 (c : Dev nD) : (a2aRd (F := F) m).expect ((c : Thread nD τ), SemLoc.dma recvS1) 0 = N := expect_recv m c 1
omit [FloatOps F] in
theorem paid_recv1 (c : Dev nD) (d : Fin 3) : (a2aRd (F := F) m).payload ((c : Thread nD τ), SemLoc.dma recvS1) 0 d = recvPay m c 1 := pay_recv1 m c d
omit [FloatOps F] in
theorem duties_send2 (c : Dev nD) : (a2aRd (F := F) m).duties ((c : Thread nD τ), SemLoc.dma sendS2) 0 = {0} := duties_send m c 2
omit [FloatOps F] in
theorem amount_send2 (c : Dev nD) (d : Fin 3) : (a2aRd (F := F) m).amount ((c : Thread nD τ), SemLoc.dma sendS2) 0 d = N := rfl
omit [FloatOps F] in
theorem expect_send2 (c : Dev nD) : (a2aRd (F := F) m).expect ((c : Thread nD τ), SemLoc.dma sendS2) 0 = N := expect_send m c 2
omit [FloatOps F] in
theorem paid_send2 (c : Dev nD) (d : Fin 3) : (a2aRd (F := F) m).payload ((c : Thread nD τ), SemLoc.dma sendS2) 0 d
    = ((srcSl c 2).view.loc (c : Thread nD τ) ↦[(srcSl c 2).view.set]{fullShare} argAt m c) := pay_send2 m c d
omit [FloatOps F] in
theorem duties_recv2 (c : Dev nD) : (a2aRd (F := F) m).duties ((c : Thread nD τ), SemLoc.dma recvS2) 0 = {0} := duties_recv m c 2
omit [FloatOps F] in
theorem amount_recv2 (c : Dev nD) (d : Fin 3) : (a2aRd (F := F) m).amount ((c : Thread nD τ), SemLoc.dma recvS2) 0 d = N := rfl
omit [FloatOps F] in
theorem expect_recv2 (c : Dev nD) : (a2aRd (F := F) m).expect ((c : Thread nD τ), SemLoc.dma recvS2) 0 = N := expect_recv m c 2
omit [FloatOps F] in
theorem paid_recv2 (c : Dev nD) (d : Fin 3) : (a2aRd (F := F) m).payload ((c : Thread nD τ), SemLoc.dma recvS2) 0 d = recvPay m c 2 := pay_recv2 m c d

/-! ## The ghost state a body starts from -/

section Body

variable (K : Dev nD × Fin 8 → ℕ)

/-- The cells' invariants device `c`'s body opens, under the names `K` the launch allocated them at: its own eight,
    its peers' barrier cells (its signals), its peers' receive cells (its copies). -/
def invs (c : Dev nD) : sProp 𝕄 :=
  iprop(cellInv ER (a2aRd m) (K (c, 0)) (barCell c) ∗ cellInv ER (a2aRd m) (K (c, 1)) (locCell c)
    ∗ cellInv ER (a2aRd m) (K (c, 2)) (sendCell c 0) ∗ cellInv ER (a2aRd m) (K (c, 3)) (sendCell c 1) ∗ cellInv ER (a2aRd m) (K (c, 4)) (sendCell c 2)
    ∗ cellInv ER (a2aRd m) (K (c, 5)) (recvCell c 0) ∗ cellInv ER (a2aRd m) (K (c, 6)) (recvCell c 1) ∗ cellInv ER (a2aRd m) (K (c, 7)) (recvCell c 2)
    ∗ cellInv ER (a2aRd m) (K (peer c 0, 0)) (barCell (peer c 0)) ∗ cellInv ER (a2aRd m) (K (peer c 1, 0)) (barCell (peer c 1)) ∗ cellInv ER (a2aRd m) (K (peer c 2, 0)) (barCell (peer c 2))
    ∗ cellInv ER (a2aRd m) (K (peer c 0, 5)) (recvCell (peer c 0) 0) ∗ cellInv ER (a2aRd m) (K (peer c 1, 6)) (recvCell (peer c 1) 1) ∗ cellInv ER (a2aRd m) (K (peer c 2, 7)) (recvCell (peer c 2) 2))

instance invs_persistent (c : Dev nD) : BI.Persistent (invs m K c) := by unfold invs; infer_instance

/-- Its positions at round 0 of its eight cells. -/
def poss (c : Dev nD) : sProp 𝕄 :=
  iprop(atPos ER (barCell c) 0 ∅ 0 ∗ atPos ER (locCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- That round 0 is reached: of the peers' barrier cells, and of its own local, send and receive cells. -/
def marks (c : Dev nD) : sProp 𝕄 :=
  iprop(reached ER (barCell (peer c 0)) 0 ∗ reached ER (barCell (peer c 1)) 0 ∗ reached ER (barCell (peer c 2)) 0
    ∗ reached ER (locCell c) 0 ∗ reached ER (sendCell c 0) 0 ∗ reached ER (sendCell c 1) 0 ∗ reached ER (sendCell c 2) 0
    ∗ reached ER (recvCell c 0) 0 ∗ reached ER (recvCell c 1) 0 ∗ reached ER (recvCell c 2) 0)

instance marks_persistent (c : Dev nD) : BI.Persistent (marks (F := F) c) := by unfold marks; infer_instance

/-- The tokens of the duties it pays: duty `rev i` of `peer c i`'s barrier cell, the duty of `peer c j`'s receive cell
    `j`, of its own three send cells and of its local cell. -/
def payToks (c : Dev nD) : sProp 𝕄 :=
  iprop(dutyTok ER (barCell (peer c 0)) 0 (rev 0) ∗ dutyTok ER (barCell (peer c 1)) 0 (rev 1) ∗ dutyTok ER (barCell (peer c 2)) 0 (rev 2)
    ∗ dutyTok ER (recvCell (peer c 0) 0) 0 0 ∗ dutyTok ER (recvCell (peer c 1) 1) 0 0 ∗ dutyTok ER (recvCell (peer c 2) 2) 0 0
    ∗ dutyTok ER (sendCell c 0) 0 0 ∗ dutyTok ER (sendCell c 1) 0 0 ∗ dutyTok ER (sendCell c 2) 0 0
    ∗ dutyTok ER (locCell c) 0 0)

def ghost (c : Dev nD) : sProp 𝕄 := iprop(invs m K c ∗ poss c ∗ marks c ∗ payToks c)

/-- Its credit: three units on its barrier cell, one block's on each receive cell. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

/-- The two arrays, cut: the four column blocks of the argument, the four row blocks of the result as the run found it. -/
def cutIn (c : Dev nD) : sProp 𝕄 :=
  iprop(colLoc m c ∗ colPts m c 0 ∗ colPts m c 1 ∗ colPts m c 2
    ∗ rowPts c c (outAt m c) ∗ rowPts c (peer c 0) (outAt m c) ∗ rowPts c (peer c 1) (outAt m c) ∗ rowPts c (peer c 2) (outAt m c))
/-- After the body: the column blocks unchanged, the row blocks each holding what was written to it. -/
def cutOut (c : Dev nD) : sProp 𝕄 :=
  iprop(colLoc m c ∗ colPts m c 0 ∗ colPts m c 1 ∗ colPts m c 2
    ∗ rowPts c c (locLanded m c) ∗ recvPay m c 0 ∗ recvPay m c 1 ∗ recvPay m c 2)

/-- The seven own cells at zero, closed. -/
def zeros (c : Dev nD) : sProp 𝕄 :=
  iprop(semVal (locCell c) 0 ∗ semVal (sendCell c 0) 0 ∗ semVal (sendCell c 1) 0 ∗ semVal (sendCell c 2) 0
    ∗ semVal (recvCell c 0) 0 ∗ semVal (recvCell c 1) 0 ∗ semVal (recvCell c 2) 0)

abbrev 𝒱₀ : Variants := Variants.none

def bodyPre (c : Dev nD) (W : Waits sig Unit) : sProp 𝕄 :=
  iprop(ghost m K c ∗ creds c ∗ levAts L lv ∗ cutIn m c ∗ owes (c : Thread nD τ) (O₀ c) W)

def bodyPost (c : Dev nD) : sProp 𝕄 :=
  iprop(cutOut m c ∗ zeros c ∗ ∃ W, owes (c : Thread nD τ) (0 : CellTallies nD τ sig Unit) W)

set_option maxHeartbeats 1000000 in
/-- Copy `j` of device `c`, addressed to `n = peer c j`: the column block goes to the engine, the peer's row block `c`
    is written; the send cell's duty gives the column block back, the peer's receive cell's duty hands it the row block
    as written. -/
theorem wp_send_a2a (c n : Dev nD) (j : Fin 3) (hn : n = peer c j) (κ₁ κ₂ : ℕ)
    {hsc : (dstSl c : Memref sig (Dev.tc n : Thread nD τ).2.kind .hbm S1024x512 .f32).view.ref.isScScratch = false}
    {hsrc : (srcSl c j).view.WordExact} {hdst : (dstSl c).view.WordExact}
    {hsem : DmaTarget.Typed .hbm (.dma (recvS j)) (.remote (Dev.tc n : Thread nD τ) (dstSl c) (.dma (sendS j)) hsc)}
    {α : Type} {Q : α → sProp 𝕄} {k : PUnit → Prog (TpuEff nD τ sig (Elt F) Λ₀ .tc) α}
    (O₁ O : CellTallies nD τ sig Unit) (hO : O₁ = O + tallyAt (recvCell (peer c j) j) () N) (W : Waits sig Unit) :
    iprop(cellInv ER (a2aRd m) κ₁ (sendCell c j) ∗ cellInv ER (a2aRd m) κ₂ (recvCell (peer c j) j)
        ∗ ((srcSl c j).view.loc (c : Thread nD τ) ↦[(srcSl c j).view.set]{fullShare} argAt m c)
        ∗ ((dstSl c).view.loc ((peer c j : Dev nD) : Thread nD τ) ↦[(dstSl c).view.set]{fullShare} outAt m (peer c j))
        ∗ owes (c : Thread nD τ) O₁ W
        ∗ dutyTok ER (sendCell c j) 0 0 ∗ reached ER (sendCell c j) 0
        ∗ dutyTok ER (recvCell (peer c j) j) 0 0 ∗ reached ER (recvCell (peer c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcSl c j) (.remote (Dev.tc n : Thread nD τ) (dstSl c) (.dma (sendS j)) hsc) (.dma (recvS j)) hsrc hdst hsem) k) Q) := by
  subst hn
  exact Rounds.wp_send_pointsTo 𝒱₀ ER (a2aRd m) (c : Thread nD τ) none (c' := ((peer c j : Dev nD) : Thread nD τ))
    (src := srcSl c j) (dst := dstSl c) (sS := .dma (sendS j)) (sem := .dma (recvS j)) (q := fullShare) (fs := argAt m c) (κ₁ := κ₁) (κ₂ := κ₂)
    (r₁ := 0) (r₂ := 0) (d₁ := 0) (d₂ := 0) (fd := outAt m (peer c j))
    (by rw [duties_send]; exact Finset.mem_singleton_self _) (by rw [duties_recv]; exact Finset.mem_singleton_self _)
    () () N rfl (amount_send m c j 0) (amount_recv m (peer c j) j 0) O hO (W := W)
    (by rw [payload_send_pts])
    (by rw [payload_recv_peer])

set_option maxHeartbeats 1000000 in
/-- The local copy of device `c`: its column block `c` into its own row block `c`; the local cell's duty hands both back. -/
theorem wp_local_a2a (c : Dev nD) (κ : ℕ)
    {hsrc : (locSl c).view.WordExact} {hdst : (dstSl c).view.WordExact}
    {hsem : DmaTarget.Typed (nD := nD) .hbm (.dma locS) (DmaTarget.here (dstSl c) : DmaTarget nD τ sig (c : Thread nD τ).2 .hbm S1024x512 .f32)}
    {α : Type} {Q : α → sProp 𝕄} {k : PUnit → Prog (TpuEff nD τ sig (Elt F) Λ₀ .tc) α} :
    iprop(cellInv ER (a2aRd m) κ (locCell c) ∗ ((locSl c).view.loc (c : Thread nD τ) ↦[(locSl c).view.set]{fullShare} argAt m c)
        ∗ ((dstSl c).view.loc (c : Thread nD τ) ↦[(dstSl c).view.set]{fullShare} outAt m c)
        ∗ dutyTok ER (locCell c) 0 0 ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (locSl c) (.here (dstSl c)) (.dma locS) hsrc hdst hsem) k) Q) := by
  exact Rounds.wp_copy_pointsTo 𝒱₀ ER (a2aRd m) (c : Thread nD τ) none (src := locSl c) (dst := dstSl c) (sem := .dma locS) (q := fullShare) (fs := argAt m c)
    (κ := κ) (r := 0) (d := 0) (fd := outAt m c)
    (by rw [duties_loc]; exact Finset.mem_singleton_self _) () N rfl (amount_loc m c 0)
    (by rw [payload_loc]; unfold locPay rowPts colLoc locLanded; exact BI.Entails.refl _)

omit [FloatOps F] in
/-- A chain of three as a triple. -/
theorem sep3_of_chain (A B C : sProp 𝕄) : BI.sep A (BI.sep B C) ⊢ iprop(A ∗ B ∗ C) := BI.Entails.refl _

attribute [local sl_canon] dev1_eq dev2_eq dev3_eq dev4_eq dev5_eq dev6_eq
attribute [local sl_rounds] duties_bar duties_loc amount_bar amount_loc expect_bar expect_loc payload_bar_own payload_loc
  duties_send0 duties_send1 duties_send2 duties_recv0 duties_recv1 duties_recv2 amount_send0 amount_send1 amount_send2 amount_recv0 amount_recv1 amount_recv2
  expect_send0 expect_send1 expect_send2 expect_recv0 expect_recv1 expect_recv2 paid_send0 paid_send1 paid_send2 paid_recv0 paid_recv1 paid_recv2
attribute [local sl_rounds high] payload_bar_peer

set_option maxHeartbeats 1600000 in
/-- The body from `bodyPre` to `bodyPost`. -/
theorem sound_body (c : Dev nD) (W : Waits sig Unit) :
    bodyPre m K c W
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2)
          (fun _ => bodyPost m c) := by
  simp only [cc0_body_eq_skeleton]; unfold cc0_body_skel
  simp only [k0_part1_eq_skeleton, k0_part2_eq_skeleton, k0_part3_eq_skeleton]; unfold k0_part1_skel k0_part2_skel k0_part3_skel
  unfold bodyPre ghost invs poss marks payToks creds cutIn rowPts colPts colLoc
  iintro ⟨⟨⟨#HIbar, #HIloc, #HIs0, #HIs1, #HIs2, #HIr0, #HIr1, #HIr2, #HIb0, #HIb1, #HIb2, #HIv0, #HIv1, #HIv2⟩,
      ⟨HatB, HatL, HatS0, HatS1, HatS2, HatR0, HatR1, HatR2⟩,
      ⟨#HrB0, #HrB1, #HrB2, #HrL, #HrS0, #HrS1, #HrS2, #HrR0, #HrR1, #HrR2⟩,
      ⟨HtB0, HtB1, HtB2, HtV0, HtV1, HtV2, HtS0, HtS1, HtS2, HtL⟩⟩,
    ⟨HcB, HcR0, HcR1, HcR2⟩, #Hlev, ⟨HxL, Hx0, Hx1, Hx2, HoC, Ho0, Ho1, Ho2⟩, HO⟩
  have hmw := mayWait_bar (F := F) c
  unfold O₀ O₃
  -- the three signals and the barrier wait
  sl_exec (disch := simp only [dev1_eq, dev2_eq, dev3_eq, dev4_eq, dev5_eq, dev6_eq])
  ihave Hp := (sep3_of_chain _ _ _) $$ HatB_pay1
  icases Hp with ⟨⟨Hd0, #Hv0⟩, ⟨Hd1, #Hv1⟩, ⟨Hd2, #Hv2⟩⟩
  -- copy 0, to `peer c 0`
  iapply (wp_send_a2a m c _ 0 rfl (K (c, 2)) (K (peer c 0, 5)) _ (tallyAt (recvCell (peer c 2) 2) () N + tallyAt (recvCell (peer c 1) 1) () N) rfl _) $$ [Hx0 Hd0 HO HtS0 HtV0]
  · isplitr; · iexact HIs0
    isplitr; · iexact HIv0
    isplitl [Hx0]; · iexact Hx0
    isplitl [Hd0]; · iexact Hd0
    isplitl [HO]; · iexact HO
    isplitl [HtS0]; · iexact HtS0
    isplitr; · iexact HrS0
    isplitl [HtV0]; · iexact HtV0
    iexact Hv0
  iintro ⟨HcS0, HO⟩
  -- copy 1, to `peer c 1`
  sl_exec (disch := simp only [dev1_eq, dev2_eq, dev3_eq, dev4_eq, dev5_eq, dev6_eq])
  iapply (wp_send_a2a m c _ 1 rfl (K (c, 3)) (K (peer c 1, 6)) _ (tallyAt (recvCell (peer c 2) 2) () N) rfl _) $$ [Hx1 Hd1 HO HtS1 HtV1]
  · isplitr; · iexact HIs1
    isplitr; · iexact HIv1
    isplitl [Hx1]; · iexact Hx1
    isplitl [Hd1]; · iexact Hd1
    isplitl [HO]; · iexact HO
    isplitl [HtS1]; · iexact HtS1
    isplitr; · iexact HrS1
    isplitl [HtV1]; · iexact HtV1
    iexact Hv1
  iintro ⟨HcS1, HO⟩
  -- copy 2, to `peer c 2`
  sl_exec (disch := simp only [dev1_eq, dev2_eq, dev3_eq, dev4_eq, dev5_eq, dev6_eq])
  iapply (wp_send_a2a m c _ 2 rfl (K (c, 4)) (K (peer c 2, 7)) _ 0 (zero_add _).symm _) $$ [Hx2 Hd2 HO HtS2 HtV2]
  · isplitr; · iexact HIs2
    isplitr; · iexact HIv2
    isplitl [Hx2]; · iexact Hx2
    isplitl [Hd2]; · iexact Hd2
    isplitl [HO]; · iexact HO
    isplitl [HtS2]; · iexact HtS2
    isplitr; · iexact HrS2
    isplitl [HtV2]; · iexact HtV2
    iexact Hv2
  iintro ⟨HcS2, HO⟩
  -- the local copy
  sl_exec (disch := simp only [dev1_eq, dev2_eq, dev3_eq, dev4_eq, dev5_eq, dev6_eq])
  iapply (wp_local_a2a m c (K (c, 1))) $$ [HxL HoC HtL]
  · isplitr; · iexact HIloc
    isplitl [HxL]; · iexact HxL
    isplitl [HoC]; · iexact HoC
    isplitl [HtL]; · iexact HtL
    iexact HrL
  iintro HcL
  -- the seven waits
  sl_exec (disch := simp only [dev1_eq, dev2_eq, dev3_eq, dev4_eq, dev5_eq, dev6_eq])
  -- the seven own cells close: their counters at zero are the device's again
  imod (Rounds.cell_close ER (a2aRd m) (Set.mem_univ (K (c, 1))) (fun h => h) (R := 1) (duties_later m (locCell c))) $$ [HatL] with HzL
  · isplitr; · iexact HIloc
    iexact HatL
  imod (Rounds.cell_close ER (a2aRd m) (Set.mem_univ (K (c, 2))) (fun h => h) (R := 1) (duties_later m (sendCell c 0))) $$ [HatS0] with HzS0
  · isplitr; · iexact HIs0
    iexact HatS0
  imod (Rounds.cell_close ER (a2aRd m) (Set.mem_univ (K (c, 3))) (fun h => h) (R := 1) (duties_later m (sendCell c 1))) $$ [HatS1] with HzS1
  · isplitr; · iexact HIs1
    iexact HatS1
  imod (Rounds.cell_close ER (a2aRd m) (Set.mem_univ (K (c, 4))) (fun h => h) (R := 1) (duties_later m (sendCell c 2))) $$ [HatS2] with HzS2
  · isplitr; · iexact HIs2
    iexact HatS2
  imod (Rounds.cell_close ER (a2aRd m) (Set.mem_univ (K (c, 5))) (fun h => h) (R := 1) (duties_later m (recvCell c 0))) $$ [HatR0] with HzR0
  · isplitr; · iexact HIr0
    iexact HatR0
  imod (Rounds.cell_close ER (a2aRd m) (Set.mem_univ (K (c, 6))) (fun h => h) (R := 1) (duties_later m (recvCell c 1))) $$ [HatR1] with HzR1
  · isplitr; · iexact HIr1
    iexact HatR1
  imod (Rounds.cell_close ER (a2aRd m) (Set.mem_univ (K (c, 7))) (fun h => h) (R := 1) (duties_later m (recvCell c 2))) $$ [HatR2] with HzR2
  · isplitr; · iexact HIr2
    iexact HatR2
  first | sl_step | (rw [wp_ret]; imodintro)
  unfold bodyPost cutOut zeros locPay colPts colLoc rowPts
  icases HatL_pay1 with ⟨HrowC, HcolL⟩
  isplitl [HcolL HatS0_pay1 HatS1_pay1 HatS2_pay1 HrowC HatR0_pay1 HatR1_pay1 HatR2_pay1]
  · isplitl [HcolL]; · iexact HcolL
    isplitl [HatS0_pay1]; · iexact HatS0_pay1
    isplitl [HatS1_pay1]; · iexact HatS1_pay1
    isplitl [HatS2_pay1]; · iexact HatS2_pay1
    isplitl [HrowC]; · iexact HrowC
    isplitl [HatR0_pay1]; · iexact HatR0_pay1
    isplitl [HatR1_pay1]; · iexact HatR1_pay1
    iexact HatR2_pay1
  isplitl [HzL HzS0 HzS1 HzS2 HzR0 HzR1 HzR2]
  · isplitl [HzL]; · iexact HzL
    isplitl [HzS0]; · iexact HzS0
    isplitl [HzS1]; · iexact HzS1
    isplitl [HzS2]; · iexact HzS2
    isplitl [HzR0]; · iexact HzR0
    isplitl [HzR1]; · iexact HzR1
    iexact HzR2
  iexists _; iexact HO

/-- info: 'Cert.Kernel.A2A.sound_body' depends on axioms: [propext, Classical.choice, Quot.sound] -/
#guard_msgs in #print axioms sound_body

end Body

end Cert.Kernel.A2A

end
-- ==== Proof.KernelCut.lean ====
/-
  Cutting the arrays of the all-to-all into the blocks its copies move, and putting the result array back together.

  A result array (4096 rows, 512 columns) is the disjoint union of its four row blocks of 1024 rows; an argument array
  (1024 rows, 2048 columns) of its four column blocks of 512 columns. On the ring of four, a device `c` and its three
  peers (or its three sources) are all four devices, each once: so ownership of a whole array is ownership of the block
  of `c` and of the blocks of the three peers. After the copies, row block `s` of device `c`'s result holds column
  block `c` of device `s`'s argument, entry by entry: row `1024 s + r` of the result is row `r` of that argument, and
  column `l` of the result its column `512 c + l`.
-/
import proofs.«900001_g7700000000000002_dist_a2a_v7x_i4_i_m1024_n512_f32_1_alg».proof.Proof.KernelProto
import Idealize.ShloMosaic.Lib.Pipeline.Value

noncomputable section

namespace Cert.Kernel.A2A

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The blocks, as sets of indices -/

/-- Row block `s` of a result array: rows `1024 s` to `1024 s + 1023`. -/
def rowSet (s : Dev nD) : Finset S4096x512.Idx :=
  Finset.univ.filter fun i => 1024 * s.val ≤ (i 0).val ∧ (i 0).val < 1024 * s.val + 1024
/-- Column block `k` of an argument array: columns `512 k` to `512 k + 511`. -/
def colSet (k : Dev nD) : Finset S1024x2048.Idx :=
  Finset.univ.filter fun i => 512 * k.val ≤ (i 1).val ∧ (i 1).val < 512 * k.val + 512

theorem mem_rowSet (s : Dev nD) (i : S4096x512.Idx) :
    i ∈ rowSet s ↔ 1024 * s.val ≤ (i 0).val ∧ (i 0).val < 1024 * s.val + 1024 := by
  simp only [rowSet, Finset.mem_filter, Finset.mem_univ, true_and]
theorem mem_colSet (k : Dev nD) (i : S1024x2048.Idx) :
    i ∈ colSet k ↔ 512 * k.val ≤ (i 1).val ∧ (i 1).val < 512 * k.val + 512 := by
  simp only [colSet, Finset.mem_filter, Finset.mem_univ, true_and]

/-- The view of row block `s` is row block `s`. -/
theorem dstSl_set (s : Dev nD) : (dstSl s).view.set = rowSet s := by
  refine Finset.ext fun (i : S4096x512.Idx) => ?_
  rw [mem_rowSet, View.set_slice_whole, Rect.mem_set_unit, k0_off1_eq s]
  have h1 : (i 1).val < 512 := idx2_lt1 i
  constructor
  · intro h; exact h (0 : Fin 2)
  · intro h a
    match a with
    | ⟨0, _⟩ => exact h
    | ⟨1, _⟩ => exact ⟨Nat.zero_le _, by show (i 1).val < 0 + 512; omega⟩

/-- The view of the column block copy `j` reads is column block `peer c j`. -/
theorem srcSl_set (c : Dev nD) (j : Fin 3) : (srcSl c j).view.set = colSet (peer c j) := by
  refine Finset.ext fun (i : S1024x2048.Idx) => ?_
  rw [mem_colSet, View.set_slice_whole, Rect.mem_set_unit, k0_off2_eq c j]
  have h0 : (i 0).val < 1024 := idx2_lt0 i
  have hp : (peer c j).val = (c.val + j.val + 1) % 4 := by show (c.val + 1 + j.val) % 4 = _; omega
  rw [hp]
  constructor
  · intro h; exact h (1 : Fin 2)
  · intro h a
    match a with
    | ⟨0, _⟩ => exact ⟨Nat.zero_le _, by show (i 0).val < 0 + 1024; omega⟩
    | ⟨1, _⟩ => exact h

/-- The view of the column block the local copy reads is column block `c`. -/
theorem locSl_set (c : Dev nD) : (locSl c).view.set = colSet c := by
  refine Finset.ext fun (i : S1024x2048.Idx) => ?_
  rw [mem_colSet, View.set_slice_whole, Rect.mem_set_unit, k0_off3_eq c]
  have h0 : (i 0).val < 1024 := idx2_lt0 i
  constructor
  · intro h; exact h (1 : Fin 2)
  · intro h a
    match a with
    | ⟨0, _⟩ => exact ⟨Nat.zero_le _, by show (i 0).val < 0 + 1024; omega⟩
    | ⟨1, _⟩ => exact h

theorem rows_disjoint : ∀ s ∈ (Finset.univ : Finset (Dev nD)), ∀ s' ∈ (Finset.univ : Finset (Dev nD)), s ≠ s' →
    Disjoint (rowSet s) (rowSet s') := fun s _ s' _ h =>
  Finset.disjoint_left.mpr fun i hi hi' => h (Fin.ext (by
    have := (mem_rowSet s i).mp hi; have := (mem_rowSet s' i).mp hi'; omega))
theorem cols_disjoint : ∀ k ∈ (Finset.univ : Finset (Dev nD)), ∀ k' ∈ (Finset.univ : Finset (Dev nD)), k ≠ k' →
    Disjoint (colSet k) (colSet k') := fun k _ k' _ h =>
  Finset.disjoint_left.mpr fun i hi hi' => h (Fin.ext (by
    have := (mem_colSet k i).mp hi; have := (mem_colSet k' i).mp hi'; omega))

/-- Every row lies in the row block of its quotient by 1024, -/
theorem rows_cover : (Finset.univ : Finset (Dev nD)).biUnion rowSet = Finset.univ := by
  refine Finset.ext fun i => ?_
  simp only [Finset.mem_biUnion, Finset.mem_univ, true_and, iff_true]
  have h0 : (i 0).val < 4096 := idx2_lt0 i
  exact ⟨⟨(i 0).val / 1024, by show (i 0).val / 1024 < 4; omega⟩, (mem_rowSet _ i).mpr
    ⟨by show 1024 * ((i 0).val / 1024) ≤ _; omega, by show _ < 1024 * ((i 0).val / 1024) + 1024; omega⟩⟩
/-- every column in the column block of its quotient by 512. -/
theorem cols_cover : (Finset.univ : Finset (Dev nD)).biUnion colSet = Finset.univ := by
  refine Finset.ext fun i => ?_
  simp only [Finset.mem_biUnion, Finset.mem_univ, true_and, iff_true]
  have h1 : (i 1).val < 2048 := idx2_lt1 i
  exact ⟨⟨(i 1).val / 512, by show (i 1).val / 512 < 4; omega⟩, (mem_colSet _ i).mpr
    ⟨by show 512 * ((i 1).val / 512) ≤ _; omega, by show _ < 512 * ((i 1).val / 512) + 512; omega⟩⟩

/-! ## Ownership of an array as ownership of its four blocks -/

omit [FloatOps F] in
theorem rowPts_eq (d s : Dev nD) (f : Buf (Elt F) ((d : Thread nD τ).loc main_v1)) :
    rowPts d s f = (((d : Thread nD τ).loc main_v1) ↦[rowSet s]{fullShare} f : sProp 𝕄) := by
  unfold rowPts; rw [dstSl_set]
omit [FloatOps F] in
theorem colPts_eq (c : Dev nD) (j : Fin 3) :
    colPts m c j = (((c : Thread nD τ).loc main_arg0) ↦[colSet (peer c j)]{fullShare} argAt m c : sProp 𝕄) := by
  unfold colPts; rw [srcSl_set]
omit [FloatOps F] in
theorem colLoc_eq (c : Dev nD) :
    colLoc m c = (((c : Thread nD τ).loc main_arg0) ↦[colSet c]{fullShare} argAt m c : sProp 𝕄) := by
  unfold colLoc; rw [locSl_set]

omit [FloatOps F] in
/-- A whole result array is its four row blocks. -/
theorem out_rows (d : Dev nD) (f : Buf (Elt F) ((d : Thread nD τ).loc main_v1)) :
    (((d : Thread nD τ).loc main_v1) ↦{fullShare} f : sProp 𝕄) = bigSep Finset.univ fun s : Dev nD => rowPts d s f := by
  rw [show (fun s : Dev nD => rowPts d s f)
      = fun s => (((d : Thread nD τ).loc main_v1) ↦[rowSet s]{fullShare} f : sProp 𝕄) from funext fun s => rowPts_eq d s f,
    ← pointsTo_biUnion Finset.univ (ℓ := (d : Thread nD τ).loc main_v1) rowSet rows_disjoint, rows_cover]
omit [FloatOps F] in
/-- A whole argument array is its four column blocks. -/
theorem arg_cols (d : Dev nD) (f : Buf (Elt F) ((d : Thread nD τ).loc main_arg0)) :
    (((d : Thread nD τ).loc main_arg0) ↦{fullShare} f : sProp 𝕄)
      = bigSep Finset.univ fun k : Dev nD => (((d : Thread nD τ).loc main_arg0) ↦[colSet k]{fullShare} f : sProp 𝕄) := by
  rw [← pointsTo_biUnion Finset.univ (ℓ := (d : Thread nD τ).loc main_arg0) colSet cols_disjoint, cols_cover]

/-- On the ring of four a device and its three peers are the four devices, each once; -/
theorem ring_peers (c : Dev nD) : (Finset.univ : Finset (Dev nD)) = [c, peer c 0, peer c 1, peer c 2].toFinset := by
  revert c; decide
theorem ring_peers_nodup (c : Dev nD) : [c, peer c 0, peer c 1, peer c 2].Nodup := by revert c; decide
/-- so are a device and its three sources. -/
theorem ring_srcs (c : Dev nD) : (Finset.univ : Finset (Dev nD)) = [c, src c 0, src c 1, src c 2].toFinset := by
  revert c; decide
theorem ring_srcs_nodup (c : Dev nD) : [c, src c 0, src c 1, src c 2].Nodup := by revert c; decide

omit [FloatOps F] in
/-- Device `c`'s argument array: the column block of its local copy and those of its three sends. -/
theorem cut_arg_eq (c : Dev nD) :
    ((((c : Thread nD τ).loc main_arg0) ↦{fullShare} argAt m c : sProp 𝕄))
      = iprop(colLoc m c ∗ colPts m c 0 ∗ colPts m c 1 ∗ colPts m c 2) := by
  rw [arg_cols, bigSep_univ_eq_bigSepL [c, peer c 0, peer c 1, peer c 2] (ring_peers c) (ring_peers_nodup c),
    bigSepL_cons_cons, bigSepL_cons_cons, bigSepL_cons_cons, bigSepL_singleton,
    colLoc_eq, colPts_eq, colPts_eq, colPts_eq]
  rfl

omit [FloatOps F] in
theorem cut_arg (c : Dev nD) :
    ((((c : Thread nD τ).loc main_arg0) ↦{fullShare} argAt m c : sProp 𝕄))
      ⊣⊢ iprop(colLoc m c ∗ colPts m c 0 ∗ colPts m c 1 ∗ colPts m c 2) :=
  ⟨Entails.of_eq (cut_arg_eq m c), Entails.of_eq (cut_arg_eq m c).symm⟩

omit [FloatOps F] in
/-- Device `c`'s result array as the run finds it: its own row block and those of its three peers. -/
theorem cut_out (c : Dev nD) :
    ((((c : Thread nD τ).loc main_v1) ↦{fullShare} outAt m c : sProp 𝕄))
      ⊢ iprop(rowPts c c (outAt m c) ∗ rowPts c (peer c 0) (outAt m c) ∗ rowPts c (peer c 1) (outAt m c) ∗ rowPts c (peer c 2) (outAt m c)) := by
  rw [out_rows, bigSep_univ_eq_bigSepL [c, peer c 0, peer c 1, peer c 2] (ring_peers c) (ring_peers_nodup c),
    bigSepL_cons_cons, bigSepL_cons_cons, bigSepL_cons_cons, bigSepL_singleton]
  exact Entails.of_eq rfl

/-! ## Where a block's entries lie, by coordinates -/

theorem dst_emb0 (s : Dev nD) (y : S1024x512.Idx) :
    (((dstSl s).view.emb y : S4096x512.Idx) 0).val = 1024 * s.val + (y 0).val := by
  show k0_off1 s 0 + 1 * (y 0).val = _
  rw [k0_off1_eq s]; show 1024 * s.val + 1 * (y 0).val = _; omega
theorem dst_emb1 (s : Dev nD) (y : S1024x512.Idx) :
    (((dstSl s).view.emb y : S4096x512.Idx) 1).val = (y 1).val := by
  show k0_off1 s 1 + 1 * (y 1).val = _
  rw [k0_off1_eq s]; show 0 + 1 * (y 1).val = _; omega
theorem src_emb0 (s : Dev nD) (j : Fin 3) (y : S1024x512.Idx) :
    (((srcSl s j).view.emb y : S1024x2048.Idx) 0).val = (y 0).val := by
  show k0_off2 s (BitVec.ofNat 32 (1 + j.val)) 0 + 1 * (y 0).val = _
  rw [k0_off2_eq s j]; show 0 + 1 * (y 0).val = _; omega
theorem src_emb1 (s : Dev nD) (j : Fin 3) (y : S1024x512.Idx) :
    (((srcSl s j).view.emb y : S1024x2048.Idx) 1).val = 512 * (peer s j).val + (y 1).val := by
  show k0_off2 s (BitVec.ofNat 32 (1 + j.val)) 1 + 1 * (y 1).val = 512 * ((s.val + 1 + j.val) % 4) + (y 1).val
  rw [k0_off2_eq s j]; show 512 * ((s.val + j.val + 1) % 4) + 1 * (y 1).val = _; omega
theorem loc_emb0 (s : Dev nD) (y : S1024x512.Idx) :
    (((locSl s).view.emb y : S1024x2048.Idx) 0).val = (y 0).val := by
  show k0_off3 s 0 + 1 * (y 0).val = _
  rw [k0_off3_eq s]; show 0 + 1 * (y 0).val = _; omega
theorem loc_emb1 (s : Dev nD) (y : S1024x512.Idx) :
    (((locSl s).view.emb y : S1024x2048.Idx) 1).val = 512 * s.val + (y 1).val := by
  show k0_off3 s 1 + 1 * (y 1).val = _
  rw [k0_off3_eq s]; show 512 * s.val + 1 * (y 1).val = _; omega

/-! ## What the copies leave is the final result -/

/-- An argument array read at equal devices and equal indices. -/
theorem argAt_congr {d d' : Dev nD} (h : d = d') {x x' : S1024x2048.Idx} (hx : x = x') :
    (argAt m d x : Elt F .f32) = argAt m d' x' := by subst h; subst hx; rfl

/-- Entry `y` of row block `s` of device `d`'s final result is entry `(y₀, 512 d + y₁)` of device `s`'s argument. -/
theorem outFinal_dst (d s : Dev nD) (y : S1024x512.Idx) (x : S1024x2048.Idx)
    (h0 : (x 0).val = (y 0).val) (h1 : (x 1).val = 512 * d.val + (y 1).val) :
    (outFinal m d ((dstSl s).view.emb y) : Elt F .f32) = argAt m s x := by
  have hy0 : (y 0).val < 1024 := idx2_lt0 y
  have e0 := dst_emb0 s y
  have e1 := dst_emb1 s y
  rw [outFinal_apply]
  refine argAt_congr m (Fin.ext ?_) (funext fun a => Fin.ext ?_)
  · show (((dstSl s).view.emb y : S4096x512.Idx) 0).val / 1024 = s.val
    omega
  · match a with
    | ⟨0, _⟩ =>
      show (((dstSl s).view.emb y : S4096x512.Idx) 0).val % 1024 = (x 0).val
      omega
    | ⟨1, _⟩ =>
      show 512 * d.val + (((dstSl s).view.emb y : S4096x512.Idx) 1).val = (x 1).val
      omega

/-- On row block `s`, what `s`'s copy `j` leaves in `peer s j`'s result array is that device's final result. -/
theorem landed_eq (s : Dev nD) (j : Fin 3) (i : S4096x512.Idx) (hi : i ∈ (dstSl s).view.set) :
    (landed m s j i : Elt F .f32) = outFinal m (peer s j) i := by
  obtain ⟨y, rfl⟩ := View.exists_emb_of_mem_set _ hi
  unfold landed
  rw [View.write_emb_of_mem _ _ (Finset.mem_univ y), View.read_apply, cast_cast, cast_eq]
  exact (outFinal_dst m (peer s j) s y _ (src_emb0 s j y) (src_emb1 s j y)).symm

/-- On row block `c`, what `c`'s local copy leaves in its own result array is its final result. -/
theorem locLanded_eq (c : Dev nD) (i : S4096x512.Idx) (hi : i ∈ (dstSl c).view.set) :
    (locLanded m c i : Elt F .f32) = outFinal m c i := by
  obtain ⟨y, rfl⟩ := View.exists_emb_of_mem_set _ hi
  unfold locLanded
  rw [View.write_emb_of_mem _ _ (Finset.mem_univ y), View.read_apply, cast_cast, cast_eq]
  exact (outFinal_dst m c c y _ (loc_emb0 c y) (loc_emb1 c y)).symm

theorem rowPts_landed (s : Dev nD) (j : Fin 3) :
    rowPts (peer s j) s (landed m s j) = rowPts (F := F) (peer s j) s (outFinal m (peer s j)) := by
  unfold rowPts; exact pointsTo_congr fun i hi => landed_eq m s j i hi
theorem rowPts_locLanded (c : Dev nD) :
    rowPts c c (locLanded m c) = rowPts (F := F) c c (outFinal m c) := by
  unfold rowPts; exact pointsTo_congr fun i hi => locLanded_eq m c i hi
/-- What lands on `c`'s receive cell `j` is row block `src c j` of `c`'s final result. -/
theorem recvPay_eq (c : Dev nD) (j : Fin 3) : recvPay m c j = rowPts (F := F) c (src c j) (outFinal m c) := by
  unfold recvPay; rw [rowPts_landed, peer_src]

/-- The local copy's row block and the three received ones make device `c`'s final result array. -/
theorem join_out (c : Dev nD) :
    iprop(rowPts c c (locLanded m c) ∗ recvPay m c 0 ∗ recvPay m c 1 ∗ recvPay m c 2)
      ⊢ ((((c : Thread nD τ).loc main_v1) ↦{fullShare} outFinal m c : sProp 𝕄)) := by
  rw [rowPts_locLanded, recvPay_eq, recvPay_eq, recvPay_eq, out_rows,
    bigSep_univ_eq_bigSepL [c, src c 0, src c 1, src c 2] (ring_srcs c) (ring_srcs_nodup c),
    bigSepL_cons_cons, bigSepL_cons_cons, bigSepL_cons_cons, bigSepL_singleton]
  exact Entails.of_eq rfl

end Cert.Kernel.A2A

end
-- ==== Proof.KernelLaunch.lean ====
/-
  THE RUN of the all-to-all on the four devices.

  Each device's body is proved once (at a symbolic device); here the four bodies are put together. At launch every
  device owns its eight semaphores at zero; the protocol's ghost state is minted for all thirty-two cells at once, each
  cell's invariant is allocated, and the duty tokens are dealt to the devices that pay them: duty rev i of the barrier
  cell of peer c i, the duty of receive cell j of peer c j, and the duties of its own send and local cells go to device c.
  What the other devices owe a device's cells is its launch credit: three units on its barrier cell, one block's credit
  on each receive cell. The two arrays travel whole into the body's invariant, are cut into blocks for the body, and are
  joined again after it; the final state is read off the two whole arrays.
-/
import proofs.«900001_g7700000000000002_dist_a2a_v7x_i4_i_m1024_n512_f32_1_alg».proof.Proof.KernelBody
import proofs.«900001_g7700000000000002_dist_a2a_v7x_i4_i_m1024_n512_f32_1_alg».proof.Proof.KernelCut

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The proof data: one point, no window -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the body: the protocol's ghost state at some names, the launch credit, the levels, and the two arrays whole,
    as the run found them. -/
def Φ₀ (c : Dev nD) : sProp 𝕄 :=
  iprop((∃ K, ghost m K c) ∗ creds c ∗ levAts L lv
    ∗ (((c : Thread nD τ).loc main_arg0) ↦{fullShare} argAt m c) ∗ (((c : Thread nD τ).loc main_v1) ↦{fullShare} outAt m c))
/-- After it: the argument array unchanged, the result array at its final contents, the seven own cells at zero. -/
def Φ₁ (c : Dev nD) : sProp 𝕄 :=
  iprop((((c : Thread nD τ).loc main_arg0) ↦{fullShare} argAt m c) ∗ (((c : Thread nD τ).loc main_v1) ↦{fullShare} outFinal m c) ∗ zeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- With no window, a product over the windows is empty. -/
theorem bigSep_W (Φ : Fin cfg0.W → sProp 𝕄) : bigSep Finset.univ Φ = (iprop(emp) : sProp 𝕄) := by
  rw [show (Finset.univ : Finset (Fin cfg0.W)) = ∅ from Finset.univ_eq_empty]; rfl

/-! ## The body obligation -/

/-- What the body leaves, joined: the four column blocks are the argument array, the four row blocks the final result. -/
theorem body_post (c : Dev nD) :
    bodyPost m c ⊢ iprop(Φ₁ m c ∗ (dats m 0 c).owesAt () t₀.succ ∗ emp) := by
  unfold bodyPost cutOut Φ₁ Dat.owesAt Pipeline.owesWithin
  rw [show (dats m 0 c).owed t₀.succ = 0 from rfl]
  iintro ⟨⟨HxL, Hx0, Hx1, Hx2, HoC, Ho0, Ho1, Ho2⟩, Hz, ⟨%W, HO⟩⟩
  isplitl [HxL Hx0 Hx1 Hx2 HoC Ho0 Ho1 Ho2 Hz]
  · isplitl [HxL Hx0 Hx1 Hx2]
    · iapply (cut_arg m c).2
      isplitl [HxL]; · iexact HxL
      isplitl [Hx0]; · iexact Hx0
      isplitl [Hx1]; · iexact Hx1
      iexact Hx2
    isplitl [HoC Ho0 Ho1 Ho2]
    · iapply (join_out m c)
      isplitl [HoC]; · iexact HoC
      isplitl [Ho0]; · iexact Ho0
      isplitl [Ho1]; · iexact Ho1
      iexact Ho2
    iexact Hz
  isplitl [HO]
  · iexists W
    isplitr; · ipureintro; exact fun _ _ => Or.inl trivial
    iexact HO
  · iempintro

/-- The body from the cut arrays to the joined ones. -/
theorem body_run (K : Dev nD × Fin 8 → ℕ) (c : Dev nD) (W : Waits sig Unit) :
    bodyPre m K c W
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2)
          (fun _ => iprop(Φ₁ m c ∗ (dats m 0 c).owesAt () t₀.succ ∗ emp)) :=
  (sound_body m K c W).trans (wp_mono _ _ _ fun _ => body_post m c)

set_option maxRecDepth 4000 in
/-- The library's body obligation on device c: the two arrays are cut for the body and joined after it. -/
theorem body_obligation (c : Dev nD) : BodyObligation (dats (F := F) m 0 c) (defs₀ (F := F)) 𝒱₀ () Set.univ := fun t => by
  rw [fin_N t]
  rw [bigSep_W, bigSep_W]
  show iprop(Φ₀ m c ∗ (dats m 0 c).owesAt () t₀.castSucc ∗ emp)
    ⊢ wp frame (wpE (defs₀ (F := F)) 𝒱₀ c none) Set.univ
      (cc0_body (Memref.whole main_arg0) (Memref.isWhole_whole _) (Memref.whole main_v1) (Memref.isWhole_whole _) cc0_scratch0 cc0_scratch1 cc0_scratch2)
      (fun _ => iprop(Φ₁ m c ∗ (dats m 0 c).owesAt () t₀.succ ∗ emp))
  unfold Φ₀ Dat.owesAt Pipeline.owesWithin
  rw [show (dats m 0 c).owed t₀.castSucc = O₀ c from rfl]
  iintro ⟨⟨⟨%K, Hg⟩, Hcr, Hlev, Harg, Hout⟩, ⟨%W, %hW, HO⟩, -⟩
  ihave Hca := (cut_arg m c).1 $$ Harg
  ihave Hco := (cut_out m c) $$ Hout
  icases Hca with ⟨HxL, Hx0, Hx1, Hx2⟩
  icases Hco with ⟨HoC, Ho0, Ho1, Ho2⟩
  iapply (body_run m K c W)
  unfold bodyPre cutIn
  isplitl [Hg]; · iexact Hg
  isplitl [Hcr]; · iexact Hcr
  isplitl [Hlev]; · iexact Hlev
  isplitr [HO]
  · isplitl [HxL]; · iexact HxL
    isplitl [Hx0]; · iexact Hx0
    isplitl [Hx1]; · iexact Hx1
    isplitl [Hx2]; · iexact Hx2
    isplitl [HoC]; · iexact HoC
    isplitl [Ho0]; · iexact Ho0
    isplitl [Ho1]; · iexact Ho1
    iexact Ho2
  · iexact HO

/-! ## The launch -/

theorem ownSemFacts : Pipeline.OwnSemFacts cfg0.spec osem := by decide

theorem csem_inj : Function.Injective (csem : Fin 8 → SemLoc sig) := by decide

theorem kcell_injective : Function.Injective (kcell : Dev nD × Fin 8 → GSem nD τ sig) := by
  rintro ⟨c, k⟩ ⟨c', k'⟩ h
  have h1 : c = c' := by have := congrArg (fun g : GSem nD τ sig => g.1.1) h; exact this
  subst h1
  have h2 : k = k' := csem_inj (congrArg Prod.snd h)
  subst h2; rfl
/-- The thirty-two cells: eight on each device. -/
def a2aCells : Finset (GSem nD τ sig) := Finset.univ.map ⟨kcell, kcell_injective⟩

/-- A device's own cells' ten duty tokens as minted, by cell and by duty: its barrier's three, its three receive
    cells', its three send cells', its local cell's. -/
abbrev tokK : Fin 10 → Fin 8 := fun
  | 0 => 0 | 1 => 0 | 2 => 0 | 3 => 5 | 4 => 6 | 5 => 7 | 6 => 2 | 7 => 3 | 8 => 4 | 9 => 1
abbrev tokD : Fin 10 → Fin 3 := fun
  | 0 => rev 0 | 1 => rev 1 | 2 => rev 2 | 3 => 0 | 4 => 0 | 5 => 0 | 6 => 0 | 7 => 0 | 8 => 0 | 9 => 0
theorem tokKD_inj : Function.Injective (fun j : Fin 10 => (tokK j, tokD j)) := by decide

abbrev tokOf (cj : Dev nD × Fin 10) : GSem nD τ sig × ℕ × Fin 3 := (kcell (cj.1, tokK cj.2), 0, tokD cj.2)
theorem tokOf_injective : Function.Injective (tokOf : Dev nD × Fin 10 → GSem nD τ sig × ℕ × Fin 3) := by
  rintro ⟨c, j⟩ ⟨c', j'⟩ h
  have h1 : (c, tokK j) = (c', tokK j') := kcell_injective (congrArg (fun x : GSem nD τ sig × ℕ × Fin 3 => x.1) h)
  have h2 : tokD j = tokD j' := congrArg (fun x : GSem nD τ sig × ℕ × Fin 3 => x.2.2) h
  have hc : c = c' := congrArg Prod.fst h1
  have hj : j = j' := tokKD_inj (Prod.ext (congrArg Prod.snd h1) h2)
  rw [hc, hj]
def a2aToks : Finset (GSem nD τ sig × ℕ × Fin 3) := Finset.univ.map ⟨tokOf, tokOf_injective⟩

def u₀ : UU :=
  (initOf (Pipeline.cells cfgs cellOf_inj) (Pipeline.launchToks cfgs cellOf_inj), initOf a2aCells a2aToks)

/-- The duty tokens of device c's own cells. -/
def toks (c : Dev nD) : sProp 𝕄 :=
  iprop(dutyTok ER (barCell c) 0 (rev 0) ∗ dutyTok ER (barCell c) 0 (rev 1) ∗ dutyTok ER (barCell c) 0 (rev 2)
    ∗ dutyTok ER (recvCell c 0) 0 0 ∗ dutyTok ER (recvCell c 1) 0 0 ∗ dutyTok ER (recvCell c 2) 0 0
    ∗ dutyTok ER (sendCell c 0) 0 0 ∗ dutyTok ER (sendCell c 1) 0 0 ∗ dutyTok ER (sendCell c 2) 0 0
    ∗ dutyTok ER (locCell c) 0 0)

/-- What the launch element deals device c. -/
def G (c : Dev nD) : sProp 𝕄 :=
  iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem fund_a2a : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : Fin 8 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_fin10]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The local, send and receive semaphores are the kernel's own seven; -/
theorem ownSems0_eq (c : Dev nD) : (Pipeline.ownSems0 (Ix := Unit) (Name := ℕ) (U := UU) (Lvl := ℕ) (Val := Elt F) (τ := τ) osem c : sProp 𝕄)
    = zeros c := by
  rw [Pipeline.ownSems0_eq_of_list c osem [0, 1, 2, 3, 4, 5, 6] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  unfold zeros
  iintro ⟨⟨H1, H2, H3, H4, H5, H6, H7⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  iexact H7

/-- Each device's eight cells' invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant under the names chosen, and that round 0 of every cell is reached. -/
def records (K : Dev nD × Fin 8 → ℕ) : sProp 𝕄 :=
  iprop((bigSep Finset.univ fun ck : Dev nD × Fin 8 => cellInv ER (a2aRd m) (K ck) (kcell ck))
    ∗ bigSep Finset.univ fun ck : Dev nD × Fin 8 => reached ER (kcell ck) 0)

instance records_persistent (K : Dev nD × Fin 8 → ℕ) : BI.Persistent (records m K) := by unfold records; infer_instance

theorem inv_at (K : Dev nD × Fin 8 → ℕ) (ck : Dev nD × Fin 8) :
    (bigSep Finset.univ fun ck : Dev nD × Fin 8 => (cellInv ER (a2aRd m) (K ck) (kcell ck) : sProp 𝕄)) ⊢ cellInv ER (a2aRd m) (K ck) (kcell ck) :=
  bigSep_elim (Finset.mem_univ ck)
theorem reached_at (ck : Dev nD × Fin 8) :
    (bigSep Finset.univ fun ck : Dev nD × Fin 8 => (reached ER (kcell ck) 0 : sProp 𝕄)) ⊢ reached ER (kcell ck) 0 :=
  bigSep_elim (Finset.mem_univ ck)

/-- What stays with device c: its positions, and the tokens of the duties it pays. -/
def linear (c : Dev nD) : sProp 𝕄 := iprop(poss c ∗ payToks c)

theorem ghost_intro (K : Dev nD × Fin 8 → ℕ) (c : Dev nD) : iprop(records m K ∗ linear c) ⊢ G' m c := by
  unfold records linear G' ghost invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (peer c 0, 0)); iexact HI
    isplitr; · iapply (inv_at m K (peer c 1, 0)); iexact HI
    isplitr; · iapply (inv_at m K (peer c 2, 0)); iexact HI
    isplitr; · iapply (inv_at m K (peer c 0, 5)); iexact HI
    isplitr; · iapply (inv_at m K (peer c 1, 6)); iexact HI
    iapply (inv_at m K (peer c 2, 7)); iexact HI
  isplitl [Hpos]; · iexact Hpos
  isplitr
  · isplitr; · iapply (reached_at (F := F) (peer c 0, 0)); iexact HR
    isplitr; · iapply (reached_at (F := F) (peer c 1, 0)); iexact HR
    isplitr; · iapply (reached_at (F := F) (peer c 2, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    iapply (reached_at (F := F) (c, 7)); iexact HR
  iexact Htok

/-- Going j + 1 places round the ring of four is a bijection of the devices, with inverse going j + 1 places back. -/
def pe (j : Fin 3) : Dev nD ≃ Dev nD := ⟨fun c => peer c j, fun c => src c j, fun c => src_peer c j, fun c => peer_src c j⟩

/-- The tokens dealt around the ring: duty rev i of device e's barrier cell goes to its payer, the device c with
    peer c i = e; the token of device e's receive cell j goes to the device c with peer c j = e, whose copy j lands
    there; the send and local tokens stay. Summed over the devices, each is a reindexing along a bijection. -/
theorem toks_around : (bigSep Finset.univ fun c : Dev nD => (toks c : sProp 𝕄)) ⊢ bigSep Finset.univ fun c : Dev nD => payToks c := by
  unfold toks payToks
  simp only [bigSep_sep']
  rw [bigSep_univ_equiv (pe 0) (fun e : Dev nD => (dutyTok ER (barCell e) 0 (rev 0) : sProp 𝕄)),
    bigSep_univ_equiv (pe 1) (fun e : Dev nD => (dutyTok ER (barCell e) 0 (rev 1) : sProp 𝕄)),
    bigSep_univ_equiv (pe 2) (fun e : Dev nD => (dutyTok ER (barCell e) 0 (rev 2) : sProp 𝕄)),
    bigSep_univ_equiv (pe 0) (fun e : Dev nD => (dutyTok ER (recvCell e 0) 0 0 : sProp 𝕄)),
    bigSep_univ_equiv (pe 1) (fun e : Dev nD => (dutyTok ER (recvCell e 1) 0 0 : sProp 𝕄)),
    bigSep_univ_equiv (pe 2) (fun e : Dev nD => (dutyTok ER (recvCell e 2) 0 0 : sProp 𝕄))]
  iintro ⟨H1, H2, H3, H4, H5, H6, H7, H8, H9, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (a2aRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 8 => (atPos ER (kcell (c, k)) 0 ∅ 0 : sProp 𝕄)) payToks).symm).trans
      (bigSep_mono fun c _ => show _ ⊢ linear c from Entails.of_eq (by unfold linear poss; rw [bigSep_fin8])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What device d owes the receive cell j of its peer j, and the barrier cell of its peer i. -/
abbrev dR (j : Fin 3) : Dev nD → CellTallies nD τ sig Unit := fun d => tallyAt (recvCell (peer d j) j) () N
abbrev dB (i : Fin 3) : Dev nD → CellTallies nD τ sig Unit := fun d => tallyAt (barCell (peer d i)) () 1

theorem O₀_eq : (O₀ : Dev nD → CellTallies nD τ sig Unit)
    = fun d => ((((dR 2 d + dR 1 d) + dR 0 d) + dB 2 d) + dB 1 d) + dB 0 d := rfl

/-- The unit on c's barrier cell owed by the device whose peer i is c, -/
theorem launch_bar (i : Fin 3) (c : Dev nD) : (Pipeline.launchCred (dB i) c : sProp 𝕄) ⊢ cred (tallyAt (barCell c) () 1) :=
  Pipeline.launchCred_tallyAt (SemLoc.reg barS) (fun d => peer d i) (fun c => src c i) (fun c => peer_src c i) (fun d => src_peer d i) () 1 c
/-- the block's credit on c's receive cell j owed by the device whose peer j is c. -/
theorem launch_recv (j : Fin 3) (c : Dev nD) : (Pipeline.launchCred (dR j) c : sProp 𝕄) ⊢ cred (tallyAt (recvCell c j) () N) :=
  Pipeline.launchCred_tallyAt (SemLoc.dma (recvS j)) (fun d => peer d j) (fun c => src c j) (fun c => peer_src c j) (fun d => src_peer d j) () N c

/-- Three units on one cell are one credit of three. -/
theorem cred_bar3 (c : Dev nD) :
    iprop(cred (tallyAt (barCell c) () 1) ∗ cred (tallyAt (barCell c) () 1) ∗ cred (tallyAt (barCell c) () 1))
      ⊢ (cred (tallyAt (barCell c) () 3) : sProp 𝕄) := by
  have h : (tallyAt (barCell c) () 3 : CellTallies nD τ sig Unit)
      = tallyAt (barCell c) () 1 + (tallyAt (barCell c) () 1 + tallyAt (barCell c) () 1) := by
    rw [tallyAt_add, tallyAt_add]
  rw [h]
  exact (sep_mono_right (cred_add _ _).2).trans (cred_add _ _).2

theorem launch_creds (c : Dev nD) : (Pipeline.launchCred O₀ c : sProp 𝕄) ⊢ creds c := by
  rw [O₀_eq, Pipeline.launchCred_add, Pipeline.launchCred_add, Pipeline.launchCred_add, Pipeline.launchCred_add, Pipeline.launchCred_add]
  unfold creds
  iintro ⟨⟨⟨⟨⟨H2, H1⟩, H0⟩, B2⟩, B1⟩, B0⟩
  isplitl [B0 B1 B2]
  · iapply (cred_bar3 (F := F) c)
    isplitl [B0]; · iapply (launch_bar (F := F) 0 c); iexact B0
    isplitl [B1]; · iapply (launch_bar (F := F) 1 c); iexact B1
    iapply (launch_bar (F := F) 2 c); iexact B2
  isplitl [H0]; · iapply (launch_recv (F := F) 0 c); iexact H0
  isplitl [H1]; · iapply (launch_recv (F := F) 1 c); iexact H1
  iapply (launch_recv (F := F) 2 c); iexact H2

/-! ### The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, unscopedRest0_eq]
  iintro ⟨⟨Harg, Hout⟩, Hlev, Hcr, -, HG⟩
  ihave Hc := (launch_creds (F := F) c) $$ Hcr
  imodintro
  unfold Φ₀ G'
  isplitl
  · isplitl [HG]; · iexact HG
    isplitl [Hc]; · iexact Hc
    isplitl [Hlev]; · iexact Hlev
    isplitl [Harg]; · iexact Harg
    iexact Hout
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

/-- The two arrays whole after the run. -/
def Yfin (c : Dev nD) : sProp 𝕄 :=
  iprop((((c : Thread nD τ).loc main_arg0) ↦{fullShare} argAt m c) ∗ (((c : Thread nD τ).loc main_v1) ↦{fullShare} outFinal m c))

theorem phi1_exit (c : Dev nD) :
    (dats m 0 c).Φ (Fin.last cfg0.N) ⊢ iprop(Yfin m c ∗ Pipeline.ownSems0 osem c ∗ Pipeline.scopedRest cfg0.spec c) := by
  rw [show (dats m 0 c).Φ (Fin.last cfg0.N) = Φ₁ m c from rfl, scopedRest0_eq, ownSems0_eq]
  unfold Φ₁ Yfin
  iintro ⟨Ha, Ho, Hz⟩
  isplitl [Ha Ho]
  · isplitl [Ha] <;> iassumption
  isplitl [Hz]; · iexact Hz
  iempintro

theorem waits (c : Dev nD) : (levAts L lv : sProp 𝕄) ⊢ Pipeline.cellsWaits cfgs (dats m) () 0 c :=
  Pipeline.cellsWaits_intro cfgs (dats m) () 0 c fun w => w.elim0

/-! ### The run -/

set_option maxRecDepth 8000 in
/-- At the compiled mesh of four devices, for any float values, from any memory with zero counters: every weakly fair
    execution of @main (the four kernels handshaking on the runtime's barrier semaphore, then exchanging blocks)
    terminates, and every final state has each device's result array at the final contents and its argument unchanged. -/
theorem run_main (m : (ℓ : Loc nD τ sig) → Buf (Elt F) ℓ) (ρ : Dev nD → PrngReg) :
    θ_run (defs (F := F)) (onTc (τ := τ) (main (F := F))) ⟨m, fun _ => 0, ρ⟩
      (fun r => ∀ c : Dev nD,
        r.2.mem ((c : Thread nD τ).loc main_v1) = outFinal m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_a2a m) $$ HX with HG
      imodintro
      isplitl [HP] <;> iassumption)
    (hglob := glob m)
    (hA := fun _ w => w.elim0) (hpf := fun _ k => k.elim0)
    (X := Φ₀ m) (Y := Yfin m) (Z := fun _ => iprop(emp))
    (hX := start_intro m ρ) (hin := phi0_intro m) (hout := phi1_exit m)
    (QY := fun c s => s.mem ((c : Thread nD τ).loc main_v1) = outFinal m c
      ∧ s.mem ((c : Thread nD τ).loc main_arg0) = m ((c : Thread nD τ).loc main_arg0))
    (hY := fun c s' => by
      unfold Yfin
      iintro ⟨⟨Ha, Ho⟩, -, HSI⟩
      icombine HSI Ha gives %ha
      icombine HSI Ho gives %ho
      imodintro
      isplitr; · ipureintro; exact ⟨Buf.eq_of_forall_mem_univ ho, Buf.eq_of_forall_mem_univ ha⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.KernelIdealSpec.lean ====
/-
  What the all-to-all leaves in each device's result array, as ONE function of the four devices' argument arrays.

  Device `c` holds an argument block of 1024 rows and 2048 columns and a result array of 4096 rows and 512 columns.
  Row block `s` of device `c`'s result (rows `1024 s` to `1024 s + 1023`) is column block `c` of device `s`'s argument
  (columns `512 c` to `512 c + 511`): entry `(1024 s + r, l)` of the result is entry `(r, 512 c + l)` of device `s`'s
  argument. Nothing is computed: every entry of the result is one entry of one argument array.
-/
import proofs.«900001_g7700000000000002_dist_a2a_v7x_i4_i_m1024_n512_f32_1_alg».proof.KernelIdeal
import Idealize.ShloMosaic.Lib.ValueIdx

noncomputable section

namespace Cert.KernelIdeal.A2A

open Cert.KernelIdeal
open Idealize.ShloMosaic Idealize.ShloMosaic.TcCoe Idealize.SL.Sem
open Idealize.ShloMosaic.ValueIdx

variable {F : FTy → Type} [FloatOps F]

/-- The device whose argument a result row comes from: the row's block of 1024. -/
def rowDev (i : S4096x512.Idx) : Dev nD := ⟨(i 0).val / 1024, by have h : (i 0).val < 4096 := (i 0).isLt; show (i 0).val / 1024 < 4; omega⟩

/-- Where in that device's argument array entry `i` of device `c`'s result comes from. -/
def srcIdx (c : Dev nD) (i : S4096x512.Idx) : S1024x2048.Idx :=
  ix2 ⟨(i 0).val % 1024, Nat.mod_lt _ (by decide)⟩
    ⟨512 * c.val + (i 1).val, by have h : (i 1).val < 512 := (i 1).isLt; have hc : c.val < 4 := c.isLt; show 512 * c.val + (i 1).val < 2048; omega⟩

variable (m : (ℓ : Loc nD τ sig) → Buf (Elt F) ℓ)

/-- Device `c`'s argument array as the run finds it. -/
abbrev argAt (c : Dev nD) : Buf (Elt F) ((c : Thread nD τ).loc main_arg0) := m ((c : Thread nD τ).loc main_arg0)

/-- Device `c`'s result array after the run: row block `s` is column block `c` of device `s`'s argument. -/
def outFinal (c : Dev nD) : Buf (Elt F) ((c : Thread nD τ).loc main_v1) :=
  fun i => argAt m (rowDev i) (srcIdx c i)

theorem outFinal_apply (c : Dev nD) (i : S4096x512.Idx) : outFinal m c i = argAt m (rowDev i) (srcIdx c i) := rfl

end Cert.KernelIdeal.A2A

end
-- ==== Proof.KernelIdealProto.lean ====
/-
  The all-to-all's protocol on the four devices, under the rounds discipline.

  Device `c` signals the barrier semaphore of its three peers `peer c 0, peer c 1, peer c 2` (the devices one, two and
  three places after it on the ring of four), waits for three units on its own, sends column block `peer c j` of its
  argument into row block `c` of `peer c j`'s result (copy `j`: its own send semaphore `j`, the target's receive semaphore
  `j`), copies its own column block `c` into row block `c` of its own result, waits for that copy, for its three sends and
  for its three receives. The copy landing on receive semaphore `j` of device `c` comes from `src c j`, the device
  `j + 1` places before it.

  Every semaphore is one cell with one round. A barrier cell has three duties of one unit: duty `j` of device `e`'s
  cell is paid by `peer e j` and hands `e` row block `e` of `peer e j`'s result array together with the fact that
  `peer e j` stands at round 0 of its receive cell `j`: what `e`'s copy `j` needs. The send, receive and local-copy
  cells have one duty each, of one block's credit: a send cell gives the column block back, a receive cell hands its
  owner the row block holding what was sent, the local cell both blocks of the local copy.
-/
import proofs.«900001_g7700000000000002_dist_a2a_v7x_i4_i_m1024_n512_f32_1_alg».proof.Proof.KernelIdealSpec
import proofs.«900001_g7700000000000002_dist_a2a_v7x_i4_i_m1024_n512_f32_1_alg».proof.Proof.Gen.KernelIdeal.Skeleton
import proofs.«900001_g7700000000000002_dist_a2a_v7x_i4_i_m1024_n512_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring of four -/

/-- The device `j + 1` places after `c`: the target of `c`'s signal `j` and of its copy `j`. -/
def peer (c : Dev nD) (j : Fin 3) : Dev nD := ⟨(c.val + 1 + j.val) % 4, Nat.mod_lt _ (by decide)⟩
/-- The device `j + 1` places before `c`: where the copy landing on `c`'s receive semaphore `j` comes from. -/
def src (c : Dev nD) (j : Fin 3) : Dev nD := ⟨(c.val + 3 - j.val) % 4, Nat.mod_lt _ (by decide)⟩
/-- Signal `j` of a device pays duty `rev j` of its target's barrier cell. -/
def rev (j : Fin 3) : Fin 3 := ⟨2 - j.val, by omega⟩

theorem src_peer (c : Dev nD) (j : Fin 3) : src (peer c j) j = c := by revert c j; decide
theorem peer_src (c : Dev nD) (j : Fin 3) : peer (src c j) j = c := by revert c j; decide
theorem peer_peer_rev (c : Dev nD) (j : Fin 3) : peer (peer c j) (rev j) = c := by revert c j; decide
theorem rev_rev (j : Fin 3) : rev (rev j) = j := by revert j; decide
theorem peer_ne (c : Dev nD) (j : Fin 3) : peer c j ≠ c := by revert c j; decide
theorem src_ne (c : Dev nD) (j : Fin 3) : src c j ≠ c := by revert c j; decide
theorem peer_inj (c : Dev nD) (i j : Fin 3) (h : peer c i = peer c j) : i = j := by revert c i j; decide
theorem src_inj (c : Dev nD) (i j : Fin 3) (h : src c i = src c j) : i = j := by revert c i j; decide

/-- The kernel's `device_id` chains: signal and copy `j` name `peer c j`. -/
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 0 := Fin.ext (k0_dev4_eq c)
theorem dev5_eq (c : Dev nD) : (⟨k0_dev5 c, k0_dev5_lt c⟩ : Dev nD) = peer c 1 := Fin.ext (k0_dev5_eq c)
theorem dev6_eq (c : Dev nD) : (⟨k0_dev6 c, k0_dev6_lt c⟩ : Dev nD) = peer c 2 := Fin.ext (k0_dev6_eq c)

/-! ## The memrefs, as the body spells them -/

abbrev xM : Memref sig .tc .hbm S1024x2048 .f32 := Memref.whole main_arg0
abbrev oM : Memref sig .tc .hbm S4096x512 .f32 := Memref.whole main_v1

/-- Column block `peer c j` of `c`'s argument: the source of copy `j`. -/
abbrev srcSl (c : Dev nD) (j : Fin 3) : Memref sig .tc .hbm S1024x512 .f32 :=
  xM.slice (Rect.unit (s := S1024x2048) (k0_off2 c (BitVec.ofNat 32 (1 + j.val))) S1024x512.size (k0_off2_inb c j)) (fun _ => rfl)
/-- Column block `c` of `c`'s argument: the source of the local copy. -/
abbrev locSl (c : Dev nD) : Memref sig .tc .hbm S1024x512 .f32 :=
  xM.slice (Rect.unit (s := S1024x2048) (k0_off3 c) S1024x512.size (k0_off3_inb c)) (fun _ => rfl)
/-- Row block `c` of a result array: where everything `c` sends or copies lands, on whichever device. -/
abbrev dstSl (c : Dev nD) : Memref sig .tc .hbm S1024x512 .f32 :=
  oM.slice (Rect.unit (s := S4096x512) (k0_off1 c) S1024x512.size (k0_off1_inb c)) (fun _ => rfl)

/-- The runtime's barrier semaphore (unscoped); the local copy's, the send and the receive DMA semaphores (scoped scratch). -/
abbrev barS : Sem sig := (SemArray.scalar (sig.barrier 0 rfl) : Sems sig S_).sem
abbrev locS : DmaSem sig := cc0_scratch0.sem
abbrev sendS0 : DmaSem sig := ((cc0_scratch1.slice (Rect.unit (s := S3) ![0] S1.size inb_S3_S1_0)).squeeze S_ squeezes_S1_S_).sem
abbrev sendS1 : DmaSem sig := ((cc0_scratch1.slice (Rect.unit (s := S3) ![1] S1.size inb_S3_S1_1)).squeeze S_ squeezes_S1_S_).sem
abbrev sendS2 : DmaSem sig := ((cc0_scratch1.slice (Rect.unit (s := S3) ![2] S1.size inb_S3_S1_2)).squeeze S_ squeezes_S1_S_).sem
abbrev recvS0 : DmaSem sig := ((cc0_scratch2.slice (Rect.unit (s := S3) ![0] S1.size inb_S3_S1_0)).squeeze S_ squeezes_S1_S_).sem
abbrev recvS1 : DmaSem sig := ((cc0_scratch2.slice (Rect.unit (s := S3) ![1] S1.size inb_S3_S1_1)).squeeze S_ squeezes_S1_S_).sem
abbrev recvS2 : DmaSem sig := ((cc0_scratch2.slice (Rect.unit (s := S3) ![2] S1.size inb_S3_S1_2)).squeeze S_ squeezes_S1_S_).sem
abbrev sendS : Fin 3 → DmaSem sig := fun | 0 => sendS0 | 1 => sendS1 | 2 => sendS2
abbrev recvS : Fin 3 → DmaSem sig := fun | 0 => recvS0 | 1 => recvS1 | 2 => recvS2

abbrev barCell (c : Dev nD) : GSem nD τ sig := ((c : Thread nD τ), .reg barS)
abbrev locCell (c : Dev nD) : GSem nD τ sig := ((c : Thread nD τ), .dma locS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The eight semaphores of a device as this proof indexes them: barrier; local; send 0–2; receive 0–2. -/
abbrev csem : Fin 8 → SemLoc sig := fun
  | 0 => .reg barS | 1 => .dma locS | 2 => .dma sendS0 | 3 => .dma sendS1 | 4 => .dma sendS2
  | 5 => .dma recvS0 | 6 => .dma recvS1 | 7 => .dma recvS2
abbrev kcell (ck : Dev nD × Fin 8) : GSem nD τ sig := ((ck.1 : Thread nD τ), csem ck.2)
/-- The kernel's OWN (scoped) semaphores, as the launch theorem indexes them. -/
abbrev osem : Fin 7 → SemLoc sig := fun
  | 0 => .dma locS | 1 => .dma sendS0 | 2 => .dma sendS1 | 3 => .dma sendS2 | 4 => .dma recvS0 | 5 => .dma recvS1 | 6 => .dma recvS2

/-- One block's credit. -/
def N : ℕ := (dstSl (0 : Dev nD)).view.dmaCredit
theorem N_pos : 0 < N := View.dmaCredit_pos _ (by decide)

/-! ## Contents -/

/-- Device `c`'s result array as the run finds it. -/
abbrev outAt (c : Dev nD) : Buf (Elt F) ((c : Thread nD τ).loc main_v1) := m ((c : Thread nD τ).loc main_v1)

/-- What `s`'s copy `j` leaves in `peer s j`'s result array (read on its row block `s`). -/
def landed (s : Dev nD) (j : Fin 3) : Buf (Elt F) (((peer s j : Dev nD) : Thread nD τ).loc main_v1) :=
  (dstSl s).view.write (Elt F) (outAt m (peer s j)) ((srcSl s j).view.read (Elt F) (argAt m s)) Finset.univ
/-- What `c`'s local copy leaves in its own result array (read on its row block `c`). -/
def locLanded (c : Dev nD) : Buf (Elt F) ((c : Thread nD τ).loc main_v1) :=
  (dstSl c).view.write (Elt F) (outAt m c) ((locSl c).view.read (Elt F) (argAt m c)) Finset.univ

/-- Row block `s` of device `d`'s result array, at contents `f`. -/
def rowPts (d s : Dev nD) (f : Buf (Elt F) ((d : Thread nD τ).loc main_v1)) : sProp 𝕄 :=
  (dstSl s).view.loc (d : Thread nD τ) ↦[(dstSl s).view.set]{fullShare} f
/-- The column block of `c`'s argument that copy `j` reads, and the one the local copy reads. -/
def colPts (c : Dev nD) (j : Fin 3) : sProp 𝕄 :=
  (srcSl c j).view.loc (c : Thread nD τ) ↦[(srcSl c j).view.set]{fullShare} argAt m c
def colLoc (c : Dev nD) : sProp 𝕄 :=
  (locSl c).view.loc (c : Thread nD τ) ↦[(locSl c).view.set]{fullShare} argAt m c

omit [FloatOps F] in
instance rowPts_storable (d s : Dev nD) (f) : BI.Storable (upEmb : UEmb _ 𝕄) (rowPts (F := F) d s f) := by unfold rowPts; infer_instance
omit [FloatOps F] in
instance colPts_storable (c : Dev nD) (j : Fin 3) : BI.Storable (upEmb : UEmb _ 𝕄) (colPts (F := F) m c j) := by unfold colPts; infer_instance
omit [FloatOps F] in
instance colLoc_storable (c : Dev nD) : BI.Storable (upEmb : UEmb _ 𝕄) (colLoc (F := F) m c) := by unfold colLoc; infer_instance

/-! ## The schedule -/

/-- What `peer e j`'s signal (duty `j` of `e`'s barrier cell) hands `e`: row block `e` of `peer e j`'s result array as the
    run found it, and that `peer e j` stands at round 0 of its receive cell `j`. -/
def barPay (e : Dev nD) (j : Fin 3) : sProp 𝕄 :=
  iprop(rowPts (peer e j) e (outAt m (peer e j)) ∗ reached ER (recvCell (peer e j) j) 0)
/-- What lands on `c`'s receive cell `j`: row block `src c j` of its result array holding what `src c j` sent. -/
def recvPay (c : Dev nD) (j : Fin 3) : sProp 𝕄 := rowPts (peer (src c j) j) (src c j) (landed m (src c j) j)
def sendPay (c : Dev nD) (j : Fin 3) : sProp 𝕄 := colPts m c j
def locPay (c : Dev nD) : sProp 𝕄 := iprop(rowPts c c (locLanded m c) ∗ colLoc m c)

/-- Which copy a send or receive semaphore belongs to. -/
def jOf (q : DmaSem sig) : Fin 3 := ⟨(q.val + 2) % 3, Nat.mod_lt _ (by decide)⟩

/-- One round, round 0: a barrier cell has three duties of one unit; every DMA cell the duty `0` of one block's credit. -/
def a2aRd : Rounds.Schedule (GSem nD τ sig) (Fin 3) 𝕄 where
  duties g r := if r = 0 ∧ g.1.2 = .tc then (match g.2 with | .reg _ => {0, 1, 2} | .dma _ => {0}) else ∅
  unitless _ := False
  amount g _ _ := match g.2 with | .reg _ => 1 | .dma _ => N
  payload g _ d := match g.2 with
    | .reg _ => barPay m g.1.1 d
    | .dma q => if q.val = 0 then locPay m g.1.1 else if q.val ≤ 3 then sendPay m g.1.1 (jOf q) else recvPay m g.1.1 (jOf q)
  amount_pos g _ _ _ := by
    rcases g with ⟨t, _ | _⟩
    · exact Nat.one_pos
    · exact N_pos

instance a2aRd_payload_storable (g : GSem nD τ sig) (r : ℕ) (d : Fin 3) :
    BI.Storable (upEmb : UEmb _ 𝕄) ((a2aRd (F := F) m).payload g r d) := by
  rcases g with ⟨t, s | q⟩
  · show BI.Storable upEmb (barPay m t.1 d)
    unfold barPay; infer_instance
  · show BI.Storable upEmb (if q.val = 0 then locPay m t.1 else if q.val ≤ 3 then sendPay m t.1 (jOf q) else recvPay m t.1 (jOf q))
    unfold locPay sendPay recvPay
    (repeat' split) <;> infer_instance

section Sched
variable (c : Dev nD) (j : Fin 3)

omit [FloatOps F] in
theorem duties_bar : (a2aRd (F := F) m).duties (barCell c) 0 = {0, 1, 2} := by dsimp only [a2aRd]; exact if_pos ⟨rfl, rfl⟩
omit [FloatOps F] in
theorem duties_loc : (a2aRd (F := F) m).duties (locCell c) 0 = {0} := by dsimp only [a2aRd]; exact if_pos ⟨rfl, rfl⟩
omit [FloatOps F] in
theorem duties_send : (a2aRd (F := F) m).duties (sendCell c j) 0 = {0} := by dsimp only [a2aRd]; exact if_pos ⟨rfl, rfl⟩
omit [FloatOps F] in
theorem duties_recv : (a2aRd (F := F) m).duties (recvCell c j) 0 = {0} := by dsimp only [a2aRd]; exact if_pos ⟨rfl, rfl⟩
omit [FloatOps F] in
theorem duties_later (g : GSem nD τ sig) : ∀ r, 1 ≤ r → (a2aRd (F := F) m).duties g r = ∅ :=
  fun r hr => by dsimp only [a2aRd]; rw [if_neg fun h => by omega]

omit [FloatOps F] in
theorem amount_bar (d : Fin 3) : (a2aRd (F := F) m).amount (barCell c) 0 d = 1 := rfl
omit [FloatOps F] in
theorem amount_loc (d : Fin 3) : (a2aRd (F := F) m).amount (locCell c) 0 d = N := rfl
omit [FloatOps F] in
theorem amount_send (d : Fin 3) : (a2aRd (F := F) m).amount (sendCell c j) 0 d = N := rfl
omit [FloatOps F] in
theorem amount_recv (d : Fin 3) : (a2aRd (F := F) m).amount (recvCell c j) 0 d = N := rfl

omit [FloatOps F] in
theorem expect_bar : (a2aRd (F := F) m).expect (barCell c) 0 = 3 := by
  exact (congrArg (fun S : Finset (Fin 3) => ∑ d ∈ S, (a2aRd (F := F) m).amount (barCell c) 0 d) (duties_bar m c)).trans
    ((Finset.sum_congr rfl fun d _ => amount_bar m c d).trans (by decide))
omit [FloatOps F] in
theorem expect_loc : (a2aRd (F := F) m).expect (locCell c) 0 = N := by
  rw [Schedule.expect.eq_1, duties_loc]
  exact (Finset.sum_singleton (fun d => (a2aRd (F := F) m).amount (locCell c) 0 d) 0).trans (amount_loc m c 0)
omit [FloatOps F] in
theorem expect_send : (a2aRd (F := F) m).expect (sendCell c j) 0 = N := by
  rw [Schedule.expect.eq_1, duties_send]
  exact (Finset.sum_singleton (fun d => (a2aRd (F := F) m).amount (sendCell c j) 0 d) 0).trans (amount_send m c j 0)
omit [FloatOps F] in
theorem expect_recv : (a2aRd (F := F) m).expect (recvCell c j) 0 = N := by
  rw [Schedule.expect.eq_1, duties_recv]
  exact (Finset.sum_singleton (fun d => (a2aRd (F := F) m).amount (recvCell c j) 0 d) 0).trans (amount_recv m c j 0)

omit [FloatOps F] in
theorem payload_bar (d : Fin 3) : (a2aRd (F := F) m).payload (barCell c) 0 d = barPay m c d := rfl
omit [FloatOps F] in
theorem payload_loc (d : Fin 3) : (a2aRd (F := F) m).payload (locCell c) 0 d = locPay m c := rfl
omit [FloatOps F] in
theorem payload_send (d : Fin 3) : (a2aRd (F := F) m).payload (sendCell c j) 0 d = sendPay m c j := by
  revert j; intro j; fin_cases j <;> rfl
omit [FloatOps F] in
theorem payload_recv (d : Fin 3) : (a2aRd (F := F) m).payload (recvCell c j) 0 d = recvPay m c j := by
  revert j; intro j; fin_cases j <;> rfl

omit [FloatOps F] in
/-- The rest of the barrier cell's round, no duty taken: the three peers' payloads. -/
theorem rest_bar : bigSep ((a2aRd (F := F) m).duties (barCell c) 0 \ ∅) (fun d => (a2aRd (F := F) m).payload (barCell c) 0 d)
    = iprop(barPay m c 0 ∗ barPay m c 1 ∗ barPay m c 2) := by
  rw [Finset.sdiff_empty, duties_bar, bigSep_eq_bigSepL_of_eq [0, 1, 2] (by decide) (by decide), bigSepL_cons_cons, bigSepL_cons_cons, bigSepL_singleton]
  rfl
omit [FloatOps F] in
theorem rest_loc : bigSep ((a2aRd (F := F) m).duties (locCell c) 0 \ ∅) (fun d => (a2aRd (F := F) m).payload (locCell c) 0 d) = locPay m c := by
  rw [Finset.sdiff_empty, duties_loc, bigSep_singleton, payload_loc]
omit [FloatOps F] in
theorem rest_send : bigSep ((a2aRd (F := F) m).duties (sendCell c j) 0 \ ∅) (fun d => (a2aRd (F := F) m).payload (sendCell c j) 0 d) = sendPay m c j := by
  rw [Finset.sdiff_empty, duties_send, bigSep_singleton, payload_send]
omit [FloatOps F] in
theorem rest_recv : bigSep ((a2aRd (F := F) m).duties (recvCell c j) 0 \ ∅) (fun d => (a2aRd (F := F) m).payload (recvCell c j) 0 d) = recvPay m c j := by
  rw [Finset.sdiff_empty, duties_recv, bigSep_singleton, payload_recv]

omit [FloatOps F] in
/-- Duty `rev i` of `peer c i`'s barrier cell, as its payer `c` holds it: row block `peer c i` of `c`'s own result array,
    and `c` at round 0 of its receive cell `rev i`. -/
theorem payload_bar_peer (i : Fin 3) : (a2aRd (F := F) m).payload (barCell (peer c i)) 0 (rev i)
    = iprop(((dstSl (peer c i)).view.loc (c : Thread nD τ) ↦[(dstSl (peer c i)).view.set]{fullShare} outAt m c) ∗ reached ER (recvCell c (rev i)) 0) := by
  rw [payload_bar]; unfold barPay rowPts; rw [peer_peer_rev]
omit [FloatOps F] in
/-- Duty `j` of `c`'s own barrier cell, as `c` receives it. -/
theorem payload_bar_own (d : Fin 3) : (a2aRd (F := F) m).payload (barCell c) 0 d
    = iprop(((dstSl c).view.loc ((peer c d : Dev nD) : Thread nD τ) ↦[(dstSl c).view.set]{fullShare} outAt m (peer c d)) ∗ reached ER (recvCell (peer c d) d) 0) := rfl
omit [FloatOps F] in
/-- The duty of `peer c j`'s receive cell `j`, as its payer `c` states it: what `c`'s copy `j` writes. -/
theorem payload_recv_peer (d : Fin 3) : (a2aRd (F := F) m).payload (recvCell (peer c j) j) 0 d
    = ((dstSl c).view.loc ((peer c j : Dev nD) : Thread nD τ) ↦[(dstSl c).view.set]{fullShare}
        ((dstSl c).view.write (Elt F) (outAt m (peer c j)) ((srcSl c j).view.read (Elt F) (argAt m c)) Finset.univ)) := by
  rw [payload_recv]; unfold recvPay rowPts landed; rw [src_peer]
omit [FloatOps F] in
theorem payload_send_pts (d : Fin 3) : (a2aRd (F := F) m).payload (sendCell c j) 0 d
    = ((srcSl c j).view.loc (c : Thread nD τ) ↦[(srcSl c j).view.set]{fullShare} argAt m c) := by
  rw [payload_send]; rfl

end Sched

end Cert.KernelIdeal.A2A

end
-- ==== Proof.KernelIdealBody.lean ====
/-
  One device's body, stepped once at a symbolic device `c`.

  The device starts with its argument array cut into its four column blocks and its result array cut into its four row
  blocks. It hands the three row blocks that are not its own to the three peers with its barrier signals, receives the
  peers' row blocks `c` with its barrier wait, sends into them, copies its own block, and gets every block back with
  the waits: the column blocks unchanged, each row block holding what its sender wrote.
-/
import proofs.«900001_g7700000000000002_dist_a2a_v7x_i4_i_m1024_n512_f32_1_alg».proof.Proof.KernelIdealProto

noncomputable section

namespace Cert.KernelIdeal.A2A

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

/-- Device `c` owes each peer's receive cell one block's credit and each peer's barrier cell one unit — summed so
    that signal 0 peels the last summand, then signal 1, signal 2, copy 0, copy 1, copy 2. -/
def O₃ (c : Dev nD) : CellTallies nD τ sig Unit :=
  tallyAt (recvCell (peer c 2) 2) () N + tallyAt (recvCell (peer c 1) 1) () N + tallyAt (recvCell (peer c 0) 0) () N
def O₀ (c : Dev nD) : CellTallies nD τ sig Unit :=
  O₃ c + tallyAt (barCell (peer c 2)) () 1 + tallyAt (barCell (peer c 1)) () 1 + tallyAt (barCell (peer c 0)) () 1

def L (g : GSem nD τ sig) : Finset Unit := if g.1.2 = .tc then {()} else ∅
/-- barrier cells at 1, receive cells at 2, everything else (send, local) at 0. -/
def lv (g : GSem nD τ sig) (_ : Unit) : ℕ :=
  match g.2 with | .reg _ => 1 | .dma q => if 4 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₃_pos {c : Dev nD} {g : GSem nD τ sig} {u : Unit} (h : 0 < O₃ c g u) : ∃ j, g = recvCell (peer c j) j := by
  unfold O₃ at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

omit [FloatOps F] in
/-- At its barrier wait a device owes its peers' receive credit only: receive cells, above its barrier cell. -/
theorem mayWait_bar (c : Dev nD) : (levAts L lv : sProp 𝕄) ⊢ MayWait (c : Thread nD τ) (.reg barS) () (O₃ c) :=
  Pipeline.mayWait_of_levAts (by rw [L_tc]; exact Finset.mem_singleton_self _) fun g i hg => by
    obtain ⟨j, rfl⟩ := O₃_pos hg
    refine ⟨by rw [L_tc]; exact Finset.mem_singleton_self _, ?_⟩
    fin_cases j <;> exact Nat.lt_succ_self 1

/-! The schedule's payloads at each of the three copies, as the run meets them. -/
omit [FloatOps F] in
theorem pay_send0 (c : Dev nD) (d : Fin 3) : (a2aRd (F := F) m).payload (sendCell c 0) 0 d
    = ((srcSl c 0).view.loc (c : Thread nD τ) ↦[(srcSl c 0).view.set]{fullShare} argAt m c) := payload_send_pts m c 0 d
omit [FloatOps F] in
theorem pay_send1 (c : Dev nD) (d : Fin 3) : (a2aRd (F := F) m).payload (sendCell c 1) 0 d
    = ((srcSl c 1).view.loc (c : Thread nD τ) ↦[(srcSl c 1).view.set]{fullShare} argAt m c) := payload_send_pts m c 1 d
omit [FloatOps F] in
theorem pay_send2 (c : Dev nD) (d : Fin 3) : (a2aRd (F := F) m).payload (sendCell c 2) 0 d
    = ((srcSl c 2).view.loc (c : Thread nD τ) ↦[(srcSl c 2).view.set]{fullShare} argAt m c) := payload_send_pts m c 2 d
omit [FloatOps F] in
theorem pay_land0 (c : Dev nD) (d : Fin 3) : (a2aRd (F := F) m).payload (recvCell (peer c 0) 0) 0 d
    = ((dstSl c).view.loc ((peer c 0 : Dev nD) : Thread nD τ) ↦[(dstSl c).view.set]{fullShare}
        ((dstSl c).view.write (Elt F) (outAt m (peer c 0)) ((srcSl c 0).view.read (Elt F) (argAt m c)) Finset.univ)) := payload_recv_peer m c 0 d
omit [FloatOps F] in
theorem pay_land1 (c : Dev nD) (d : Fin 3) : (a2aRd (F := F) m).payload (recvCell (peer c 1) 1) 0 d
    = ((dstSl c).view.loc ((peer c 1 : Dev nD) : Thread nD τ) ↦[(dstSl c).view.set]{fullShare}
        ((dstSl c).view.write (Elt F) (outAt m (peer c 1)) ((srcSl c 1).view.read (Elt F) (argAt m c)) Finset.univ)) := payload_recv_peer m c 1 d
omit [FloatOps F] in
theorem pay_land2 (c : Dev nD) (d : Fin 3) : (a2aRd (F := F) m).payload (recvCell (peer c 2) 2) 0 d
    = ((dstSl c).view.loc ((peer c 2 : Dev nD) : Thread nD τ) ↦[(dstSl c).view.set]{fullShare}
        ((dstSl c).view.write (Elt F) (outAt m (peer c 2)) ((srcSl c 2).view.read (Elt F) (argAt m c)) Finset.univ)) := payload_recv_peer m c 2 d
omit [FloatOps F] in
theorem pay_recv0 (c : Dev nD) (d : Fin 3) : (a2aRd (F := F) m).payload (recvCell c 0) 0 d = recvPay m c 0 := payload_recv m c 0 d
omit [FloatOps F] in
theorem pay_recv1 (c : Dev nD) (d : Fin 3) : (a2aRd (F := F) m).payload (recvCell c 1) 0 d = recvPay m c 1 := payload_recv m c 1 d
omit [FloatOps F] in
theorem pay_recv2 (c : Dev nD) (d : Fin 3) : (a2aRd (F := F) m).payload (recvCell c 2) 0 d = recvPay m c 2 := payload_recv m c 2 d

/-! The schedule's tables at each send and receive cell, the cell spelt by its semaphore. -/
omit [FloatOps F] in
theorem duties_send0 (c : Dev nD) : (a2aRd (F := F) m).duties ((c : Thread nD τ), SemLoc.dma sendS0) 0 = {0} := duties_send m c 0
omit [FloatOps F] in
theorem amount_send0 (c : Dev nD) (d : Fin 3) : (a2aRd (F := F) m).amount ((c : Thread nD τ), SemLoc.dma sendS0) 0 d = N := rfl
omit [FloatOps F] in
theorem expect_send0 (c : Dev nD) : (a2aRd (F := F) m).expect ((c : Thread nD τ), SemLoc.dma sendS0) 0 = N := expect_send m c 0
omit [FloatOps F] in
theorem paid_send0 (c : Dev nD) (d : Fin 3) : (a2aRd (F := F) m).payload ((c : Thread nD τ), SemLoc.dma sendS0) 0 d
    = ((srcSl c 0).view.loc (c : Thread nD τ) ↦[(srcSl c 0).view.set]{fullShare} argAt m c) := pay_send0 m c d
omit [FloatOps F] in
theorem duties_recv0 (c : Dev nD) : (a2aRd (F := F) m).duties ((c : Thread nD τ), SemLoc.dma recvS0) 0 = {0} := duties_recv m c 0
omit [FloatOps F] in
theorem amount_recv0 (c : Dev nD) (d : Fin 3) : (a2aRd (F := F) m).amount ((c : Thread nD τ), SemLoc.dma recvS0) 0 d = N := rfl
omit [FloatOps F] in
theorem expect_recv0 (c : Dev nD) : (a2aRd (F := F) m).expect ((c : Thread nD τ), SemLoc.dma recvS0) 0 = N := expect_recv m c 0
omit [FloatOps F] in
theorem paid_recv0 (c : Dev nD) (d : Fin 3) : (a2aRd (F := F) m).payload ((c : Thread nD τ), SemLoc.dma recvS0) 0 d = recvPay m c 0 := pay_recv0 m c d
omit [FloatOps F] in
theorem duties_send1 (c : Dev nD) : (a2aRd (F := F) m).duties ((c : Thread nD τ), SemLoc.dma sendS1) 0 = {0} := duties_send m c 1
omit [FloatOps F] in
theorem amount_send1 (c : Dev nD) (d : Fin 3) : (a2aRd (F := F) m).amount ((c : Thread nD τ), SemLoc.dma sendS1) 0 d = N := rfl
omit [FloatOps F] in
theorem expect_send1 (c : Dev nD) : (a2aRd (F := F) m).expect ((c : Thread nD τ), SemLoc.dma sendS1) 0 = N := expect_send m c 1
omit [FloatOps F] in
theorem paid_send1 (c : Dev nD) (d : Fin 3) : (a2aRd (F := F) m).payload ((c : Thread nD τ), SemLoc.dma sendS1) 0 d
    = ((srcSl c 1).view.loc (c : Thread nD τ) ↦[(srcSl c 1).view.set]{fullShare} argAt m c) := pay_send1 m c d
omit [FloatOps F] in
theorem duties_recv1 (c : Dev nD) : (a2aRd (F := F) m).duties ((c : Thread nD τ), SemLoc.dma recvS1) 0 = {0} := duties_recv m c 1
omit [FloatOps F] in
theorem amount_recv1 (c : Dev nD) (d : Fin 3) : (a2aRd (F := F) m).amount ((c : Thread nD τ), SemLoc.dma recvS1) 0 d = N := rfl
omit [FloatOps F] in
theorem expect_recv1 (c : Dev nD) : (a2aRd (F := F) m).expect ((c : Thread nD τ), SemLoc.dma recvS1) 0 = N := expect_recv m c 1
omit [FloatOps F] in
theorem paid_recv1 (c : Dev nD) (d : Fin 3) : (a2aRd (F := F) m).payload ((c : Thread nD τ), SemLoc.dma recvS1) 0 d = recvPay m c 1 := pay_recv1 m c d
omit [FloatOps F] in
theorem duties_send2 (c : Dev nD) : (a2aRd (F := F) m).duties ((c : Thread nD τ), SemLoc.dma sendS2) 0 = {0} := duties_send m c 2
omit [FloatOps F] in
theorem amount_send2 (c : Dev nD) (d : Fin 3) : (a2aRd (F := F) m).amount ((c : Thread nD τ), SemLoc.dma sendS2) 0 d = N := rfl
omit [FloatOps F] in
theorem expect_send2 (c : Dev nD) : (a2aRd (F := F) m).expect ((c : Thread nD τ), SemLoc.dma sendS2) 0 = N := expect_send m c 2
omit [FloatOps F] in
theorem paid_send2 (c : Dev nD) (d : Fin 3) : (a2aRd (F := F) m).payload ((c : Thread nD τ), SemLoc.dma sendS2) 0 d
    = ((srcSl c 2).view.loc (c : Thread nD τ) ↦[(srcSl c 2).view.set]{fullShare} argAt m c) := pay_send2 m c d
omit [FloatOps F] in
theorem duties_recv2 (c : Dev nD) : (a2aRd (F := F) m).duties ((c : Thread nD τ), SemLoc.dma recvS2) 0 = {0} := duties_recv m c 2
omit [FloatOps F] in
theorem amount_recv2 (c : Dev nD) (d : Fin 3) : (a2aRd (F := F) m).amount ((c : Thread nD τ), SemLoc.dma recvS2) 0 d = N := rfl
omit [FloatOps F] in
theorem expect_recv2 (c : Dev nD) : (a2aRd (F := F) m).expect ((c : Thread nD τ), SemLoc.dma recvS2) 0 = N := expect_recv m c 2
omit [FloatOps F] in
theorem paid_recv2 (c : Dev nD) (d : Fin 3) : (a2aRd (F := F) m).payload ((c : Thread nD τ), SemLoc.dma recvS2) 0 d = recvPay m c 2 := pay_recv2 m c d

/-! ## The ghost state a body starts from -/

section Body

variable (K : Dev nD × Fin 8 → ℕ)

/-- The cells' invariants device `c`'s body opens, under the names `K` the launch allocated them at: its own eight,
    its peers' barrier cells (its signals), its peers' receive cells (its copies). -/
def invs (c : Dev nD) : sProp 𝕄 :=
  iprop(cellInv ER (a2aRd m) (K (c, 0)) (barCell c) ∗ cellInv ER (a2aRd m) (K (c, 1)) (locCell c)
    ∗ cellInv ER (a2aRd m) (K (c, 2)) (sendCell c 0) ∗ cellInv ER (a2aRd m) (K (c, 3)) (sendCell c 1) ∗ cellInv ER (a2aRd m) (K (c, 4)) (sendCell c 2)
    ∗ cellInv ER (a2aRd m) (K (c, 5)) (recvCell c 0) ∗ cellInv ER (a2aRd m) (K (c, 6)) (recvCell c 1) ∗ cellInv ER (a2aRd m) (K (c, 7)) (recvCell c 2)
    ∗ cellInv ER (a2aRd m) (K (peer c 0, 0)) (barCell (peer c 0)) ∗ cellInv ER (a2aRd m) (K (peer c 1, 0)) (barCell (peer c 1)) ∗ cellInv ER (a2aRd m) (K (peer c 2, 0)) (barCell (peer c 2))
    ∗ cellInv ER (a2aRd m) (K (peer c 0, 5)) (recvCell (peer c 0) 0) ∗ cellInv ER (a2aRd m) (K (peer c 1, 6)) (recvCell (peer c 1) 1) ∗ cellInv ER (a2aRd m) (K (peer c 2, 7)) (recvCell (peer c 2) 2))

instance invs_persistent (c : Dev nD) : BI.Persistent (invs m K c) := by unfold invs; infer_instance

/-- Its positions at round 0 of its eight cells. -/
def poss (c : Dev nD) : sProp 𝕄 :=
  iprop(atPos ER (barCell c) 0 ∅ 0 ∗ atPos ER (locCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- That round 0 is reached: of the peers' barrier cells, and of its own local, send and receive cells. -/
def marks (c : Dev nD) : sProp 𝕄 :=
  iprop(reached ER (barCell (peer c 0)) 0 ∗ reached ER (barCell (peer c 1)) 0 ∗ reached ER (barCell (peer c 2)) 0
    ∗ reached ER (locCell c) 0 ∗ reached ER (sendCell c 0) 0 ∗ reached ER (sendCell c 1) 0 ∗ reached ER (sendCell c 2) 0
    ∗ reached ER (recvCell c 0) 0 ∗ reached ER (recvCell c 1) 0 ∗ reached ER (recvCell c 2) 0)

instance marks_persistent (c : Dev nD) : BI.Persistent (marks (F := F) c) := by unfold marks; infer_instance

/-- The tokens of the duties it pays: duty `rev i` of `peer c i`'s barrier cell, the duty of `peer c j`'s receive cell
    `j`, of its own three send cells and of its local cell. -/
def payToks (c : Dev nD) : sProp 𝕄 :=
  iprop(dutyTok ER (barCell (peer c 0)) 0 (rev 0) ∗ dutyTok ER (barCell (peer c 1)) 0 (rev 1) ∗ dutyTok ER (barCell (peer c 2)) 0 (rev 2)
    ∗ dutyTok ER (recvCell (peer c 0) 0) 0 0 ∗ dutyTok ER (recvCell (peer c 1) 1) 0 0 ∗ dutyTok ER (recvCell (peer c 2) 2) 0 0
    ∗ dutyTok ER (sendCell c 0) 0 0 ∗ dutyTok ER (sendCell c 1) 0 0 ∗ dutyTok ER (sendCell c 2) 0 0
    ∗ dutyTok ER (locCell c) 0 0)

def ghost (c : Dev nD) : sProp 𝕄 := iprop(invs m K c ∗ poss c ∗ marks c ∗ payToks c)

/-- Its credit: three units on its barrier cell, one block's on each receive cell. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

/-- The two arrays, cut: the four column blocks of the argument, the four row blocks of the result as the run found it. -/
def cutIn (c : Dev nD) : sProp 𝕄 :=
  iprop(colLoc m c ∗ colPts m c 0 ∗ colPts m c 1 ∗ colPts m c 2
    ∗ rowPts c c (outAt m c) ∗ rowPts c (peer c 0) (outAt m c) ∗ rowPts c (peer c 1) (outAt m c) ∗ rowPts c (peer c 2) (outAt m c))
/-- After the body: the column blocks unchanged, the row blocks each holding what was written to it. -/
def cutOut (c : Dev nD) : sProp 𝕄 :=
  iprop(colLoc m c ∗ colPts m c 0 ∗ colPts m c 1 ∗ colPts m c 2
    ∗ rowPts c c (locLanded m c) ∗ recvPay m c 0 ∗ recvPay m c 1 ∗ recvPay m c 2)

/-- The seven own cells at zero, closed. -/
def zeros (c : Dev nD) : sProp 𝕄 :=
  iprop(semVal (locCell c) 0 ∗ semVal (sendCell c 0) 0 ∗ semVal (sendCell c 1) 0 ∗ semVal (sendCell c 2) 0
    ∗ semVal (recvCell c 0) 0 ∗ semVal (recvCell c 1) 0 ∗ semVal (recvCell c 2) 0)

abbrev 𝒱₀ : Variants := Variants.none

def bodyPre (c : Dev nD) (W : Waits sig Unit) : sProp 𝕄 :=
  iprop(ghost m K c ∗ creds c ∗ levAts L lv ∗ cutIn m c ∗ owes (c : Thread nD τ) (O₀ c) W)

def bodyPost (c : Dev nD) : sProp 𝕄 :=
  iprop(cutOut m c ∗ zeros c ∗ ∃ W, owes (c : Thread nD τ) (0 : CellTallies nD τ sig Unit) W)

set_option maxHeartbeats 1000000 in
/-- Copy `j` of device `c`, addressed to `n = peer c j`: the column block goes to the engine, the peer's row block `c`
    is written; the send cell's duty gives the column block back, the peer's receive cell's duty hands it the row block
    as written. -/
theorem wp_send_a2a (c n : Dev nD) (j : Fin 3) (hn : n = peer c j) (κ₁ κ₂ : ℕ)
    {hsc : (dstSl c : Memref sig (Dev.tc n : Thread nD τ).2.kind .hbm S1024x512 .f32).view.ref.isScScratch = false}
    {hsrc : (srcSl c j).view.WordExact} {hdst : (dstSl c).view.WordExact}
    {hsem : DmaTarget.Typed .hbm (.dma (recvS j)) (.remote (Dev.tc n : Thread nD τ) (dstSl c) (.dma (sendS j)) hsc)}
    {α : Type} {Q : α → sProp 𝕄} {k : PUnit → Prog (TpuEff nD τ sig (Elt F) Λ₀ .tc) α}
    (O₁ O : CellTallies nD τ sig Unit) (hO : O₁ = O + tallyAt (recvCell (peer c j) j) () N) (W : Waits sig Unit) :
    iprop(cellInv ER (a2aRd m) κ₁ (sendCell c j) ∗ cellInv ER (a2aRd m) κ₂ (recvCell (peer c j) j)
        ∗ ((srcSl c j).view.loc (c : Thread nD τ) ↦[(srcSl c j).view.set]{fullShare} argAt m c)
        ∗ ((dstSl c).view.loc ((peer c j : Dev nD) : Thread nD τ) ↦[(dstSl c).view.set]{fullShare} outAt m (peer c j))
        ∗ owes (c : Thread nD τ) O₁ W
        ∗ dutyTok ER (sendCell c j) 0 0 ∗ reached ER (sendCell c j) 0
        ∗ dutyTok ER (recvCell (peer c j) j) 0 0 ∗ reached ER (recvCell (peer c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcSl c j) (.remote (Dev.tc n : Thread nD τ) (dstSl c) (.dma (sendS j)) hsc) (.dma (recvS j)) hsrc hdst hsem) k) Q) := by
  subst hn
  exact Rounds.wp_send_pointsTo 𝒱₀ ER (a2aRd m) (c : Thread nD τ) none (c' := ((peer c j : Dev nD) : Thread nD τ))
    (src := srcSl c j) (dst := dstSl c) (sS := .dma (sendS j)) (sem := .dma (recvS j)) (q := fullShare) (fs := argAt m c) (κ₁ := κ₁) (κ₂ := κ₂)
    (r₁ := 0) (r₂ := 0) (d₁ := 0) (d₂ := 0) (fd := outAt m (peer c j))
    (by rw [duties_send]; exact Finset.mem_singleton_self _) (by rw [duties_recv]; exact Finset.mem_singleton_self _)
    () () N rfl (amount_send m c j 0) (amount_recv m (peer c j) j 0) O hO (W := W)
    (by rw [payload_send_pts])
    (by rw [payload_recv_peer])

set_option maxHeartbeats 1000000 in
/-- The local copy of device `c`: its column block `c` into its own row block `c`; the local cell's duty hands both back. -/
theorem wp_local_a2a (c : Dev nD) (κ : ℕ)
    {hsrc : (locSl c).view.WordExact} {hdst : (dstSl c).view.WordExact}
    {hsem : DmaTarget.Typed (nD := nD) .hbm (.dma locS) (DmaTarget.here (dstSl c) : DmaTarget nD τ sig (c : Thread nD τ).2 .hbm S1024x512 .f32)}
    {α : Type} {Q : α → sProp 𝕄} {k : PUnit → Prog (TpuEff nD τ sig (Elt F) Λ₀ .tc) α} :
    iprop(cellInv ER (a2aRd m) κ (locCell c) ∗ ((locSl c).view.loc (c : Thread nD τ) ↦[(locSl c).view.set]{fullShare} argAt m c)
        ∗ ((dstSl c).view.loc (c : Thread nD τ) ↦[(dstSl c).view.set]{fullShare} outAt m c)
        ∗ dutyTok ER (locCell c) 0 0 ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (locSl c) (.here (dstSl c)) (.dma locS) hsrc hdst hsem) k) Q) := by
  exact Rounds.wp_copy_pointsTo 𝒱₀ ER (a2aRd m) (c : Thread nD τ) none (src := locSl c) (dst := dstSl c) (sem := .dma locS) (q := fullShare) (fs := argAt m c)
    (κ := κ) (r := 0) (d := 0) (fd := outAt m c)
    (by rw [duties_loc]; exact Finset.mem_singleton_self _) () N rfl (amount_loc m c 0)
    (by rw [payload_loc]; unfold locPay rowPts colLoc locLanded; exact BI.Entails.refl _)

omit [FloatOps F] in
/-- A chain of three as a triple. -/
theorem sep3_of_chain (A B C : sProp 𝕄) : BI.sep A (BI.sep B C) ⊢ iprop(A ∗ B ∗ C) := BI.Entails.refl _

attribute [local sl_canon] dev1_eq dev2_eq dev3_eq dev4_eq dev5_eq dev6_eq
attribute [local sl_rounds] duties_bar duties_loc amount_bar amount_loc expect_bar expect_loc payload_bar_own payload_loc
  duties_send0 duties_send1 duties_send2 duties_recv0 duties_recv1 duties_recv2 amount_send0 amount_send1 amount_send2 amount_recv0 amount_recv1 amount_recv2
  expect_send0 expect_send1 expect_send2 expect_recv0 expect_recv1 expect_recv2 paid_send0 paid_send1 paid_send2 paid_recv0 paid_recv1 paid_recv2
attribute [local sl_rounds high] payload_bar_peer

set_option maxHeartbeats 1600000 in
/-- The body from `bodyPre` to `bodyPost`. -/
theorem sound_body (c : Dev nD) (W : Waits sig Unit) :
    bodyPre m K c W
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2)
          (fun _ => bodyPost m c) := by
  simp only [cc0_body_eq_skeleton]; unfold cc0_body_skel
  simp only [k0_part1_eq_skeleton, k0_part2_eq_skeleton, k0_part3_eq_skeleton]; unfold k0_part1_skel k0_part2_skel k0_part3_skel
  unfold bodyPre ghost invs poss marks payToks creds cutIn rowPts colPts colLoc
  iintro ⟨⟨⟨#HIbar, #HIloc, #HIs0, #HIs1, #HIs2, #HIr0, #HIr1, #HIr2, #HIb0, #HIb1, #HIb2, #HIv0, #HIv1, #HIv2⟩,
      ⟨HatB, HatL, HatS0, HatS1, HatS2, HatR0, HatR1, HatR2⟩,
      ⟨#HrB0, #HrB1, #HrB2, #HrL, #HrS0, #HrS1, #HrS2, #HrR0, #HrR1, #HrR2⟩,
      ⟨HtB0, HtB1, HtB2, HtV0, HtV1, HtV2, HtS0, HtS1, HtS2, HtL⟩⟩,
    ⟨HcB, HcR0, HcR1, HcR2⟩, #Hlev, ⟨HxL, Hx0, Hx1, Hx2, HoC, Ho0, Ho1, Ho2⟩, HO⟩
  have hmw := mayWait_bar (F := F) c
  unfold O₀ O₃
  -- the three signals and the barrier wait
  sl_exec (disch := simp only [dev1_eq, dev2_eq, dev3_eq, dev4_eq, dev5_eq, dev6_eq])
  ihave Hp := (sep3_of_chain _ _ _) $$ HatB_pay1
  icases Hp with ⟨⟨Hd0, #Hv0⟩, ⟨Hd1, #Hv1⟩, ⟨Hd2, #Hv2⟩⟩
  -- copy 0, to `peer c 0`
  iapply (wp_send_a2a m c _ 0 rfl (K (c, 2)) (K (peer c 0, 5)) _ (tallyAt (recvCell (peer c 2) 2) () N + tallyAt (recvCell (peer c 1) 1) () N) rfl _) $$ [Hx0 Hd0 HO HtS0 HtV0]
  · isplitr; · iexact HIs0
    isplitr; · iexact HIv0
    isplitl [Hx0]; · iexact Hx0
    isplitl [Hd0]; · iexact Hd0
    isplitl [HO]; · iexact HO
    isplitl [HtS0]; · iexact HtS0
    isplitr; · iexact HrS0
    isplitl [HtV0]; · iexact HtV0
    iexact Hv0
  iintro ⟨HcS0, HO⟩
  -- copy 1, to `peer c 1`
  sl_exec (disch := simp only [dev1_eq, dev2_eq, dev3_eq, dev4_eq, dev5_eq, dev6_eq])
  iapply (wp_send_a2a m c _ 1 rfl (K (c, 3)) (K (peer c 1, 6)) _ (tallyAt (recvCell (peer c 2) 2) () N) rfl _) $$ [Hx1 Hd1 HO HtS1 HtV1]
  · isplitr; · iexact HIs1
    isplitr; · iexact HIv1
    isplitl [Hx1]; · iexact Hx1
    isplitl [Hd1]; · iexact Hd1
    isplitl [HO]; · iexact HO
    isplitl [HtS1]; · iexact HtS1
    isplitr; · iexact HrS1
    isplitl [HtV1]; · iexact HtV1
    iexact Hv1
  iintro ⟨HcS1, HO⟩
  -- copy 2, to `peer c 2`
  sl_exec (disch := simp only [dev1_eq, dev2_eq, dev3_eq, dev4_eq, dev5_eq, dev6_eq])
  iapply (wp_send_a2a m c _ 2 rfl (K (c, 4)) (K (peer c 2, 7)) _ 0 (zero_add _).symm _) $$ [Hx2 Hd2 HO HtS2 HtV2]
  · isplitr; · iexact HIs2
    isplitr; · iexact HIv2
    isplitl [Hx2]; · iexact Hx2
    isplitl [Hd2]; · iexact Hd2
    isplitl [HO]; · iexact HO
    isplitl [HtS2]; · iexact HtS2
    isplitr; · iexact HrS2
    isplitl [HtV2]; · iexact HtV2
    iexact Hv2
  iintro ⟨HcS2, HO⟩
  -- the local copy
  sl_exec (disch := simp only [dev1_eq, dev2_eq, dev3_eq, dev4_eq, dev5_eq, dev6_eq])
  iapply (wp_local_a2a m c (K (c, 1))) $$ [HxL HoC HtL]
  · isplitr; · iexact HIloc
    isplitl [HxL]; · iexact HxL
    isplitl [HoC]; · iexact HoC
    isplitl [HtL]; · iexact HtL
    iexact HrL
  iintro HcL
  -- the seven waits
  sl_exec (disch := simp only [dev1_eq, dev2_eq, dev3_eq, dev4_eq, dev5_eq, dev6_eq])
  -- the seven own cells close: their counters at zero are the device's again
  imod (Rounds.cell_close ER (a2aRd m) (Set.mem_univ (K (c, 1))) (fun h => h) (R := 1) (duties_later m (locCell c))) $$ [HatL] with HzL
  · isplitr; · iexact HIloc
    iexact HatL
  imod (Rounds.cell_close ER (a2aRd m) (Set.mem_univ (K (c, 2))) (fun h => h) (R := 1) (duties_later m (sendCell c 0))) $$ [HatS0] with HzS0
  · isplitr; · iexact HIs0
    iexact HatS0
  imod (Rounds.cell_close ER (a2aRd m) (Set.mem_univ (K (c, 3))) (fun h => h) (R := 1) (duties_later m (sendCell c 1))) $$ [HatS1] with HzS1
  · isplitr; · iexact HIs1
    iexact HatS1
  imod (Rounds.cell_close ER (a2aRd m) (Set.mem_univ (K (c, 4))) (fun h => h) (R := 1) (duties_later m (sendCell c 2))) $$ [HatS2] with HzS2
  · isplitr; · iexact HIs2
    iexact HatS2
  imod (Rounds.cell_close ER (a2aRd m) (Set.mem_univ (K (c, 5))) (fun h => h) (R := 1) (duties_later m (recvCell c 0))) $$ [HatR0] with HzR0
  · isplitr; · iexact HIr0
    iexact HatR0
  imod (Rounds.cell_close ER (a2aRd m) (Set.mem_univ (K (c, 6))) (fun h => h) (R := 1) (duties_later m (recvCell c 1))) $$ [HatR1] with HzR1
  · isplitr; · iexact HIr1
    iexact HatR1
  imod (Rounds.cell_close ER (a2aRd m) (Set.mem_univ (K (c, 7))) (fun h => h) (R := 1) (duties_later m (recvCell c 2))) $$ [HatR2] with HzR2
  · isplitr; · iexact HIr2
    iexact HatR2
  first | sl_step | (rw [wp_ret]; imodintro)
  unfold bodyPost cutOut zeros locPay colPts colLoc rowPts
  icases HatL_pay1 with ⟨HrowC, HcolL⟩
  isplitl [HcolL HatS0_pay1 HatS1_pay1 HatS2_pay1 HrowC HatR0_pay1 HatR1_pay1 HatR2_pay1]
  · isplitl [HcolL]; · iexact HcolL
    isplitl [HatS0_pay1]; · iexact HatS0_pay1
    isplitl [HatS1_pay1]; · iexact HatS1_pay1
    isplitl [HatS2_pay1]; · iexact HatS2_pay1
    isplitl [HrowC]; · iexact HrowC
    isplitl [HatR0_pay1]; · iexact HatR0_pay1
    isplitl [HatR1_pay1]; · iexact HatR1_pay1
    iexact HatR2_pay1
  isplitl [HzL HzS0 HzS1 HzS2 HzR0 HzR1 HzR2]
  · isplitl [HzL]; · iexact HzL
    isplitl [HzS0]; · iexact HzS0
    isplitl [HzS1]; · iexact HzS1
    isplitl [HzS2]; · iexact HzS2
    isplitl [HzR0]; · iexact HzR0
    isplitl [HzR1]; · iexact HzR1
    iexact HzR2
  iexists _; iexact HO

/-- info: 'Cert.KernelIdeal.A2A.sound_body' depends on axioms: [propext, Classical.choice, Quot.sound] -/
#guard_msgs in #print axioms sound_body

end Body

end Cert.KernelIdeal.A2A

end
-- ==== Proof.KernelIdealCut.lean ====
/-
  Cutting the arrays of the all-to-all into the blocks its copies move, and putting the result array back together.

  A result array (4096 rows, 512 columns) is the disjoint union of its four row blocks of 1024 rows; an argument array
  (1024 rows, 2048 columns) of its four column blocks of 512 columns. On the ring of four, a device `c` and its three
  peers (or its three sources) are all four devices, each once: so ownership of a whole array is ownership of the block
  of `c` and of the blocks of the three peers. After the copies, row block `s` of device `c`'s result holds column
  block `c` of device `s`'s argument, entry by entry: row `1024 s + r` of the result is row `r` of that argument, and
  column `l` of the result its column `512 c + l`.
-/
import proofs.«900001_g7700000000000002_dist_a2a_v7x_i4_i_m1024_n512_f32_1_alg».proof.Proof.KernelIdealProto
import Idealize.ShloMosaic.Lib.Pipeline.Value

noncomputable section

namespace Cert.KernelIdeal.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The blocks, as sets of indices -/

/-- Row block `s` of a result array: rows `1024 s` to `1024 s + 1023`. -/
def rowSet (s : Dev nD) : Finset S4096x512.Idx :=
  Finset.univ.filter fun i => 1024 * s.val ≤ (i 0).val ∧ (i 0).val < 1024 * s.val + 1024
/-- Column block `k` of an argument array: columns `512 k` to `512 k + 511`. -/
def colSet (k : Dev nD) : Finset S1024x2048.Idx :=
  Finset.univ.filter fun i => 512 * k.val ≤ (i 1).val ∧ (i 1).val < 512 * k.val + 512

theorem mem_rowSet (s : Dev nD) (i : S4096x512.Idx) :
    i ∈ rowSet s ↔ 1024 * s.val ≤ (i 0).val ∧ (i 0).val < 1024 * s.val + 1024 := by
  simp only [rowSet, Finset.mem_filter, Finset.mem_univ, true_and]
theorem mem_colSet (k : Dev nD) (i : S1024x2048.Idx) :
    i ∈ colSet k ↔ 512 * k.val ≤ (i 1).val ∧ (i 1).val < 512 * k.val + 512 := by
  simp only [colSet, Finset.mem_filter, Finset.mem_univ, true_and]

/-- The view of row block `s` is row block `s`. -/
theorem dstSl_set (s : Dev nD) : (dstSl s).view.set = rowSet s := by
  refine Finset.ext fun (i : S4096x512.Idx) => ?_
  rw [mem_rowSet, View.set_slice_whole, Rect.mem_set_unit, k0_off1_eq s]
  have h1 : (i 1).val < 512 := idx2_lt1 i
  constructor
  · intro h; exact h (0 : Fin 2)
  · intro h a
    match a with
    | ⟨0, _⟩ => exact h
    | ⟨1, _⟩ => exact ⟨Nat.zero_le _, by show (i 1).val < 0 + 512; omega⟩

/-- The view of the column block copy `j` reads is column block `peer c j`. -/
theorem srcSl_set (c : Dev nD) (j : Fin 3) : (srcSl c j).view.set = colSet (peer c j) := by
  refine Finset.ext fun (i : S1024x2048.Idx) => ?_
  rw [mem_colSet, View.set_slice_whole, Rect.mem_set_unit, k0_off2_eq c j]
  have h0 : (i 0).val < 1024 := idx2_lt0 i
  have hp : (peer c j).val = (c.val + j.val + 1) % 4 := by show (c.val + 1 + j.val) % 4 = _; omega
  rw [hp]
  constructor
  · intro h; exact h (1 : Fin 2)
  · intro h a
    match a with
    | ⟨0, _⟩ => exact ⟨Nat.zero_le _, by show (i 0).val < 0 + 1024; omega⟩
    | ⟨1, _⟩ => exact h

/-- The view of the column block the local copy reads is column block `c`. -/
theorem locSl_set (c : Dev nD) : (locSl c).view.set = colSet c := by
  refine Finset.ext fun (i : S1024x2048.Idx) => ?_
  rw [mem_colSet, View.set_slice_whole, Rect.mem_set_unit, k0_off3_eq c]
  have h0 : (i 0).val < 1024 := idx2_lt0 i
  constructor
  · intro h; exact h (1 : Fin 2)
  · intro h a
    match a with
    | ⟨0, _⟩ => exact ⟨Nat.zero_le _, by show (i 0).val < 0 + 1024; omega⟩
    | ⟨1, _⟩ => exact h

theorem rows_disjoint : ∀ s ∈ (Finset.univ : Finset (Dev nD)), ∀ s' ∈ (Finset.univ : Finset (Dev nD)), s ≠ s' →
    Disjoint (rowSet s) (rowSet s') := fun s _ s' _ h =>
  Finset.disjoint_left.mpr fun i hi hi' => h (Fin.ext (by
    have := (mem_rowSet s i).mp hi; have := (mem_rowSet s' i).mp hi'; omega))
theorem cols_disjoint : ∀ k ∈ (Finset.univ : Finset (Dev nD)), ∀ k' ∈ (Finset.univ : Finset (Dev nD)), k ≠ k' →
    Disjoint (colSet k) (colSet k') := fun k _ k' _ h =>
  Finset.disjoint_left.mpr fun i hi hi' => h (Fin.ext (by
    have := (mem_colSet k i).mp hi; have := (mem_colSet k' i).mp hi'; omega))

/-- Every row lies in the row block of its quotient by 1024, -/
theorem rows_cover : (Finset.univ : Finset (Dev nD)).biUnion rowSet = Finset.univ := by
  refine Finset.ext fun i => ?_
  simp only [Finset.mem_biUnion, Finset.mem_univ, true_and, iff_true]
  have h0 : (i 0).val < 4096 := idx2_lt0 i
  exact ⟨⟨(i 0).val / 1024, by show (i 0).val / 1024 < 4; omega⟩, (mem_rowSet _ i).mpr
    ⟨by show 1024 * ((i 0).val / 1024) ≤ _; omega, by show _ < 1024 * ((i 0).val / 1024) + 1024; omega⟩⟩
/-- every column in the column block of its quotient by 512. -/
theorem cols_cover : (Finset.univ : Finset (Dev nD)).biUnion colSet = Finset.univ := by
  refine Finset.ext fun i => ?_
  simp only [Finset.mem_biUnion, Finset.mem_univ, true_and, iff_true]
  have h1 : (i 1).val < 2048 := idx2_lt1 i
  exact ⟨⟨(i 1).val / 512, by show (i 1).val / 512 < 4; omega⟩, (mem_colSet _ i).mpr
    ⟨by show 512 * ((i 1).val / 512) ≤ _; omega, by show _ < 512 * ((i 1).val / 512) + 512; omega⟩⟩

/-! ## Ownership of an array as ownership of its four blocks -/

omit [FloatOps F] in
theorem rowPts_eq (d s : Dev nD) (f : Buf (Elt F) ((d : Thread nD τ).loc main_v1)) :
    rowPts d s f = (((d : Thread nD τ).loc main_v1) ↦[rowSet s]{fullShare} f : sProp 𝕄) := by
  unfold rowPts; rw [dstSl_set]
omit [FloatOps F] in
theorem colPts_eq (c : Dev nD) (j : Fin 3) :
    colPts m c j = (((c : Thread nD τ).loc main_arg0) ↦[colSet (peer c j)]{fullShare} argAt m c : sProp 𝕄) := by
  unfold colPts; rw [srcSl_set]
omit [FloatOps F] in
theorem colLoc_eq (c : Dev nD) :
    colLoc m c = (((c : Thread nD τ).loc main_arg0) ↦[colSet c]{fullShare} argAt m c : sProp 𝕄) := by
  unfold colLoc; rw [locSl_set]

omit [FloatOps F] in
/-- A whole result array is its four row blocks. -/
theorem out_rows (d : Dev nD) (f : Buf (Elt F) ((d : Thread nD τ).loc main_v1)) :
    (((d : Thread nD τ).loc main_v1) ↦{fullShare} f : sProp 𝕄) = bigSep Finset.univ fun s : Dev nD => rowPts d s f := by
  rw [show (fun s : Dev nD => rowPts d s f)
      = fun s => (((d : Thread nD τ).loc main_v1) ↦[rowSet s]{fullShare} f : sProp 𝕄) from funext fun s => rowPts_eq d s f,
    ← pointsTo_biUnion Finset.univ (ℓ := (d : Thread nD τ).loc main_v1) rowSet rows_disjoint, rows_cover]
omit [FloatOps F] in
/-- A whole argument array is its four column blocks. -/
theorem arg_cols (d : Dev nD) (f : Buf (Elt F) ((d : Thread nD τ).loc main_arg0)) :
    (((d : Thread nD τ).loc main_arg0) ↦{fullShare} f : sProp 𝕄)
      = bigSep Finset.univ fun k : Dev nD => (((d : Thread nD τ).loc main_arg0) ↦[colSet k]{fullShare} f : sProp 𝕄) := by
  rw [← pointsTo_biUnion Finset.univ (ℓ := (d : Thread nD τ).loc main_arg0) colSet cols_disjoint, cols_cover]

/-- On the ring of four a device and its three peers are the four devices, each once; -/
theorem ring_peers (c : Dev nD) : (Finset.univ : Finset (Dev nD)) = [c, peer c 0, peer c 1, peer c 2].toFinset := by
  revert c; decide
theorem ring_peers_nodup (c : Dev nD) : [c, peer c 0, peer c 1, peer c 2].Nodup := by revert c; decide
/-- so are a device and its three sources. -/
theorem ring_srcs (c : Dev nD) : (Finset.univ : Finset (Dev nD)) = [c, src c 0, src c 1, src c 2].toFinset := by
  revert c; decide
theorem ring_srcs_nodup (c : Dev nD) : [c, src c 0, src c 1, src c 2].Nodup := by revert c; decide

omit [FloatOps F] in
/-- Device `c`'s argument array: the column block of its local copy and those of its three sends. -/
theorem cut_arg_eq (c : Dev nD) :
    ((((c : Thread nD τ).loc main_arg0) ↦{fullShare} argAt m c : sProp 𝕄))
      = iprop(colLoc m c ∗ colPts m c 0 ∗ colPts m c 1 ∗ colPts m c 2) := by
  rw [arg_cols, bigSep_univ_eq_bigSepL [c, peer c 0, peer c 1, peer c 2] (ring_peers c) (ring_peers_nodup c),
    bigSepL_cons_cons, bigSepL_cons_cons, bigSepL_cons_cons, bigSepL_singleton,
    colLoc_eq, colPts_eq, colPts_eq, colPts_eq]
  rfl

omit [FloatOps F] in
theorem cut_arg (c : Dev nD) :
    ((((c : Thread nD τ).loc main_arg0) ↦{fullShare} argAt m c : sProp 𝕄))
      ⊣⊢ iprop(colLoc m c ∗ colPts m c 0 ∗ colPts m c 1 ∗ colPts m c 2) :=
  ⟨Entails.of_eq (cut_arg_eq m c), Entails.of_eq (cut_arg_eq m c).symm⟩

omit [FloatOps F] in
/-- Device `c`'s result array as the run finds it: its own row block and those of its three peers. -/
theorem cut_out (c : Dev nD) :
    ((((c : Thread nD τ).loc main_v1) ↦{fullShare} outAt m c : sProp 𝕄))
      ⊢ iprop(rowPts c c (outAt m c) ∗ rowPts c (peer c 0) (outAt m c) ∗ rowPts c (peer c 1) (outAt m c) ∗ rowPts c (peer c 2) (outAt m c)) := by
  rw [out_rows, bigSep_univ_eq_bigSepL [c, peer c 0, peer c 1, peer c 2] (ring_peers c) (ring_peers_nodup c),
    bigSepL_cons_cons, bigSepL_cons_cons, bigSepL_cons_cons, bigSepL_singleton]
  exact Entails.of_eq rfl

/-! ## Where a block's entries lie, by coordinates -/

theorem dst_emb0 (s : Dev nD) (y : S1024x512.Idx) :
    (((dstSl s).view.emb y : S4096x512.Idx) 0).val = 1024 * s.val + (y 0).val := by
  show k0_off1 s 0 + 1 * (y 0).val = _
  rw [k0_off1_eq s]; show 1024 * s.val + 1 * (y 0).val = _; omega
theorem dst_emb1 (s : Dev nD) (y : S1024x512.Idx) :
    (((dstSl s).view.emb y : S4096x512.Idx) 1).val = (y 1).val := by
  show k0_off1 s 1 + 1 * (y 1).val = _
  rw [k0_off1_eq s]; show 0 + 1 * (y 1).val = _; omega
theorem src_emb0 (s : Dev nD) (j : Fin 3) (y : S1024x512.Idx) :
    (((srcSl s j).view.emb y : S1024x2048.Idx) 0).val = (y 0).val := by
  show k0_off2 s (BitVec.ofNat 32 (1 + j.val)) 0 + 1 * (y 0).val = _
  rw [k0_off2_eq s j]; show 0 + 1 * (y 0).val = _; omega
theorem src_emb1 (s : Dev nD) (j : Fin 3) (y : S1024x512.Idx) :
    (((srcSl s j).view.emb y : S1024x2048.Idx) 1).val = 512 * (peer s j).val + (y 1).val := by
  show k0_off2 s (BitVec.ofNat 32 (1 + j.val)) 1 + 1 * (y 1).val = 512 * ((s.val + 1 + j.val) % 4) + (y 1).val
  rw [k0_off2_eq s j]; show 512 * ((s.val + j.val + 1) % 4) + 1 * (y 1).val = _; omega
theorem loc_emb0 (s : Dev nD) (y : S1024x512.Idx) :
    (((locSl s).view.emb y : S1024x2048.Idx) 0).val = (y 0).val := by
  show k0_off3 s 0 + 1 * (y 0).val = _
  rw [k0_off3_eq s]; show 0 + 1 * (y 0).val = _; omega
theorem loc_emb1 (s : Dev nD) (y : S1024x512.Idx) :
    (((locSl s).view.emb y : S1024x2048.Idx) 1).val = 512 * s.val + (y 1).val := by
  show k0_off3 s 1 + 1 * (y 1).val = _
  rw [k0_off3_eq s]; show 512 * s.val + 1 * (y 1).val = _; omega

/-! ## What the copies leave is the final result -/

/-- An argument array read at equal devices and equal indices. -/
theorem argAt_congr {d d' : Dev nD} (h : d = d') {x x' : S1024x2048.Idx} (hx : x = x') :
    (argAt m d x : Elt F .f32) = argAt m d' x' := by subst h; subst hx; rfl

/-- Entry `y` of row block `s` of device `d`'s final result is entry `(y₀, 512 d + y₁)` of device `s`'s argument. -/
theorem outFinal_dst (d s : Dev nD) (y : S1024x512.Idx) (x : S1024x2048.Idx)
    (h0 : (x 0).val = (y 0).val) (h1 : (x 1).val = 512 * d.val + (y 1).val) :
    (outFinal m d ((dstSl s).view.emb y) : Elt F .f32) = argAt m s x := by
  have hy0 : (y 0).val < 1024 := idx2_lt0 y
  have e0 := dst_emb0 s y
  have e1 := dst_emb1 s y
  rw [outFinal_apply]
  refine argAt_congr m (Fin.ext ?_) (funext fun a => Fin.ext ?_)
  · show (((dstSl s).view.emb y : S4096x512.Idx) 0).val / 1024 = s.val
    omega
  · match a with
    | ⟨0, _⟩ =>
      show (((dstSl s).view.emb y : S4096x512.Idx) 0).val % 1024 = (x 0).val
      omega
    | ⟨1, _⟩ =>
      show 512 * d.val + (((dstSl s).view.emb y : S4096x512.Idx) 1).val = (x 1).val
      omega

/-- On row block `s`, what `s`'s copy `j` leaves in `peer s j`'s result array is that device's final result. -/
theorem landed_eq (s : Dev nD) (j : Fin 3) (i : S4096x512.Idx) (hi : i ∈ (dstSl s).view.set) :
    (landed m s j i : Elt F .f32) = outFinal m (peer s j) i := by
  obtain ⟨y, rfl⟩ := View.exists_emb_of_mem_set _ hi
  unfold landed
  rw [View.write_emb_of_mem _ _ (Finset.mem_univ y), View.read_apply, cast_cast, cast_eq]
  exact (outFinal_dst m (peer s j) s y _ (src_emb0 s j y) (src_emb1 s j y)).symm

/-- On row block `c`, what `c`'s local copy leaves in its own result array is its final result. -/
theorem locLanded_eq (c : Dev nD) (i : S4096x512.Idx) (hi : i ∈ (dstSl c).view.set) :
    (locLanded m c i : Elt F .f32) = outFinal m c i := by
  obtain ⟨y, rfl⟩ := View.exists_emb_of_mem_set _ hi
  unfold locLanded
  rw [View.write_emb_of_mem _ _ (Finset.mem_univ y), View.read_apply, cast_cast, cast_eq]
  exact (outFinal_dst m c c y _ (loc_emb0 c y) (loc_emb1 c y)).symm

theorem rowPts_landed (s : Dev nD) (j : Fin 3) :
    rowPts (peer s j) s (landed m s j) = rowPts (F := F) (peer s j) s (outFinal m (peer s j)) := by
  unfold rowPts; exact pointsTo_congr fun i hi => landed_eq m s j i hi
theorem rowPts_locLanded (c : Dev nD) :
    rowPts c c (locLanded m c) = rowPts (F := F) c c (outFinal m c) := by
  unfold rowPts; exact pointsTo_congr fun i hi => locLanded_eq m c i hi
/-- What lands on `c`'s receive cell `j` is row block `src c j` of `c`'s final result. -/
theorem recvPay_eq (c : Dev nD) (j : Fin 3) : recvPay m c j = rowPts (F := F) c (src c j) (outFinal m c) := by
  unfold recvPay; rw [rowPts_landed, peer_src]

/-- The local copy's row block and the three received ones make device `c`'s final result array. -/
theorem join_out (c : Dev nD) :
    iprop(rowPts c c (locLanded m c) ∗ recvPay m c 0 ∗ recvPay m c 1 ∗ recvPay m c 2)
      ⊢ ((((c : Thread nD τ).loc main_v1) ↦{fullShare} outFinal m c : sProp 𝕄)) := by
  rw [rowPts_locLanded, recvPay_eq, recvPay_eq, recvPay_eq, out_rows,
    bigSep_univ_eq_bigSepL [c, src c 0, src c 1, src c 2] (ring_srcs c) (ring_srcs_nodup c),
    bigSepL_cons_cons, bigSepL_cons_cons, bigSepL_cons_cons, bigSepL_singleton]
  exact Entails.of_eq rfl

end Cert.KernelIdeal.A2A

end
-- ==== Proof.KernelIdealLaunch.lean ====
/-
  THE RUN of the all-to-all on the four devices.

  Each device's body is proved once (at a symbolic device); here the four bodies are put together. At launch every
  device owns its eight semaphores at zero; the protocol's ghost state is minted for all thirty-two cells at once, each
  cell's invariant is allocated, and the duty tokens are dealt to the devices that pay them: duty rev i of the barrier
  cell of peer c i, the duty of receive cell j of peer c j, and the duties of its own send and local cells go to device c.
  What the other devices owe a device's cells is its launch credit: three units on its barrier cell, one block's credit
  on each receive cell. The two arrays travel whole into the body's invariant, are cut into blocks for the body, and are
  joined again after it; the final state is read off the two whole arrays.
-/
import proofs.«900001_g7700000000000002_dist_a2a_v7x_i4_i_m1024_n512_f32_1_alg».proof.Proof.KernelIdealBody
import proofs.«900001_g7700000000000002_dist_a2a_v7x_i4_i_m1024_n512_f32_1_alg».proof.Proof.KernelIdealCut

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The proof data: one point, no window -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the body: the protocol's ghost state at some names, the launch credit, the levels, and the two arrays whole,
    as the run found them. -/
def Φ₀ (c : Dev nD) : sProp 𝕄 :=
  iprop((∃ K, ghost m K c) ∗ creds c ∗ levAts L lv
    ∗ (((c : Thread nD τ).loc main_arg0) ↦{fullShare} argAt m c) ∗ (((c : Thread nD τ).loc main_v1) ↦{fullShare} outAt m c))
/-- After it: the argument array unchanged, the result array at its final contents, the seven own cells at zero. -/
def Φ₁ (c : Dev nD) : sProp 𝕄 :=
  iprop((((c : Thread nD τ).loc main_arg0) ↦{fullShare} argAt m c) ∗ (((c : Thread nD τ).loc main_v1) ↦{fullShare} outFinal m c) ∗ zeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- With no window, a product over the windows is empty. -/
theorem bigSep_W (Φ : Fin cfg0.W → sProp 𝕄) : bigSep Finset.univ Φ = (iprop(emp) : sProp 𝕄) := by
  rw [show (Finset.univ : Finset (Fin cfg0.W)) = ∅ from Finset.univ_eq_empty]; rfl

/-! ## The body obligation -/

/-- What the body leaves, joined: the four column blocks are the argument array, the four row blocks the final result. -/
theorem body_post (c : Dev nD) :
    bodyPost m c ⊢ iprop(Φ₁ m c ∗ (dats m 0 c).owesAt () t₀.succ ∗ emp) := by
  unfold bodyPost cutOut Φ₁ Dat.owesAt Pipeline.owesWithin
  rw [show (dats m 0 c).owed t₀.succ = 0 from rfl]
  iintro ⟨⟨HxL, Hx0, Hx1, Hx2, HoC, Ho0, Ho1, Ho2⟩, Hz, ⟨%W, HO⟩⟩
  isplitl [HxL Hx0 Hx1 Hx2 HoC Ho0 Ho1 Ho2 Hz]
  · isplitl [HxL Hx0 Hx1 Hx2]
    · iapply (cut_arg m c).2
      isplitl [HxL]; · iexact HxL
      isplitl [Hx0]; · iexact Hx0
      isplitl [Hx1]; · iexact Hx1
      iexact Hx2
    isplitl [HoC Ho0 Ho1 Ho2]
    · iapply (join_out m c)
      isplitl [HoC]; · iexact HoC
      isplitl [Ho0]; · iexact Ho0
      isplitl [Ho1]; · iexact Ho1
      iexact Ho2
    iexact Hz
  isplitl [HO]
  · iexists W
    isplitr; · ipureintro; exact fun _ _ => Or.inl trivial
    iexact HO
  · iempintro

/-- The body from the cut arrays to the joined ones. -/
theorem body_run (K : Dev nD × Fin 8 → ℕ) (c : Dev nD) (W : Waits sig Unit) :
    bodyPre m K c W
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2)
          (fun _ => iprop(Φ₁ m c ∗ (dats m 0 c).owesAt () t₀.succ ∗ emp)) :=
  (sound_body m K c W).trans (wp_mono _ _ _ fun _ => body_post m c)

set_option maxRecDepth 4000 in
/-- The library's body obligation on device c: the two arrays are cut for the body and joined after it. -/
theorem body_obligation (c : Dev nD) : BodyObligation (dats (F := F) m 0 c) (defs₀ (F := F)) 𝒱₀ () Set.univ := fun t => by
  rw [fin_N t]
  rw [bigSep_W, bigSep_W]
  show iprop(Φ₀ m c ∗ (dats m 0 c).owesAt () t₀.castSucc ∗ emp)
    ⊢ wp frame (wpE (defs₀ (F := F)) 𝒱₀ c none) Set.univ
      (cc0_body (Memref.whole main_arg0) (Memref.isWhole_whole _) (Memref.whole main_v1) (Memref.isWhole_whole _) cc0_scratch0 cc0_scratch1 cc0_scratch2)
      (fun _ => iprop(Φ₁ m c ∗ (dats m 0 c).owesAt () t₀.succ ∗ emp))
  unfold Φ₀ Dat.owesAt Pipeline.owesWithin
  rw [show (dats m 0 c).owed t₀.castSucc = O₀ c from rfl]
  iintro ⟨⟨⟨%K, Hg⟩, Hcr, Hlev, Harg, Hout⟩, ⟨%W, %hW, HO⟩, -⟩
  ihave Hca := (cut_arg m c).1 $$ Harg
  ihave Hco := (cut_out m c) $$ Hout
  icases Hca with ⟨HxL, Hx0, Hx1, Hx2⟩
  icases Hco with ⟨HoC, Ho0, Ho1, Ho2⟩
  iapply (body_run m K c W)
  unfold bodyPre cutIn
  isplitl [Hg]; · iexact Hg
  isplitl [Hcr]; · iexact Hcr
  isplitl [Hlev]; · iexact Hlev
  isplitr [HO]
  · isplitl [HxL]; · iexact HxL
    isplitl [Hx0]; · iexact Hx0
    isplitl [Hx1]; · iexact Hx1
    isplitl [Hx2]; · iexact Hx2
    isplitl [HoC]; · iexact HoC
    isplitl [Ho0]; · iexact Ho0
    isplitl [Ho1]; · iexact Ho1
    iexact Ho2
  · iexact HO

/-! ## The launch -/

theorem ownSemFacts : Pipeline.OwnSemFacts cfg0.spec osem := by decide

theorem csem_inj : Function.Injective (csem : Fin 8 → SemLoc sig) := by decide

theorem kcell_injective : Function.Injective (kcell : Dev nD × Fin 8 → GSem nD τ sig) := by
  rintro ⟨c, k⟩ ⟨c', k'⟩ h
  have h1 : c = c' := by have := congrArg (fun g : GSem nD τ sig => g.1.1) h; exact this
  subst h1
  have h2 : k = k' := csem_inj (congrArg Prod.snd h)
  subst h2; rfl
/-- The thirty-two cells: eight on each device. -/
def a2aCells : Finset (GSem nD τ sig) := Finset.univ.map ⟨kcell, kcell_injective⟩

/-- A device's own cells' ten duty tokens as minted, by cell and by duty: its barrier's three, its three receive
    cells', its three send cells', its local cell's. -/
abbrev tokK : Fin 10 → Fin 8 := fun
  | 0 => 0 | 1 => 0 | 2 => 0 | 3 => 5 | 4 => 6 | 5 => 7 | 6 => 2 | 7 => 3 | 8 => 4 | 9 => 1
abbrev tokD : Fin 10 → Fin 3 := fun
  | 0 => rev 0 | 1 => rev 1 | 2 => rev 2 | 3 => 0 | 4 => 0 | 5 => 0 | 6 => 0 | 7 => 0 | 8 => 0 | 9 => 0
theorem tokKD_inj : Function.Injective (fun j : Fin 10 => (tokK j, tokD j)) := by decide

abbrev tokOf (cj : Dev nD × Fin 10) : GSem nD τ sig × ℕ × Fin 3 := (kcell (cj.1, tokK cj.2), 0, tokD cj.2)
theorem tokOf_injective : Function.Injective (tokOf : Dev nD × Fin 10 → GSem nD τ sig × ℕ × Fin 3) := by
  rintro ⟨c, j⟩ ⟨c', j'⟩ h
  have h1 : (c, tokK j) = (c', tokK j') := kcell_injective (congrArg (fun x : GSem nD τ sig × ℕ × Fin 3 => x.1) h)
  have h2 : tokD j = tokD j' := congrArg (fun x : GSem nD τ sig × ℕ × Fin 3 => x.2.2) h
  have hc : c = c' := congrArg Prod.fst h1
  have hj : j = j' := tokKD_inj (Prod.ext (congrArg Prod.snd h1) h2)
  rw [hc, hj]
def a2aToks : Finset (GSem nD τ sig × ℕ × Fin 3) := Finset.univ.map ⟨tokOf, tokOf_injective⟩

def u₀ : UU :=
  (initOf (Pipeline.cells cfgs cellOf_inj) (Pipeline.launchToks cfgs cellOf_inj), initOf a2aCells a2aToks)

/-- The duty tokens of device c's own cells. -/
def toks (c : Dev nD) : sProp 𝕄 :=
  iprop(dutyTok ER (barCell c) 0 (rev 0) ∗ dutyTok ER (barCell c) 0 (rev 1) ∗ dutyTok ER (barCell c) 0 (rev 2)
    ∗ dutyTok ER (recvCell c 0) 0 0 ∗ dutyTok ER (recvCell c 1) 0 0 ∗ dutyTok ER (recvCell c 2) 0 0
    ∗ dutyTok ER (sendCell c 0) 0 0 ∗ dutyTok ER (sendCell c 1) 0 0 ∗ dutyTok ER (sendCell c 2) 0 0
    ∗ dutyTok ER (locCell c) 0 0)

/-- What the launch element deals device c. -/
def G (c : Dev nD) : sProp 𝕄 :=
  iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem fund_a2a : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : Fin 8 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_fin10]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The local, send and receive semaphores are the kernel's own seven; -/
theorem ownSems0_eq (c : Dev nD) : (Pipeline.ownSems0 (Ix := Unit) (Name := ℕ) (U := UU) (Lvl := ℕ) (Val := Elt F) (τ := τ) osem c : sProp 𝕄)
    = zeros c := by
  rw [Pipeline.ownSems0_eq_of_list c osem [0, 1, 2, 3, 4, 5, 6] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  unfold zeros
  iintro ⟨⟨H1, H2, H3, H4, H5, H6, H7⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  iexact H7

/-- Each device's eight cells' invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant under the names chosen, and that round 0 of every cell is reached. -/
def records (K : Dev nD × Fin 8 → ℕ) : sProp 𝕄 :=
  iprop((bigSep Finset.univ fun ck : Dev nD × Fin 8 => cellInv ER (a2aRd m) (K ck) (kcell ck))
    ∗ bigSep Finset.univ fun ck : Dev nD × Fin 8 => reached ER (kcell ck) 0)

instance records_persistent (K : Dev nD × Fin 8 → ℕ) : BI.Persistent (records m K) := by unfold records; infer_instance

theorem inv_at (K : Dev nD × Fin 8 → ℕ) (ck : Dev nD × Fin 8) :
    (bigSep Finset.univ fun ck : Dev nD × Fin 8 => (cellInv ER (a2aRd m) (K ck) (kcell ck) : sProp 𝕄)) ⊢ cellInv ER (a2aRd m) (K ck) (kcell ck) :=
  bigSep_elim (Finset.mem_univ ck)
theorem reached_at (ck : Dev nD × Fin 8) :
    (bigSep Finset.univ fun ck : Dev nD × Fin 8 => (reached ER (kcell ck) 0 : sProp 𝕄)) ⊢ reached ER (kcell ck) 0 :=
  bigSep_elim (Finset.mem_univ ck)

/-- What stays with device c: its positions, and the tokens of the duties it pays. -/
def linear (c : Dev nD) : sProp 𝕄 := iprop(poss c ∗ payToks c)

theorem ghost_intro (K : Dev nD × Fin 8 → ℕ) (c : Dev nD) : iprop(records m K ∗ linear c) ⊢ G' m c := by
  unfold records linear G' ghost invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (peer c 0, 0)); iexact HI
    isplitr; · iapply (inv_at m K (peer c 1, 0)); iexact HI
    isplitr; · iapply (inv_at m K (peer c 2, 0)); iexact HI
    isplitr; · iapply (inv_at m K (peer c 0, 5)); iexact HI
    isplitr; · iapply (inv_at m K (peer c 1, 6)); iexact HI
    iapply (inv_at m K (peer c 2, 7)); iexact HI
  isplitl [Hpos]; · iexact Hpos
  isplitr
  · isplitr; · iapply (reached_at (F := F) (peer c 0, 0)); iexact HR
    isplitr; · iapply (reached_at (F := F) (peer c 1, 0)); iexact HR
    isplitr; · iapply (reached_at (F := F) (peer c 2, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    iapply (reached_at (F := F) (c, 7)); iexact HR
  iexact Htok

/-- Going j + 1 places round the ring of four is a bijection of the devices, with inverse going j + 1 places back. -/
def pe (j : Fin 3) : Dev nD ≃ Dev nD := ⟨fun c => peer c j, fun c => src c j, fun c => src_peer c j, fun c => peer_src c j⟩

/-- The tokens dealt around the ring: duty rev i of device e's barrier cell goes to its payer, the device c with
    peer c i = e; the token of device e's receive cell j goes to the device c with peer c j = e, whose copy j lands
    there; the send and local tokens stay. Summed over the devices, each is a reindexing along a bijection. -/
theorem toks_around : (bigSep Finset.univ fun c : Dev nD => (toks c : sProp 𝕄)) ⊢ bigSep Finset.univ fun c : Dev nD => payToks c := by
  unfold toks payToks
  simp only [bigSep_sep']
  rw [bigSep_univ_equiv (pe 0) (fun e : Dev nD => (dutyTok ER (barCell e) 0 (rev 0) : sProp 𝕄)),
    bigSep_univ_equiv (pe 1) (fun e : Dev nD => (dutyTok ER (barCell e) 0 (rev 1) : sProp 𝕄)),
    bigSep_univ_equiv (pe 2) (fun e : Dev nD => (dutyTok ER (barCell e) 0 (rev 2) : sProp 𝕄)),
    bigSep_univ_equiv (pe 0) (fun e : Dev nD => (dutyTok ER (recvCell e 0) 0 0 : sProp 𝕄)),
    bigSep_univ_equiv (pe 1) (fun e : Dev nD => (dutyTok ER (recvCell e 1) 0 0 : sProp 𝕄)),
    bigSep_univ_equiv (pe 2) (fun e : Dev nD => (dutyTok ER (recvCell e 2) 0 0 : sProp 𝕄))]
  iintro ⟨H1, H2, H3, H4, H5, H6, H7, H8, H9, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (a2aRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 8 => (atPos ER (kcell (c, k)) 0 ∅ 0 : sProp 𝕄)) payToks).symm).trans
      (bigSep_mono fun c _ => show _ ⊢ linear c from Entails.of_eq (by unfold linear poss; rw [bigSep_fin8])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What device d owes the receive cell j of its peer j, and the barrier cell of its peer i. -/
abbrev dR (j : Fin 3) : Dev nD → CellTallies nD τ sig Unit := fun d => tallyAt (recvCell (peer d j) j) () N
abbrev dB (i : Fin 3) : Dev nD → CellTallies nD τ sig Unit := fun d => tallyAt (barCell (peer d i)) () 1

theorem O₀_eq : (O₀ : Dev nD → CellTallies nD τ sig Unit)
    = fun d => ((((dR 2 d + dR 1 d) + dR 0 d) + dB 2 d) + dB 1 d) + dB 0 d := rfl

/-- The unit on c's barrier cell owed by the device whose peer i is c, -/
theorem launch_bar (i : Fin 3) (c : Dev nD) : (Pipeline.launchCred (dB i) c : sProp 𝕄) ⊢ cred (tallyAt (barCell c) () 1) :=
  Pipeline.launchCred_tallyAt (SemLoc.reg barS) (fun d => peer d i) (fun c => src c i) (fun c => peer_src c i) (fun d => src_peer d i) () 1 c
/-- the block's credit on c's receive cell j owed by the device whose peer j is c. -/
theorem launch_recv (j : Fin 3) (c : Dev nD) : (Pipeline.launchCred (dR j) c : sProp 𝕄) ⊢ cred (tallyAt (recvCell c j) () N) :=
  Pipeline.launchCred_tallyAt (SemLoc.dma (recvS j)) (fun d => peer d j) (fun c => src c j) (fun c => peer_src c j) (fun d => src_peer d j) () N c

/-- Three units on one cell are one credit of three. -/
theorem cred_bar3 (c : Dev nD) :
    iprop(cred (tallyAt (barCell c) () 1) ∗ cred (tallyAt (barCell c) () 1) ∗ cred (tallyAt (barCell c) () 1))
      ⊢ (cred (tallyAt (barCell c) () 3) : sProp 𝕄) := by
  have h : (tallyAt (barCell c) () 3 : CellTallies nD τ sig Unit)
      = tallyAt (barCell c) () 1 + (tallyAt (barCell c) () 1 + tallyAt (barCell c) () 1) := by
    rw [tallyAt_add, tallyAt_add]
  rw [h]
  exact (sep_mono_right (cred_add _ _).2).trans (cred_add _ _).2

theorem launch_creds (c : Dev nD) : (Pipeline.launchCred O₀ c : sProp 𝕄) ⊢ creds c := by
  rw [O₀_eq, Pipeline.launchCred_add, Pipeline.launchCred_add, Pipeline.launchCred_add, Pipeline.launchCred_add, Pipeline.launchCred_add]
  unfold creds
  iintro ⟨⟨⟨⟨⟨H2, H1⟩, H0⟩, B2⟩, B1⟩, B0⟩
  isplitl [B0 B1 B2]
  · iapply (cred_bar3 (F := F) c)
    isplitl [B0]; · iapply (launch_bar (F := F) 0 c); iexact B0
    isplitl [B1]; · iapply (launch_bar (F := F) 1 c); iexact B1
    iapply (launch_bar (F := F) 2 c); iexact B2
  isplitl [H0]; · iapply (launch_recv (F := F) 0 c); iexact H0
  isplitl [H1]; · iapply (launch_recv (F := F) 1 c); iexact H1
  iapply (launch_recv (F := F) 2 c); iexact H2

/-! ### The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, unscopedRest0_eq]
  iintro ⟨⟨Harg, Hout⟩, Hlev, Hcr, -, HG⟩
  ihave Hc := (launch_creds (F := F) c) $$ Hcr
  imodintro
  unfold Φ₀ G'
  isplitl
  · isplitl [HG]; · iexact HG
    isplitl [Hc]; · iexact Hc
    isplitl [Hlev]; · iexact Hlev
    isplitl [Harg]; · iexact Harg
    iexact Hout
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

/-- The two arrays whole after the run. -/
def Yfin (c : Dev nD) : sProp 𝕄 :=
  iprop((((c : Thread nD τ).loc main_arg0) ↦{fullShare} argAt m c) ∗ (((c : Thread nD τ).loc main_v1) ↦{fullShare} outFinal m c))

theorem phi1_exit (c : Dev nD) :
    (dats m 0 c).Φ (Fin.last cfg0.N) ⊢ iprop(Yfin m c ∗ Pipeline.ownSems0 osem c ∗ Pipeline.scopedRest cfg0.spec c) := by
  rw [show (dats m 0 c).Φ (Fin.last cfg0.N) = Φ₁ m c from rfl, scopedRest0_eq, ownSems0_eq]
  unfold Φ₁ Yfin
  iintro ⟨Ha, Ho, Hz⟩
  isplitl [Ha Ho]
  · isplitl [Ha] <;> iassumption
  isplitl [Hz]; · iexact Hz
  iempintro

theorem waits (c : Dev nD) : (levAts L lv : sProp 𝕄) ⊢ Pipeline.cellsWaits cfgs (dats m) () 0 c :=
  Pipeline.cellsWaits_intro cfgs (dats m) () 0 c fun w => w.elim0

/-! ### The run -/

set_option maxRecDepth 8000 in
/-- At the compiled mesh of four devices, for any float values, from any memory with zero counters: every weakly fair
    execution of @main (the four kernels handshaking on the runtime's barrier semaphore, then exchanging blocks)
    terminates, and every final state has each device's result array at the final contents and its argument unchanged. -/
theorem run_main (m : (ℓ : Loc nD τ sig) → Buf (Elt F) ℓ) (ρ : Dev nD → PrngReg) :
    θ_run (defs (F := F)) (onTc (τ := τ) (main (F := F))) ⟨m, fun _ => 0, ρ⟩
      (fun r => ∀ c : Dev nD,
        r.2.mem ((c : Thread nD τ).loc main_v1) = outFinal m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_a2a m) $$ HX with HG
      imodintro
      isplitl [HP] <;> iassumption)
    (hglob := glob m)
    (hA := fun _ w => w.elim0) (hpf := fun _ k => k.elim0)
    (X := Φ₀ m) (Y := Yfin m) (Z := fun _ => iprop(emp))
    (hX := start_intro m ρ) (hin := phi0_intro m) (hout := phi1_exit m)
    (QY := fun c s => s.mem ((c : Thread nD τ).loc main_v1) = outFinal m c
      ∧ s.mem ((c : Thread nD τ).loc main_arg0) = m ((c : Thread nD τ).loc main_arg0))
    (hY := fun c s' => by
      unfold Yfin
      iintro ⟨⟨Ha, Ho⟩, -, HSI⟩
      icombine HSI Ha gives %ha
      icombine HSI Ho gives %ho
      imodintro
      isplitr; · ipureintro; exact ⟨Buf.eq_of_forall_mem_univ ho, Buf.eq_of_forall_mem_univ ha⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KernelIdealValue.lean ====
/-
  Device `c`'s result array read as a block of ONE whole array.

  Let `X` be an array of 4096 rows and 2048 columns, and let every device `s` hold, as its argument, row block `s`
  of `X` (rows `1024 s` to `1024 s + 1023`). Entry `(i₀, i₁)` of device `c`'s result is entry
  `(i₀ % 1024, 512 c + i₁)` of the argument of device `i₀ / 1024`, that is entry
  `(1024 (i₀ / 1024) + i₀ % 1024, 512 c + i₁) = (i₀, 512 c + i₁)` of `X`: device `c`'s result is column block `c` of `X`.
-/
import proofs.«900001_g7700000000000002_dist_a2a_v7x_i4_i_m1024_n512_f32_1_alg».proof.Proof.KernelIdealSpec
import Idealize.ShloMosaic.Lib.Layout

noncomputable section

namespace Cert.KernelIdeal.A2A

open Cert.KernelIdeal
open Idealize.ShloMosaic Idealize.ShloMosaic.TcCoe Idealize.SL.Sem
open Idealize.ShloMosaic.ValueIdx

variable {F : FTy → Type} [FloatOps F]

/-- If each device's argument array is its row block of `X`, device `c`'s result array is column block `c` of `X`. -/
theorem outFinal_block (m : (ℓ : Loc nD τ sig) → Buf (Elt F) ℓ)
    (X : (⟨2, ![4096, 2048]⟩ : Shape).Idx → Elt F .f32)
    (hX : ∀ c : Dev nD, m ((c.tc : Thread nD τ).loc main_arg0)
      = Layout.block ⟨2, ![1024, 2048]⟩ ⟨2, ![4096, 2048]⟩ 0 4 c X)
    (c : Dev nD) :
    outFinal m c = Layout.block ⟨2, ![4096, 512]⟩ ⟨2, ![4096, 2048]⟩ 1 4 c X := by
  funext i
  rw [outFinal_apply]
  show m (((rowDev i).tc : Thread nD τ).loc main_arg0) (srcIdx c i) = _
  rw [hX (rowDev i), Layout.block_apply, Layout.block_apply]
  congr 1
  funext b
  apply Fin.ext
  match b with
  | ⟨0, _⟩ =>
    -- the row: 1024 (i₀ / 1024) + i₀ % 1024 = i₀
    show (i 0).val / 1024 * 1024 + (i 0).val % 1024 = (i 0).val
    omega
  | ⟨1, _⟩ =>
    -- the column: 512 c + i₁ on both sides
    show 512 * c.val + (i 1).val = c.val * 512 + (i 1).val
    omega

end Cert.KernelIdeal.A2A

end
-- ==== Proof.RefRun.lean ====
/-
  The reference's run. The reference returns its argument: its program has no operation, so every weakly fair
  execution ends at once with every array as the launch found it.
-/
import proofs.«900001_g7700000000000002_dist_a2a_v7x_i4_i_m1024_n512_f32_1_alg».proof.Proof.Gen.ReferenceIdeal
import Idealize.ShloMosaic.Lib.StableHlo.Run

noncomputable section

namespace Cert.ReferenceIdeal.A2A

open Cert.ReferenceIdeal Cert.ReferenceIdeal.Gen
open Idealize.ShloMosaic Idealize.ShloMosaic.TcCoe Idealize.SL.Sem Idealize.ShloMosaic.StableHlo

variable {F : FTy → Type} [FloatOps F]

/-- The program is the empty line of operations. -/
theorem main_eq (c : Dev nD) : main (F := F) c = seq [] := rfl
/-- No array of the program is scoped, -/
theorem scopedRefs_eq : (Finset.univ.filter fun b : Ref sig .tc => b.isScoped) = ∅ := by decide
/-- and it has no semaphore. -/
theorem scopedSems_eq : (Finset.univ.filter fun sm : SemLoc sig => sm.isScoped .tc) = ∅ := by decide

/-- From any memory with zero counters every weakly fair execution of the reference terminates, and the argument
    array (which is also the result) ends as it began. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq scopedRefs_eq scopedSems_eq defs main (fun _ => []) main_eq (fun _ => trivial) m ρ
      (fun _ _ h => nomatch h))

end Cert.ReferenceIdeal.A2A

end
-- ==== Proof.Claims.lean ====
/-
  The five claims about the all-to-all.

  The kernel moves data and computes nothing: on every device its run (at the machine's words and at the ideal
  values alike) terminates with the result array holding, in row block `s`, column block `c` of device `s`'s
  argument, and with the argument array unchanged. The reference returns its argument `X`. When each device's
  argument is its row block of `X`, device `c`'s result is therefore column block `c` of `X`, which is the
  block of the reference's result that device `c` is to hold. No claim needs the inputs finite.
-/
import proofs.«900001_g7700000000000002_dist_a2a_v7x_i4_i_m1024_n512_f32_1_alg».proof.Defs
import proofs.«900001_g7700000000000002_dist_a2a_v7x_i4_i_m1024_n512_f32_1_alg».proof.Proof.Gen.Kernel
import proofs.«900001_g7700000000000002_dist_a2a_v7x_i4_i_m1024_n512_f32_1_alg».proof.Proof.Gen.KernelIdeal
import proofs.«900001_g7700000000000002_dist_a2a_v7x_i4_i_m1024_n512_f32_1_alg».proof.Proof.Gen.ReferenceIdeal
import proofs.«900001_g7700000000000002_dist_a2a_v7x_i4_i_m1024_n512_f32_1_alg».proof.Proof.Gen.Pre_finite_inputs_Kernel
import proofs.«900001_g7700000000000002_dist_a2a_v7x_i4_i_m1024_n512_f32_1_alg».proof.Proof.Gen.Pre_finite_inputs_ReferenceIdeal
import proofs.«900001_g7700000000000002_dist_a2a_v7x_i4_i_m1024_n512_f32_1_alg».proof.Proof.KernelLaunch
import proofs.«900001_g7700000000000002_dist_a2a_v7x_i4_i_m1024_n512_f32_1_alg».proof.Proof.KernelIdealLaunch
import proofs.«900001_g7700000000000002_dist_a2a_v7x_i4_i_m1024_n512_f32_1_alg».proof.Proof.KernelIdealValue
import proofs.«900001_g7700000000000002_dist_a2a_v7x_i4_i_m1024_n512_f32_1_alg».proof.Proof.RefRun

noncomputable section

namespace Cert.Proof.A2AClaims

open Idealize.ShloMosaic Idealize.SL.Sem

/-- The kernel at the machine's words runs and leaves its argument arrays as they were. -/
theorem frame_k : Cert.frame_Kernel := fun m g _ =>
  (θ_run (Cert.Kernel.defs (F := Bits)) _ _).mono (fun _ h c => (h c).2) (Cert.Kernel.A2A.run_main (F := Bits) m g)

/-- The same at the ideal values. -/
theorem frame_ki : Cert.frame_KernelIdeal := fun m g _ =>
  (θ_run (Cert.KernelIdeal.defs (F := Ideal)) _ _).mono (fun _ h c => (h c).2) (Cert.KernelIdeal.A2A.run_main (F := Ideal) m g)

/-- The reference runs and leaves its argument array as it was. -/
theorem frame_ri : Cert.frame_ReferenceIdeal := fun m g _ =>
  Cert.ReferenceIdeal.A2A.run (F := Ideal) m g

/-- The ideal pass rewrote no operation: there is nothing to preserve. -/
theorem preserves : Cert.preserves_Kernel_KernelIdeal := trivial

/-- The whole array is the reference's argument `X`, which is also its result. Device `c`'s result ends as
    column block `c` of `X` because each device's argument is its row block of `X`. -/
theorem algebraic : Cert.algebraic_KernelIdeal_ReferenceIdeal := by
  intro m g m' g' _ hagree
  refine ⟨m' (((0 : Dev Cert.ReferenceIdeal.nD).tc : Thread Cert.ReferenceIdeal.nD Cert.ReferenceIdeal.τ).loc Cert.ReferenceIdeal.main_arg0), ?_, ?_⟩
  · refine (θ_run (Cert.KernelIdeal.defs (F := Ideal)) _ _).mono (fun _ h c => ⟨(h c).1.trans ?_, (h c).2⟩)
      (Cert.KernelIdeal.A2A.run_main (F := Ideal) m g)
    exact Cert.KernelIdeal.A2A.outFinal_block m _ hagree c
  · exact (θ_run (Cert.ReferenceIdeal.defs (F := Ideal)) _ _).mono (fun _ h => ⟨h 0, h 0⟩)
      (Cert.ReferenceIdeal.A2A.run (F := Ideal) m' g')

end Cert.Proof.A2AClaims

end
-- ==== Proof.lean ====
/- The all-to-all on 4 devices moves data and computes nothing: device `c`'s result is column block `c` of the whole array
   whose row blocks are the devices' arguments, and the reference returns that whole array. The five claims are proved in
   Proof/Claims.lean from the kernel's run, read at the machine's words and at the ideal values, and the reference's run. -/
import proofs.«900001_g7700000000000002_dist_a2a_v7x_i4_i_m1024_n512_f32_1_alg».proof.Defs
import proofs.«900001_g7700000000000002_dist_a2a_v7x_i4_i_m1024_n512_f32_1_alg».proof.Proof.Gen.Kernel
import proofs.«900001_g7700000000000002_dist_a2a_v7x_i4_i_m1024_n512_f32_1_alg».proof.Proof.Gen.Kernel.Skeleton
import proofs.«900001_g7700000000000002_dist_a2a_v7x_i4_i_m1024_n512_f32_1_alg».proof.Proof.Gen.Kernel.Launch
import proofs.«900001_g7700000000000002_dist_a2a_v7x_i4_i_m1024_n512_f32_1_alg».proof.Proof.Gen.Kernel.Points
import proofs.«900001_g7700000000000002_dist_a2a_v7x_i4_i_m1024_n512_f32_1_alg».proof.Proof.Gen.Kernel.Frame
import proofs.«900001_g7700000000000002_dist_a2a_v7x_i4_i_m1024_n512_f32_1_alg».proof.Proof.Gen.KernelIdeal
import proofs.«900001_g7700000000000002_dist_a2a_v7x_i4_i_m1024_n512_f32_1_alg».proof.Proof.Gen.KernelIdeal.Skeleton
import proofs.«900001_g7700000000000002_dist_a2a_v7x_i4_i_m1024_n512_f32_1_alg».proof.Proof.Gen.KernelIdeal.Launch
import proofs.«900001_g7700000000000002_dist_a2a_v7x_i4_i_m1024_n512_f32_1_alg».proof.Proof.Gen.KernelIdeal.Points
import proofs.«900001_g7700000000000002_dist_a2a_v7x_i4_i_m1024_n512_f32_1_alg».proof.Proof.Gen.KernelIdeal.Frame
import proofs.«900001_g7700000000000002_dist_a2a_v7x_i4_i_m1024_n512_f32_1_alg».proof.Proof.Gen.ReferenceIdeal
import proofs.«900001_g7700000000000002_dist_a2a_v7x_i4_i_m1024_n512_f32_1_alg».proof.Proof.Gen.Pre_finite_inputs_Kernel
import proofs.«900001_g7700000000000002_dist_a2a_v7x_i4_i_m1024_n512_f32_1_alg».proof.Proof.Gen.Pre_finite_inputs_ReferenceIdeal
import proofs.«900001_g7700000000000002_dist_a2a_v7x_i4_i_m1024_n512_f32_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  A2AClaims.frame_k, A2AClaims.frame_ki, A2AClaims.frame_ri, A2AClaims.preserves, A2AClaims.algebraic⟩

end Cert.Proof

end
